-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S4096 .f32 .bf16
  ∧ IdealRules.truncf_extf.Statement Cert.KernelIdeal.S512x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S262144x256 : Shape := ⟨2, ![262144, 256]⟩
abbrev S262144 : Shape := ⟨1, ![262144]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S262144x256 : S_.BroadcastsInDim S262144x256 (![] : Fin 0 → Fin S262144x256.rank)
  reducesTo_S262144x256_S_d0_1 : S262144x256.ReducesTo [0, 1] S_

variable [Facts]

def fn {F : FTy → Type} [FloatOps F] (main_arg0 : FVec F S4096x256 .f32) (main_arg1 : FVec F S4096x256 .f32) (main_arg2 : FVec F S262144x256 .f32) (main_arg3 : IVec S262144 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S262144x256 .f32 := Host.absf main_arg2
  let main_cst_2 : FVec F S_ .f32 := constant S_ .f32 0x7F800000#32
  let main_v10 : FVec F S262144x256 .f32 := broadcastInDim S262144x256 ![] bcast_S_S262144x256 main_cst_2
  let main_v11 : IVec S262144x256 1 := cmpf .olt main_v9 main_v10
  let main_c_3 : IVec S_ 1 := constantI S_ 1 1#1
  let main_v12 : IVec S_ 1 := (fun x v => Host.reduce IntOp.andi x v reducesTo_S262144x256_S_d0_1 h_S_) main_v11 main_c_3
  let main_v13 : IVec S_ 1 := andi main_v8 main_v12
  main_v13
-- ==== Kernel.lean ====
abbrev S4096x256 : Shape := ⟨2, ![4096, 256]⟩
abbrev S262144x256 : Shape := ⟨2, ![262144, 256]⟩
abbrev S262144 : Shape := ⟨1, ![262144]⟩
abbrev S4096x384 : Shape := ⟨2, ![4096, 384]⟩
abbrev S4096 : Shape := ⟨1, ![4096]⟩
abbrev S4096x1 : Shape := ⟨2, ![4096, 1]⟩
abbrev S4096x126 : Shape := ⟨2, ![4096, 126]⟩
abbrev S2x4096x128 : Shape := ⟨3, ![2, 4096, 128]⟩
abbrev S512x256 : Shape := ⟨2, ![512, 256]⟩
abbrev S512 : Shape := ⟨1, ![512]⟩
abbrev S1x4096x128 : Shape := ⟨3, ![1, 4096, 128]⟩
abbrev S4096x128 : Shape := ⟨2, ![4096, 128]⟩
abbrev S512x1 : Shape := ⟨2, ![512, 1]⟩
abbrev S1x512 : Shape := ⟨2, ![1, 512]⟩
abbrev S512x4096 : Shape := ⟨2, ![512, 4096]⟩
abbrev S4096x512 : Shape := ⟨2, ![4096, 512]⟩
abbrev S512x384 : Shape := ⟨2, ![512, 384]⟩
abbrev S512x125 : Shape := ⟨2, ![512, 125]⟩
abbrev S512x128 : Shape := ⟨2, ![512, 128]⟩
abbrev S_ : Shape := ⟨0, ![]⟩

abbrev nBuf : Space → Nat
  | .hbm => 27
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S262144x256, .f32⟩
  | .hbm, ⟨3, _⟩ => ⟨S262144, .i32⟩
  | .hbm, ⟨4, _⟩ => ⟨S4096x384, .bf16⟩
  | .hbm, ⟨5, _⟩ => ⟨S2x4096x128, .f32⟩
  | .hbm, ⟨6, _⟩ => ⟨S_, .f32⟩
  | .hbm, ⟨7, _⟩ => ⟨S4096x128, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .i1⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x384, .bf16⟩
  | .local _ .vmem, ⟨3, _⟩ => ⟨S4096x384, .bf16⟩
  | .local _ .vmem, ⟨4, _⟩ => ⟨S512x256, .f32⟩
  | .local _ .vmem, ⟨5, _⟩ => ⟨S512x256, .f32⟩
  | .local _ .vmem, ⟨6, _⟩ => ⟨S512, .i32⟩
  | .local _ .vmem, ⟨7, _⟩ => ⟨S512, .i32⟩
  | .local _ .vmem, ⟨8, _⟩ => ⟨S1x4096x128, .f32⟩
  | .local _ .vmem, ⟨9, _⟩ => ⟨S1x4096x128, .f32⟩
  | .local _ .vmem, ⟨10, _⟩ => ⟨S4096x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_scratch0 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 256], ![false, false]⟩

def k1_cond2 (i : grid1.Coords) : BitVec 1 :=
  let arg1 : BitVec 32 := BitVec.ofNat 32 (i 1).val
  let c255_i32 : BitVec 32 := 255#32
  let v60 : BitVec 1 := Scalar.cmpi .eq arg1 c255_i32
  let v61 : BitVec 32 := Scalar.extui v60
  let c0_i32_18 : BitVec 32 := 0#32
  let v62 : BitVec 1 := Scalar.cmpi .ne v61 c0_i32_18
  v62

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 1 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  ![v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4096x384 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  bitsLt_bf16_f32 : FTy.bits .bf16 < FTy.bits .f32
  inb_S4096x384_S4096x256_0_0 : ∀ a, (![0, 0] : Fin 2 → Nat) a + S4096x256.size a ≤ S4096x384.size a
  packedbf16_S4096x384_S4096x256_0_0 : (Rect.unit (s := S4096x384) ![0, 0] S4096x256.size inb_S4096x384_S4096x256_0_0).PackedRows (EltTy.packing .bf16)
  shapeCasts_S4096_S4096x1 : S4096.ShapeCasts S4096x1
  inb_S4096x384_S4096x1_0_256 : ∀ a, (![0, 256] : Fin 2 → Nat) a + S4096x1.size a ≤ S4096x384.size a
  h_S4096x1 : 0 < S4096x1.numel
  packedbf16_S4096x384_S4096x1_0_256 : (Rect.unit (s := S4096x384) ![0, 256] S4096x1.size inb_S4096x384_S4096x1_0_256).PackedRows (EltTy.packing .bf16)
  inb_S4096x384_S4096x1_0_257 : ∀ a, (![0, 257] : Fin 2 → Nat) a + S4096x1.size a ≤ S4096x384.size a
  packedbf16_S4096x384_S4096x1_0_257 : (Rect.unit (s := S4096x384) ![0, 257] S4096x1.size inb_S4096x384_S4096x1_0_257).PackedRows (EltTy.packing .bf16)
  inb_S4096x384_S4096x126_0_258 : ∀ a, (![0, 258] : Fin 2 → Nat) a + S4096x126.size a ≤ S4096x384.size a
  h_S4096x126 : 0 < S4096x126.numel
  packedbf16_S4096x384_S4096x126_0_258 : (Rect.unit (s := S4096x384) ![0, 258] S4096x126.size inb_S4096x384_S4096x126_0_258).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512_S512_0 : ∀ a, (![0] : Fin 1 → Nat) a + S512.size a ≤ S512.size a
  h_S512 : 0 < S512.numel
  shapeCasts_S512_S512x1 : S512.ShapeCasts S512x1
  shapeCasts_S512_S1x512 : S512.ShapeCasts S1x512
  iota_S512x4096_d1_w32 : S512x4096.Iotas .tc 32 [1]
  broadcasts_S512x1_S512x4096 : S512x1.Broadcasts S512x4096
  natLt_1_32 : 1 < 32
  iota_S4096x512_d0_w32 : S4096x512.Iotas .tc 32 [0]
  broadcasts_S1x512_S4096x512 : S1x512.Broadcasts S4096x512
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  slices_S512x384_o0_0_S512x256 : S512x384.Slices ![0, 0] S512x256
  slices_S512x384_o0_256_S512x1 : S512x384.Slices ![0, 256] S512x1
  slices_S512x384_o0_257_S512x1 : S512x384.Slices ![0, 257] S512x1
  inb_S512x256_S512x256_0_0 : ∀ a, (![0, 0] : Fin 2 → Nat) a + S512x256.size a ≤ S512x256.size a
  h_S512x256 : 0 < S512x256.numel
  reduces_S512x256_S512 : S512x256.Reduces [1] S512
  concatenates_S512x1_S512x1_S512x1_S512x125_S512x128_d1 : Shape.Concatenates [S512x1, S512x1, S512x1, S512x125] S512x128 1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  reducesTo_S2x4096x128_S4096x128_d0 : S2x4096x128.ReducesTo [0] S4096x128
  h_S_ : 0 < S_.numel
  slices_S4096x128_S4096x1_0_0 : S4096x128.Slices ![0, 0] S4096x1
  slices_S4096x128_S4096x1_0_1 : S4096x128.Slices ![0, 1] S4096x1
  slices_S4096x128_S4096x1_0_2 : S4096x128.Slices ![0, 2] S4096x1
  bcast_S_S4096x1 : S_.BroadcastsInDim S4096x1 (![] : Fin 0 → Fin S4096x1.rank)
  reducesTo_S4096x1_S_d0_1 : S4096x1.ReducesTo [0, 1] S_
  dot_S512x4096_S4096x384_S512x384_1_0_0_1_n_n_wf : DotDims.WF S512x4096 S4096x384 S512x384 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x384.size a ≤ S4096x384.size a
  hwx0_2 : ∀ i : grid0.Coords, EltTy.bits .bf16 = 32 ∨ (Rect.block (s := S4096x384) S4096x384.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x384.size a ≤ S4096x384.size a
  hwx1_0 : ∀ i : grid1.Coords, EltTy.bits .bf16 = 32 ∨ (Rect.block (s := S4096x384) S4096x384.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S262144x256.size a
  hwx1_1 : ∀ i : grid1.Coords, EltTy.bits .f32 = 32 ∨ (Rect.block (s := S262144x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S262144.size a
  hwx1_2 : ∀ i : grid1.Coords, EltTy.bits .i32 = 32 ∨ (Rect.block (s := S262144) S512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x128.size a ≤ S2x4096x128.size a
  hwx1_3 : ∀ i : grid1.Coords, EltTy.bits .f32 = 32 ∨ (Rect.block (s := S2x4096x128) S1x4096x128.size (cc1_transform_3 i) (hinb1_3 i)).WholeWords (EltTy.packing .f32)

variable [Facts₀]

def dot_S512x4096_S4096x384_S512x384_1_0_0_1_n_n : DotDims S512x4096 S4096x384 S512x384 where
  lhsContracting := [1]
  rhsContracting := [0]
  lhsNonContracting := [0]
  rhsNonContracting := [1]
  lhsBatch := []
  rhsBatch := []
  wf := dot_S512x4096_S4096x384_S512x384_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x384.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4096x384.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S262144x256 : Shape := ⟨2, ![262144, 256]⟩
abbrev S262144 : Shape := ⟨1, ![262144]⟩
abbrev S_ : Shape := ⟨0, ![]⟩
abbrev S4096 : Shape := ⟨1, ![4096]⟩
abbrev S262144x1 : Shape := ⟨2, ![262144, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S262144x256, .f32⟩
  | .hbm, ⟨3, _⟩ => ⟨S262144, .i32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x256, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x256, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x256, .f32⟩
  | .hbm, ⟨29, _⟩ => ⟨S262144x256, .f32⟩
  | .hbm, ⟨30, _⟩ => ⟨S_, .f32⟩
  | .hbm, ⟨31, _⟩ => ⟨S262144, .f32⟩
  | .hbm, ⟨32, _⟩ => ⟨S262144x256, .f32⟩
  | .hbm, ⟨33, _⟩ => ⟨S_, .f32⟩
  | .hbm, ⟨34, _⟩ => ⟨S262144, .f32⟩
  | .hbm, ⟨35, _⟩ => ⟨S262144, .f32⟩
  | .hbm, ⟨36, _⟩ => ⟨S262144x256, .f32⟩
  | .hbm, ⟨37, _⟩ => ⟨S_, .f32⟩
  | .hbm, ⟨38, _⟩ => ⟨S262144, .f32⟩
  | .hbm, ⟨39, _⟩ => ⟨S262144, .f32⟩
  | .hbm, ⟨40, _⟩ => ⟨S262144, .f32⟩
  | .hbm, ⟨41, _⟩ => ⟨S_, .f32⟩
  | .hbm, ⟨42, _⟩ => ⟨S262144, .f32⟩
  | .hbm, ⟨43, _⟩ => ⟨S262144, .f32⟩
  | .hbm, ⟨44, _⟩ => ⟨S262144, .f32⟩
  | .hbm, ⟨45, _⟩ => ⟨S_, .f32⟩
  | .hbm, ⟨46, _⟩ => ⟨S262144, .f32⟩
  | .hbm, ⟨47, _⟩ => ⟨S262144, .f32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144, .f32⟩
  | .hbm, ⟨57, _⟩ => ⟨S262144, .f32⟩
  | .hbm, ⟨58, _⟩ => ⟨S_, .f32⟩
  | .hbm, ⟨59, _⟩ => ⟨S262144, .f32⟩
  | .hbm, ⟨60, _⟩ => ⟨S262144, .f32⟩
  | .hbm, ⟨61, _⟩ => ⟨S_, .f32⟩
  | .hbm, ⟨62, _⟩ => ⟨S4096, .f32⟩
  | .hbm, ⟨63, _⟩ => ⟨S262144x1, .i32⟩
  | .hbm, ⟨64, _⟩ => ⟨S4096, .f32⟩
  | .hbm, ⟨65, _⟩ => ⟨S_, .f32⟩
  | .hbm, ⟨66, _⟩ => ⟨S262144, .f32⟩
  | .hbm, ⟨67, _⟩ => ⟨S_, .f32⟩
  | .hbm, ⟨68, _⟩ => ⟨S4096, .f32⟩
  | .hbm, ⟨69, _⟩ => ⟨S262144x1, .i32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .i1⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_v17 : Ref sig .tc := ⟨.hbm, 35, rfl⟩
abbrev main_call3_v0 : Ref sig .tc := ⟨.hbm, 36, rfl⟩
abbrev main_call3_cst : Ref sig .tc := ⟨.hbm, 37, rfl⟩
abbrev main_call3_v1 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_11 : Ref sig .tc := ⟨.hbm, 71, rfl⟩
abbrev main_v42 : Ref sig .tc := ⟨.hbm, 72, rfl⟩
abbrev main_v43 : Ref sig .tc := ⟨.hbm, 73, rfl⟩
abbrev main_cst_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_call4_v0 : Ref sig .tc := ⟨.hbm, 79, rfl⟩
abbrev main_call4_v1 : Ref sig .tc := ⟨.hbm, 80, rfl⟩
abbrev main_v47 : Ref sig .tc := ⟨.hbm, 81, rfl⟩
abbrev main_cst_14 : Ref sig .tc := ⟨.hbm, 82, rfl⟩
abbrev main_v48 : Ref sig .tc := ⟨.hbm, 83, rfl⟩
abbrev main_cst_15 : Ref sig .tc := ⟨.hbm, 84, rfl⟩
abbrev main_v49 : Ref sig .tc := ⟨.hbm, 85, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S_S4096 : S_.BroadcastsInDim S4096 (![] : Fin 0 → Fin S4096.rank)
  bcast_S_S262144 : S_.BroadcastsInDim S262144 (![] : Fin 0 → Fin S262144.rank)
  bcast_S262144_S262144x1_0 : S262144.BroadcastsInDim S262144x1 (![0] : Fin 1 → Fin S262144x1.rank)
  reducesTo_S262144x256_S262144_d1 : S262144x256.ReducesTo [1] S262144
  reducesTo_S4096_S_d0 : S4096.ReducesTo [0] S_
  gather_S4096x256_S262144x1_S262144x256_1_0_n_n_0_1_1256_wf : GatherDims.WF S4096x256 S262144x1 S262144x256 [1] [0] [] [0] [] 1 ![1, 256]
  gather_S4096_S262144x1_S262144_n_0_n_n_0_1_1_wf : GatherDims.WF S4096 S262144x1 S262144 [] [0] [] [0] [] 1 ![1]
  scatter_S4096_S262144x1_S262144_n_0_0_1_wf : ScatterDims.WF S4096 S262144x1 S262144 [] [0] [0] 1

variable [Facts₀]

def gather_S4096x256_S262144x1_S262144x256_1_0_n_n_0_1_1256 : GatherDims S4096x256 S262144x1 S262144x256 where
  offsetDims := [1]
  collapsedSliceDims := [0]
  operandBatchingDims := []
  startIndicesBatchingDims := []
  startIndexMap := [0]
  indexVectorDim := 1
  sliceSizes := ![1, 256]
  wf := gather_S4096x256_S262144x1_S262144x256_1_0_n_n_0_1_1256_wf
def gather_S4096_S262144x1_S262144_n_0_n_n_0_1_1 : GatherDims S4096 S262144x1 S262144 where
  offsetDims := []
  collapsedSliceDims := [0]
  operandBatchingDims := []
  startIndicesBatchingDims := []
  startIndexMap := [0]
  indexVectorDim := 1
  sliceSizes := ![1]
  wf := gather_S4096_S262144x1_S262144_n_0_n_n_0_1_1_wf
def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf

class Facts : Prop extends Facts₀ where

variable [Facts]
-- ==== Proof.KRegion0.lean ====
/-
  The first kernel's half of the frame, at the buffer contents `V` its region is entered with.

  The kernel runs at ONE grid point on three whole staging buffers: it loads the two [4096, 256] input blocks and
  stores four column bands that tile the [4096, 384] output block (columns 0–255, column 256, column 257, columns
  258–383); before each store it loads the band it is about to overwrite and does not use what it read.  The
  pieces the stores leave are found by running the body; read back over anything they cover the block, so what
  the block holds afterwards is a function of the two input blocks alone.
-/
import proofs.«414421_j8624294331099_3_alg».proof.Proof.Gen.Kernel.Launch
import proofs.«414421_j8624294331099_3_alg».proof.Proof.Gen.Kernel.Skeleton
import proofs.«414421_j8624294331099_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs (both inputs are fetched at the one point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's run -/

/-- One staging buffer of the output window, through which its contents are stated. -/
abbrev tableView : View sig .tc .vmem S4096x384 .bf16 := (Memref.whole cc0_stg2_0 : Memref sig .tc .vmem S4096x384 .bf16).view

set_option maxHeartbeats 1000000 in
/-- The pieces the body's four stores leave in the output's staging memref (last first), WITH the proof that on whole
    staging memrefs — the inputs' at their contents, the output's at anything — the body runs to the continuation
    holding the inputs' as they were and the output's with those pieces written. -/
noncomputable def prepRun (c : Dev nD) (i : grid0.Coords) (arg1 : Memref sig .tc .vmem S4096x256 .f32) (harg1 : arg1.IsWhole)
    (arg2 : Memref sig .tc .vmem S4096x256 .f32) (harg2 : arg2.IsWhole) (arg3 : Memref sig .tc .vmem S4096x384 .bf16) (harg3 : arg3.IsWhole)
    (x0 x1 : Vec F S4096x256 .f32) :
    { L : List (View.Piece (Elt F) S4096x384 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__prep_kernel i arg1 harg1 arg2 harg2 arg3 harg3) K } := by
  refine ⟨?_, fun E K => ?run⟩
  case run =>
    simp only [cc0__prep_kernel_eq_skeleton]; unfold cc0__prep_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The four bands, cut into single columns, tile the block, so they cover it. -/
theorem prepCover (c : Dev nD) (i : grid0.Coords) (arg1 : Memref sig .tc .vmem S4096x256 .f32) (harg1 : arg1.IsWhole)
    (arg2 : Memref sig .tc .vmem S4096x256 .f32) (harg2 : arg2.IsWhole) (arg3 : Memref sig .tc .vmem S4096x384 .bf16) (harg3 : arg3.IsWhole)
    (x0 x1 : Vec F S4096x256 .f32) (y : S4096x384.Idx) :
    ∃ pc ∈ (prepRun c i arg1 harg1 arg2 harg2 arg3 harg3 x0 x1).1, y ∈ pc.1.set :=
  View.cover_of_tiledBy (prepRun c i arg1 harg1 arg2 harg2 arg3 harg3 x0 x1).1 (![4096, 1] : Fin 2 → ℕ) (by sl_kernel_rfl) y

/-- What the body leaves in the output's staging buffer: its pieces read back. -/
def prepOut (c : Dev nD) (i : grid0.Coords) (arg1 : Memref sig .tc .vmem S4096x256 .f32) (harg1 : arg1.IsWhole)
    (arg2 : Memref sig .tc .vmem S4096x256 .f32) (harg2 : arg2.IsWhole) (arg3 : Memref sig .tc .vmem S4096x384 .bf16) (harg3 : arg3.IsWhole)
    (x0 x1 : Vec F S4096x256 .f32) : Vec F S4096x384 .bf16 :=
  tableView.read (Elt F) (tableView.writes (Elt F) tableView.junk (prepRun c i arg1 harg1 arg2 harg2 arg3 harg3 x0 x1).1)

/-! ## The pipeline's proof data -/

/-- Each window's current staging memref at point `t`, as the pipeline passes it, and its wholeness. -/
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x384 .bf16 := win0_2.stage (cfg0.slots t 2)
abbrev hs0_2 (t : Fin cfg0.N) : (ms0_2 t).IsWhole := hstage0_2 ((cfg0.slots t 2).cast nbuf0_2)

/-- The input blocks at a point, at their literal types. -/
abbrev ancBlk (c : Dev nD) (t : Fin cfg0.N) : Vec F S4096x256 .f32 := iblk0 V c 0 t
abbrev posBlk (c : Dev nD) (t : Fin cfg0.N) : Vec F S4096x256 .f32 := iblk0 V c 1 t

/-- What the output's staging buffer holds after the body at point `t`. -/
def tableAt (c : Dev nD) (t : Fin cfg0.N) : Vec F S4096x384 .bf16 :=
  prepOut c (grid0.coords t) (ms0_0 t) (hs0_0 t) (ms0_1 t) (hs0_1 t) (ms0_2 t) (hs0_2 t) (ancBlk V c t) (posBlk V c t)

/-- The proof data of pipeline 0 on core `c`: the arrays as the region finds them; after the body each input's buffer at
    its block and the output's at `tableAt`; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => tableAt V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = tableAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at the point: the inputs' memrefs hold their blocks, so the run applies; the invariant and the core's dues
    pass through unread; the output's buffer ends at its pieces read back, by the cover. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold tableAt prepOut
  iintro ⟨HΦ, Ho, ⟨%d0, H0⟩, ⟨%d1, H1⟩, ⟨%d2, H2⟩⟩
  iapply ((prepRun c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (prepCover c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Runs.lean ====
/- Region 1 of the program (the second kernel launch): what the three cases of its body share — each window's
   block at a point read off the contents the region is entered with, the two branch conditions of the body in
   closed form over the grid, where the output window is idle, the staging and scratch memrefs, and the region
   invariant with the scratch accumulator named. -/
import proofs.«414421_j8624294331099_3_alg».proof.Proof.Gen.Kernel.Launch
import proofs.«414421_j8624294331099_3_alg».proof.Proof.Gen.Kernel.Skeleton
import proofs.«414421_j8624294331099_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table (window 0): the same whole array at every point. -/
abbrev tabBlk (c : Dev nD) (t : Fin cfg1.N) : Vec F S4096x384 .bf16 := iblk1 V c 0 t
/-- The block of negatives (window 1) at point `t`. -/
abbrev negBlk (c : Dev nD) (t : Fin cfg1.N) : Vec F S512x256 .f32 := iblk1 V c 1 t
/-- The block of indices (window 2) at point `t`. -/
abbrev idxBlk (c : Dev nD) (t : Fin cfg1.N) : Vec F S512 .i32 := iblk1 V c 2 t

/-- An input window's current staging buffer holds its block at every point, fetched there or not (unfetched, the
    block index has not moved, and the body leaves the block in place): for any proof data whose array is the entry
    contents and whose body leaves the block. Window 0, fetched at the first point only. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2, fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the scratch is zeroed under it), from the grid coordinates. -/
abbrev cond1_first (i : grid1.Coords) : Prop := (Scalar.cmpi .ne (Scalar.extui (Scalar.cmpi .eq (BitVec.ofNat 32 (i 1).val) 0#32)) 0#32) = 1#1
/-- It holds at the points ≡ 0 (mod 256): the first point of each of the two rows of the grid. -/
theorem hcond1_first : ∀ t : Fin cfg1.N, cond1_first (grid1.coords t) ↔ t.val % 256 = 0 :=
  (by decide +kernel : ∀ t : Fin grid1.N, cond1_first (grid1.coords t) ↔ t.val % 256 = 0)

/-- The condition of the body's second conditional (the output is stored under it), from the grid coordinates. -/
abbrev cond1_last (i : grid1.Coords) : Prop := k1_cond2 i = 1#1
/-- It holds at the points ≡ 255 (mod 256): the last point of each row. -/
theorem hcond1_last : ∀ t : Fin cfg1.N, cond1_last (grid1.coords t) ↔ t.val % 256 = 255 :=
  (by decide +kernel : ∀ t : Fin grid1.N, cond1_last (grid1.coords t) ↔ t.val % 256 = 255)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first-and-not-last point the output window is idle: nothing is stored into it, -/
theorem idleAt1_3_A : ∀ t : Fin cfg1.N, cond1_first (grid1.coords t) → ¬cond1_last (grid1.coords t) → cfg1.idle 3 (grid1.coords t) = true := by decide +kernel
/-- and its block is not written back there. -/
theorem noFlush1_3_A : ∀ t : Fin cfg1.N, cond1_first (grid1.coords t) → ¬cond1_last (grid1.coords t) → (cfg1.win 3).flush t = false := by decide +kernel
/-- The same at a point neither first nor last. -/
theorem idleAt1_3_B : ∀ t : Fin cfg1.N, ¬cond1_first (grid1.coords t) → ¬cond1_last (grid1.coords t) → cfg1.idle 3 (grid1.coords t) = true := by decide +kernel
theorem noFlush1_3_B : ∀ t : Fin cfg1.N, ¬cond1_first (grid1.coords t) → ¬cond1_last (grid1.coords t) → (cfg1.win 3).flush t = false := by decide +kernel
/-- At a last point the output window is live: the body stores into it. -/
theorem liveAt1_3_C : ∀ t : Fin cfg1.N, ¬cond1_first (grid1.coords t) → cond1_last (grid1.coords t) → cfg1.idle 3 (grid1.coords t) = false := by decide +kernel

/-! ## The memrefs the body is called with -/

/-- One staging buffer of the output window, through which its contents are stated (the choice does not matter). -/
abbrev VO1_3 : View sig .tc .vmem S1x4096x128 .f32 := (Memref.whole cc1_stg3_0 : Memref sig .tc .vmem S1x4096x128 .f32).view
/-- Each window's current staging memref at point `t`, spelled as the pipeline passes it, and its wholeness. -/
abbrev ms1_0 (t : Fin cfg1.N) : Memref sig .tc .vmem S4096x384 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x128 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1 : Memref sig .tc .vmem S4096x128 .f32 := Memref.whole cc1_scratch0
/-- The same as a view: what it holds is stated through it. -/
abbrev VS1 : View sig .tc .vmem S4096x128 .f32 := scM1.view

/-- The scoped buffers of the core that the region does not touch (the first kernel's staging buffers), each at
    some contents. -/
abbrev rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The region invariant the launch hands over, with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.KRegion1A.lean ====
/- Region 1, case A of the body (a first point of a row, not a last one): the whole-body run. The scratch is
   zeroed and then the point's contribution added into it; the output window is left as found. -/
import proofs.«414421_j8624294331099_3_alg».proof.Proof.KRegion1Runs

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the scratch, as pieces (last first), at a point
    where the first conditional is taken and the second is not, WITH the proof that on whole memrefs — the three
    inputs' at their contents, the output's at contents handed back untouched, the scratch at anything — the body
    runs to the continuation holding the inputs' and the output's as they were and the scratch with its pieces
    written. The pieces are the witness the run finds. -/
noncomputable def run1_A (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : cond1_first i) (hc1 : ¬cond1_last i)
    (x0 : Vec F S4096x384 .bf16) (x1 : Vec F S512x256 .f32) (x2 : Vec F S512 .i32) :
    Σ' (L3 : List (View.Piece (Elt F) S1x4096x128 .f32)), { LS0 : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion1B.lean ====
/- Region 1, case B of the body (a point neither first nor last in its row): the whole-body run. The point's
   contribution is added into the scratch as the point before left it; the output window is left as found. -/
import proofs.«414421_j8624294331099_3_alg».proof.Proof.KRegion1A

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave (last first) at a point where neither conditional is taken, WITH the proof that
    on whole memrefs — the three inputs' at their contents, the output's at contents handed back untouched, the
    scratch at what the point before left — the body runs to the continuation holding the inputs' and the output's as
    they were and the scratch with its pieces written. -/
noncomputable def run1_B (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : ¬cond1_last i)
    (x0 : Vec F S4096x384 .bf16) (x1 : Vec F S512x256 .f32) (x2 : Vec F S512 .i32) (xs0 : Vec F S4096x128 .f32) :
    Σ' (L3 : List (View.Piece (Elt F) S1x4096x128 .f32)), { LS0 : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion1C.lean ====
/- Region 1, case C of the body (a last point of a row, not a first one): the whole-body run. The point's
   contribution is added into the scratch as the point before left it, and the scratch is then stored over the
   whole output window. -/
import proofs.«414421_j8624294331099_3_alg».proof.Proof.KRegion1B

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave (last first) at a point where the first conditional is not taken and the second
    is, WITH the proof that on whole memrefs — the three inputs' at their contents, the output's at anything, the
    scratch at what the point before left — the body runs to the continuation holding the inputs' as they were and the
    output's and the scratch each with its pieces written. -/
noncomputable def run1_C (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) :
    Σ' (L3 : List (View.Piece (Elt F) S1x4096x128 .f32)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KRegion1.lean ====
/- Region 1 of the program: the rest of its frame half. What the output window's staging buffer and the scratch
   accumulator hold after each case of the body (the run's pieces read back) and point by point (a recursion on the
   point: a first point of a row starts from the zeroed scratch, every other point from what the point before left),
   the proof data of the pipeline, its body obligation at every point, and the invariant's two ends. -/
import proofs.«414421_j8624294331099_3_alg».proof.Proof.KRegion1C

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## What each case leaves -/

/-- Case A stores nothing into the output window (idle at its points and not written back there): no pieces, a
    placeholder that nothing consults. -/
def out1_A_3 (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : cond1_first i) (hc1 : ¬cond1_last i)
    (x0 : Vec F S4096x384 .bf16) (x1 : Vec F S512x256 .f32) (x2 : Vec F S512 .i32) : Vec F S1x4096x128 .f32 :=
  VO1_3.read (Elt F) (VO1_3.writes (Elt F) VO1_3.junk (run1_A c i arg2 harg2 arg3 harg3 arg4 harg4 arg5 harg5 arg6 harg6 hc0 hc1 x0 x1 x2).1)

/-- Case A's pieces for the scratch cover it. -/
theorem scover1_A (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : cond1_first i) (hc1 : ¬cond1_last i)
    (x0 : Vec F S4096x384 .bf16) (x1 : Vec F S512x256 .f32) (x2 : Vec F S512 .i32) (y : S4096x128.Idx) :
    ∃ pc ∈ (run1_A c i arg2 harg2 arg3 harg3 arg4 harg4 arg5 harg5 arg6 harg6 hc0 hc1 x0 x1 x2).2.1, y ∈ pc.1.set :=
  View.cover_of_tiledL (run1_A c i arg2 harg2 arg3 harg3 arg4 harg4 arg5 harg5 arg6 harg6 hc0 hc1 x0 x1 x2).2.1 S4096x128.size (by sl_kernel_rfl) y

/-- What case A leaves in the scratch: its pieces read back over junk. -/
def sout1_A (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : cond1_first i) (hc1 : ¬cond1_last i)
    (x0 : Vec F S4096x384 .bf16) (x1 : Vec F S512x256 .f32) (x2 : Vec F S512 .i32) : Vec F S4096x128 .f32 :=
  VS1.read (Elt F) (VS1.writes (Elt F) VS1.junk (run1_A c i arg2 harg2 arg3 harg3 arg4 harg4 arg5 harg5 arg6 harg6 hc0 hc1 x0 x1 x2).2.1)

/-- Case B stores nothing into the output window either: a placeholder. -/
def out1_B_3 (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : ¬cond1_last i)
    (x0 : Vec F S4096x384 .bf16) (x1 : Vec F S512x256 .f32) (x2 : Vec F S512 .i32) (xs0 : Vec F S4096x128 .f32) : Vec F S1x4096x128 .f32 :=
  VO1_3.read (Elt F) (VO1_3.writes (Elt F) VO1_3.junk (run1_B c i arg2 harg2 arg3 harg3 arg4 harg4 arg5 harg5 arg6 harg6 hc0 hc1 x0 x1 x2 xs0).1)

/-- Case B's pieces for the scratch cover it. -/
theorem scover1_B (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : ¬cond1_last i)
    (x0 : Vec F S4096x384 .bf16) (x1 : Vec F S512x256 .f32) (x2 : Vec F S512 .i32) (xs0 : Vec F S4096x128 .f32) (y : S4096x128.Idx) :
    ∃ pc ∈ (run1_B c i arg2 harg2 arg3 harg3 arg4 harg4 arg5 harg5 arg6 harg6 hc0 hc1 x0 x1 x2 xs0).2.1, y ∈ pc.1.set :=
  View.cover_of_tiledL (run1_B c i arg2 harg2 arg3 harg3 arg4 harg4 arg5 harg5 arg6 harg6 hc0 hc1 x0 x1 x2 xs0).2.1 S4096x128.size (by sl_kernel_rfl) y

/-- What case B leaves in the scratch. -/
def sout1_B (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : ¬cond1_last i)
    (x0 : Vec F S4096x384 .bf16) (x1 : Vec F S512x256 .f32) (x2 : Vec F S512 .i32) (xs0 : Vec F S4096x128 .f32) : Vec F S4096x128 .f32 :=
  VS1.read (Elt F) (VS1.writes (Elt F) VS1.junk (run1_B c i arg2 harg2 arg3 harg3 arg4 harg4 arg5 harg5 arg6 harg6 hc0 hc1 x0 x1 x2 xs0).2.1)

/-- Case C's one store into the output window covers its block. -/
theorem cover1_C_3 (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) (y : S1x4096x128.Idx) :
    ∃ pc ∈ (run1_C c i arg2 harg2 arg3 harg3 arg4 harg4 arg5 harg5 arg6 harg6 hc0 hc1 x0 x1 x2 xs0).1, y ∈ pc.1.set :=
  View.cover_of_tiledL (run1_C c i arg2 harg2 arg3 harg3 arg4 harg4 arg5 harg5 arg6 harg6 hc0 hc1 x0 x1 x2 xs0).1 S1x4096x128.size (by sl_kernel_rfl) y

/-- What case C leaves in the output window's staging buffer: its pieces read back over junk. -/
def out1_C_3 (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) : Vec F S1x4096x128 .f32 :=
  VO1_3.read (Elt F) (VO1_3.writes (Elt F) VO1_3.junk (run1_C c i arg2 harg2 arg3 harg3 arg4 harg4 arg5 harg5 arg6 harg6 hc0 hc1 x0 x1 x2 xs0).1)

/-- Case C's pieces for the scratch cover it. -/
theorem scover1_C (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) (y : S4096x128.Idx) :
    ∃ pc ∈ (run1_C c i arg2 harg2 arg3 harg3 arg4 harg4 arg5 harg5 arg6 harg6 hc0 hc1 x0 x1 x2 xs0).2.1, y ∈ pc.1.set :=
  View.cover_of_tiledL (run1_C c i arg2 harg2 arg3 harg3 arg4 harg4 arg5 harg5 arg6 harg6 hc0 hc1 x0 x1 x2 xs0).2.1 S4096x128.size (by sl_kernel_rfl) y

/-- What case C leaves in the scratch. -/
def sout1_C (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) : Vec F S4096x128 .f32 :=
  VS1.read (Elt F) (VS1.writes (Elt F) VS1.junk (run1_C c i arg2 harg2 arg3 harg3 arg4 harg4 arg5 harg5 arg6 harg6 hc0 hc1 x0 x1 x2 xs0).2.1)

/-! ## What the output window and the scratch hold after each point -/

/-- THE ACCUMULATION. After the body at position `n`: (the output window's staging buffer, the scratch). The case the
    closed forms select at `n`, run at the point's memrefs and input blocks; a point that is not the first of its row
    reads the scratch at what position `n - 1` left. Both conditions at once is no point. -/
def outsAt1 (c : Dev nD) : (n : ℕ) → n < cfg1.N → Vec F S1x4096x128 .f32 × Vec F S4096x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_first ⟨0, hn⟩).mpr (Nat.zero_mod _)) (fun h => (fun h => by (try dsimp only at h); omega) ((hcond1_last ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_first ⟨0, hn⟩).mpr (Nat.zero_mod _)) (fun h => (fun h => by (try dsimp only at h); omega) ((hcond1_last ⟨0, hn⟩).mp h)) (iblk1 V c 0 ⟨0, hn⟩) (iblk1 V c 1 ⟨0, hn⟩) (iblk1 V c 2 ⟨0, hn⟩))
  | n + 1, hn =>
    if h0 : (n + 1) % 256 = 0 then
      if h1 : (n + 1) % 256 = 255 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_first ⟨n + 1, hn⟩).mpr h0) (fun h => h1 ((hcond1_last ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_first ⟨n + 1, hn⟩).mpr h0) (fun h => h1 ((hcond1_last ⟨n + 1, hn⟩).mp h)) (iblk1 V c 0 ⟨n + 1, hn⟩) (iblk1 V c 1 ⟨n + 1, hn⟩) (iblk1 V c 2 ⟨n + 1, hn⟩))
    else
      if h1 : (n + 1) % 256 = 255 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_first ⟨n + 1, hn⟩).mp h)) ((hcond1_last ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_first ⟨n + 1, hn⟩).mp h)) ((hcond1_last ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_first ⟨n + 1, hn⟩).mp h)) (fun h => h1 ((hcond1_last ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_first ⟨n + 1, hn⟩).mp h)) (fun h => h1 ((hcond1_last ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A. -/
theorem outsAt1_A (c : Dev nD) (t : Fin cfg1.N) (h0 : t.val % 256 = 0) (h1 : ¬t.val % 256 = 255) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_first t).mpr h0) (fun h => h1 ((hcond1_last t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_first t).mpr h0) (fun h => h1 ((hcond1_last t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 256 = 0) (h1 : ¬t.val % 256 = 255) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_first t).mp h)) (fun h => h1 ((hcond1_last t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_first t).mp h)) (fun h => h1 ((hcond1_last t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 256 = 0) (h1 : t.val % 256 = 255) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_first t).mp h)) ((hcond1_last t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_first t).mp h)) ((hcond1_last t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands over (the scratch at anything);
    afterwards the untouched scoped buffers at anything, the scratch at what the point before left in it, and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the
    invariant hands the body the scratch at what the point before left (at anything at the very first point) and takes
    it back at this point's contents; at a point that is not the last of its row the output window is handed back as
    found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 256 = 0
  · by_cases h1 : t.val % 256 = 255
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_first t).mpr h0) (fun h => h1 ((hcond1_last t).mp h))) (noFlush1_3_A t ((hcond1_first t).mpr h0) (fun h => h1 ((hcond1_last t).mp h)))]
      rw [outsAt1_A V c t h0 h1]
      unfold sout1_A; (try dsimp only)
      by_cases hz : t.val = 0
      · rw [PhiS1_castSucc V c t, PhiS1_zero V c _ _ hz, PhiA1_eq]
        iintro ⟨⟨⟨R0, R1, R2, HS0⟩, Hg⟩, Ho, ⟨%d0, H0⟩, ⟨%d1, H1⟩, ⟨%d2, H2⟩, ⟨%d3, H3⟩⟩
        iapply ((run1_A c (grid1.coords t) _ _ _ _ _ _ _ _ _ _ ((hcond1_first t).mpr h0) (fun h => h1 ((hcond1_last t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 HS0 Hg]
        · isplitl [R0 R1 R2 HS0]
          · isplitl [R0]; · iexact R0
            isplitl [R1]; · iexact R1
            isplitl [R2]; · iexact R2
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨R0, R1, R2, HS0⟩, Hg⟩, Ho, ⟨%d0, H0⟩, ⟨%d1, H1⟩, ⟨%d2, H2⟩, ⟨%d3, H3⟩⟩
        iapply ((run1_A c (grid1.coords t) _ _ _ _ _ _ _ _ _ _ ((hcond1_first t).mpr h0) (fun h => h1 ((hcond1_last t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [R0 R1 R2 HS0 Hg]
        · isplitl [R0 R1 R2 HS0]
          · isplitl [R0]; · iexact R0
            isplitl [R1]; · iexact R1
            isplitl [R2]; · iexact R2
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 256 = 255
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_first t).mp h)) ((hcond1_last t).mpr h1)], after1_3]
      rw [outsAt1_C V c t h0 h1]
      unfold out1_C_3 sout1_C; (try dsimp only)
      by_cases hz : t.val = 0
      · exfalso; omega
      · rw [PhiS1_castSucc V c t, PhiS1_pos V c _ _ hz]
        iintro ⟨⟨⟨R0, R1, R2, HS0⟩, Hg⟩, Ho, ⟨%d0, H0⟩, ⟨%d1, H1⟩, ⟨%d2, H2⟩, ⟨%d3, H3⟩⟩
        iapply ((run1_C c (grid1.coords t) _ _ _ _ _ _ _ _ _ _ (fun h => h0 ((hcond1_first t).mp h)) ((hcond1_last t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [R0 R1 R2 HS0 Hg]
        · isplitl [R0 R1 R2 HS0]
          · isplitl [R0]; · iexact R0
            isplitl [R1]; · iexact R1
            isplitl [R2]; · iexact R2
            unfold owns; iexists _; isplitr
            swap; · iexact HS0
            ipureintro; exact View.read_writes_of_cover _ _ _ _ _ (scover1_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_first t).mp h)) (fun h => h1 ((hcond1_last t).mp h))) (noFlush1_3_B t (fun h => h0 ((hcond1_first t).mp h)) (fun h => h1 ((hcond1_last t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨R0, R1, R2, HS0⟩, Hg⟩, Ho, ⟨%d0, H0⟩, ⟨%d1, H1⟩, ⟨%d2, H2⟩, ⟨%d3, H3⟩⟩
        iapply ((run1_B c (grid1.coords t) _ _ _ _ _ _ _ _ _ _ (fun h => h0 ((hcond1_first t).mp h)) (fun h => h1 ((hcond1_last t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 HS0 Hg]
        · isplitl [R0 R1 R2 HS0]
          · isplitl [R0]; · iexact R0
            isplitl [R1]; · iexact R1
            isplitl [R2]; · iexact R2
            unfold owns; iexists _; isplitr
            swap; · iexact HS0
            ipureintro; exact View.read_writes_of_cover _ _ _ _ _ (scover1_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the scratch's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, HS0⟩, Hg⟩
  isplitl [R0 R1 R2 HS0]
  · isplitl [R0]; · iexact R0
    isplitl [R1]; · iexact R1
    isplitl [R2]; · iexact R2
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end Cert.Kernel.Hand

end
-- ==== Proof.KRun.lean ====
/-
  The run of the whole program: both kernel regions and the host operations after them, from the launch to the
  return, with every unscoped buffer's final contents NAMED.

  The buffer contents at each boundary are a fold from the launch memory: the first region leaves its arrays at what
  its write-backs leave (the table), every other buffer as entered; the second region likewise (the per-core sums);
  each stretch of host operations then applies its operations.  No item writes an argument, so the arguments end as
  launched; the result buffer ends at the fold's value there.
-/
import proofs.«414421_j8624294331099_3_alg».proof.Proof.KRegion0
import proofs.«414421_j8624294331099_3_alg».proof.Proof.KRegion1
import proofs.«414421_j8624294331099_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- At the first region's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- After each of the three stretches of host operations. -/
abbrev W3 : Dev nD → Valuation τ sig (Elt F) := fun c => StableHlo.after hostOps2 (W2 m ρ c)
abbrev W4 : Dev nD → Valuation τ sig (Elt F) := fun c => StableHlo.after hostOps2_1 (W3 m ρ c)
abbrev W5 : Dev nD → Valuation τ sig (Elt F) := fun c => StableHlo.after hostOps2_2 (W4 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host operations as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region over the thread state: entered from every unscoped buffer at `W0`, left at `W1`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`; the scoped
    rest (the scratch among it) and the generator register into its invariant at the first point and out of it at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (E1 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: the two regions, then a host segment per stretch from its boundary's contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)),
    .host (hseg hostOps2_2 hostOps2_2_sub hostOps2_2_fresh (W4 m ρ)) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## The arguments end as launched -/

/-- A reference that no host stretch writes and that is no array of either region's outputs reaches the end as launched;
    stated for the four arguments (a region reads an argument through an input window or bypasses it). -/
theorem W2_main_arg0 (c : Dev nD) : W2 m ρ c (Proc.devRef .tc main_arg0) = m ((c : Thread nD τ).loc main_arg0) :=
  (W2_of_ne m ρ c main_arg0 (by decide)).trans
    (((W1_arr m ρ c 0).trans (((dat0 (E0 m ρ) c).arrAt_in 0 rfl _).trans (A_eq0 (E0 m ρ) c 0))).trans rfl)
theorem W2_main_arg1 (c : Dev nD) : W2 m ρ c (Proc.devRef .tc main_arg1) = m ((c : Thread nD τ).loc main_arg1) :=
  (W2_of_ne m ρ c main_arg1 (by decide)).trans
    (((W1_arr m ρ c 1).trans (((dat0 (E0 m ρ) c).arrAt_in 1 rfl _).trans (A_eq0 (E0 m ρ) c 1))).trans rfl)
theorem W2_main_arg2 (c : Dev nD) : W2 m ρ c (Proc.devRef .tc main_arg2) = m ((c : Thread nD τ).loc main_arg2) :=
  ((W2_arr m ρ c 1).trans (((dat1 (E1 m ρ) c).arrAt_in 1 rfl _).trans (A_eq1 (E1 m ρ) c 1))).trans
    ((W1_of_ne m ρ c main_arg2 (by decide)).trans rfl)
theorem W2_main_arg3 (c : Dev nD) : W2 m ρ c (Proc.devRef .tc main_arg3) = m ((c : Thread nD τ).loc main_arg3) :=
  ((W2_arr m ρ c 2).trans (((dat1 (E1 m ρ) c).arrAt_in 2 rfl _).trans (A_eq1 (E1 m ρ) c 2))).trans
    ((W1_of_ne m ρ c main_arg3 (by decide)).trans rfl)

/-- No host stretch writes a reference outside its list of results. -/
theorem W5_of (c : Dev nD) (r : Ref sig .tc) (h2 : r ∉ hostOps2_W) (h21 : r ∉ hostOps2_1_W) (h22 : r ∉ hostOps2_2_W) :
    W5 m ρ c r = W2 m ρ c r :=
  (StableHlo.after_of_writes_sub hostOps2_2 _ hostOps2_2_writes h22).trans
    ((StableHlo.after_of_writes_sub hostOps2_1 _ hostOps2_1_writes h21).trans
      (StableHlo.after_of_writes_sub hostOps2 _ hostOps2_writes h2))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans ((W5_of m ρ c main_arg0 (by decide) (by decide) (by decide)).trans (W2_main_arg0 m ρ c)),
     (h c _ (mem_uc main_arg1 (by decide))).trans ((W5_of m ρ c main_arg1 (by decide) (by decide) (by decide)).trans (W2_main_arg1 m ρ c)),
     (h c _ (mem_uc main_arg2 (by decide))).trans ((W5_of m ρ c main_arg2 (by decide) (by decide) (by decide)).trans (W2_main_arg2 m ρ c)),
     (h c _ (mem_uc main_arg3 (by decide))).trans ((W5_of m ρ c main_arg3 (by decide) (by decide) (by decide)).trans (W2_main_arg3 m ρ c))⟩)
    (run_all m ρ)

end Cert.Kernel.Hand

end
-- ==== Proof.KIRegion0.lean ====
/-
  The first kernel's half of the frame, at the buffer contents `V` its region is entered with.

  The kernel runs at ONE grid point on three whole staging buffers: it loads the two [4096, 256] input blocks and
  stores four column bands that tile the [4096, 384] output block (columns 0–255, column 256, column 257, columns
  258–383); before each store it loads the band it is about to overwrite and does not use what it read.  The
  pieces the stores leave are found by running the body; read back over anything they cover the block, so what
  the block holds afterwards is a function of the two input blocks alone.
-/
import proofs.«414421_j8624294331099_3_alg».proof.Proof.Gen.KernelIdeal.Launch
import proofs.«414421_j8624294331099_3_alg».proof.Proof.Gen.KernelIdeal.Skeleton
import proofs.«414421_j8624294331099_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs (both inputs are fetched at the one point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's run -/

/-- One staging buffer of the output window, through which its contents are stated. -/
abbrev tableView : View sig .tc .vmem S4096x384 .bf16 := (Memref.whole cc0_stg2_0 : Memref sig .tc .vmem S4096x384 .bf16).view

set_option maxHeartbeats 1000000 in
/-- The pieces the body's four stores leave in the output's staging memref (last first), WITH the proof that on whole
    staging memrefs — the inputs' at their contents, the output's at anything — the body runs to the continuation
    holding the inputs' as they were and the output's with those pieces written. -/
noncomputable def prepRun (c : Dev nD) (i : grid0.Coords) (arg1 : Memref sig .tc .vmem S4096x256 .f32) (harg1 : arg1.IsWhole)
    (arg2 : Memref sig .tc .vmem S4096x256 .f32) (harg2 : arg2.IsWhole) (arg3 : Memref sig .tc .vmem S4096x384 .bf16) (harg3 : arg3.IsWhole)
    (x0 x1 : Vec F S4096x256 .f32) :
    { L : List (View.Piece (Elt F) S4096x384 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__prep_kernel i arg1 harg1 arg2 harg2 arg3 harg3) K } := by
  refine ⟨?_, fun E K => ?run⟩
  case run =>
    simp only [cc0__prep_kernel_eq_skeleton]; unfold cc0__prep_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The four bands, cut into single columns, tile the block, so they cover it. -/
theorem prepCover (c : Dev nD) (i : grid0.Coords) (arg1 : Memref sig .tc .vmem S4096x256 .f32) (harg1 : arg1.IsWhole)
    (arg2 : Memref sig .tc .vmem S4096x256 .f32) (harg2 : arg2.IsWhole) (arg3 : Memref sig .tc .vmem S4096x384 .bf16) (harg3 : arg3.IsWhole)
    (x0 x1 : Vec F S4096x256 .f32) (y : S4096x384.Idx) :
    ∃ pc ∈ (prepRun c i arg1 harg1 arg2 harg2 arg3 harg3 x0 x1).1, y ∈ pc.1.set :=
  View.cover_of_tiledBy (prepRun c i arg1 harg1 arg2 harg2 arg3 harg3 x0 x1).1 (![4096, 1] : Fin 2 → ℕ) (by sl_kernel_rfl) y

/-- What the body leaves in the output's staging buffer: its pieces read back. -/
def prepOut (c : Dev nD) (i : grid0.Coords) (arg1 : Memref sig .tc .vmem S4096x256 .f32) (harg1 : arg1.IsWhole)
    (arg2 : Memref sig .tc .vmem S4096x256 .f32) (harg2 : arg2.IsWhole) (arg3 : Memref sig .tc .vmem S4096x384 .bf16) (harg3 : arg3.IsWhole)
    (x0 x1 : Vec F S4096x256 .f32) : Vec F S4096x384 .bf16 :=
  tableView.read (Elt F) (tableView.writes (Elt F) tableView.junk (prepRun c i arg1 harg1 arg2 harg2 arg3 harg3 x0 x1).1)

/-! ## The pipeline's proof data -/

/-- Each window's current staging memref at point `t`, as the pipeline passes it, and its wholeness. -/
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x384 .bf16 := win0_2.stage (cfg0.slots t 2)
abbrev hs0_2 (t : Fin cfg0.N) : (ms0_2 t).IsWhole := hstage0_2 ((cfg0.slots t 2).cast nbuf0_2)

/-- The input blocks at a point, at their literal types. -/
abbrev ancBlk (c : Dev nD) (t : Fin cfg0.N) : Vec F S4096x256 .f32 := iblk0 V c 0 t
abbrev posBlk (c : Dev nD) (t : Fin cfg0.N) : Vec F S4096x256 .f32 := iblk0 V c 1 t

/-- What the output's staging buffer holds after the body at point `t`. -/
def tableAt (c : Dev nD) (t : Fin cfg0.N) : Vec F S4096x384 .bf16 :=
  prepOut c (grid0.coords t) (ms0_0 t) (hs0_0 t) (ms0_1 t) (hs0_1 t) (ms0_2 t) (hs0_2 t) (ancBlk V c t) (posBlk V c t)

/-- The proof data of pipeline 0 on core `c`: the arrays as the region finds them; after the body each input's buffer at
    its block and the output's at `tableAt`; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => tableAt V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = tableAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at the point: the inputs' memrefs hold their blocks, so the run applies; the invariant and the core's dues
    pass through unread; the output's buffer ends at its pieces read back, by the cover. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold tableAt prepOut
  iintro ⟨HΦ, Ho, ⟨%d0, H0⟩, ⟨%d1, H1⟩, ⟨%d2, H2⟩⟩
  iapply ((prepRun c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (prepCover c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Runs.lean ====
/- Region 1 of the program (the second kernel launch): what the three cases of its body share — each window's
   block at a point read off the contents the region is entered with, the two branch conditions of the body in
   closed form over the grid, where the output window is idle, the staging and scratch memrefs, and the region
   invariant with the scratch accumulator named. -/
import proofs.«414421_j8624294331099_3_alg».proof.Proof.Gen.KernelIdeal.Launch
import proofs.«414421_j8624294331099_3_alg».proof.Proof.Gen.KernelIdeal.Skeleton
import proofs.«414421_j8624294331099_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is stated at them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table (window 0): the same whole array at every point. -/
abbrev tabBlk (c : Dev nD) (t : Fin cfg1.N) : Vec F S4096x384 .bf16 := iblk1 V c 0 t
/-- The block of negatives (window 1) at point `t`. -/
abbrev negBlk (c : Dev nD) (t : Fin cfg1.N) : Vec F S512x256 .f32 := iblk1 V c 1 t
/-- The block of indices (window 2) at point `t`. -/
abbrev idxBlk (c : Dev nD) (t : Fin cfg1.N) : Vec F S512 .i32 := iblk1 V c 2 t

/-- An input window's current staging buffer holds its block at every point, fetched there or not (unfetched, the
    block index has not moved, and the body leaves the block in place): for any proof data whose array is the entry
    contents and whose body leaves the block. Window 0, fetched at the first point only. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2, fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the scratch is zeroed under it), from the grid coordinates. -/
abbrev cond1_first (i : grid1.Coords) : Prop := (Scalar.cmpi .ne (Scalar.extui (Scalar.cmpi .eq (BitVec.ofNat 32 (i 1).val) 0#32)) 0#32) = 1#1
/-- It holds at the points ≡ 0 (mod 256): the first point of each of the two rows of the grid. -/
theorem hcond1_first : ∀ t : Fin cfg1.N, cond1_first (grid1.coords t) ↔ t.val % 256 = 0 :=
  (by decide +kernel : ∀ t : Fin grid1.N, cond1_first (grid1.coords t) ↔ t.val % 256 = 0)

/-- The condition of the body's second conditional (the output is stored under it), from the grid coordinates. -/
abbrev cond1_last (i : grid1.Coords) : Prop := k1_cond2 i = 1#1
/-- It holds at the points ≡ 255 (mod 256): the last point of each row. -/
theorem hcond1_last : ∀ t : Fin cfg1.N, cond1_last (grid1.coords t) ↔ t.val % 256 = 255 :=
  (by decide +kernel : ∀ t : Fin grid1.N, cond1_last (grid1.coords t) ↔ t.val % 256 = 255)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first-and-not-last point the output window is idle: nothing is stored into it, -/
theorem idleAt1_3_A : ∀ t : Fin cfg1.N, cond1_first (grid1.coords t) → ¬cond1_last (grid1.coords t) → cfg1.idle 3 (grid1.coords t) = true := by decide +kernel
/-- and its block is not written back there. -/
theorem noFlush1_3_A : ∀ t : Fin cfg1.N, cond1_first (grid1.coords t) → ¬cond1_last (grid1.coords t) → (cfg1.win 3).flush t = false := by decide +kernel
/-- The same at a point neither first nor last. -/
theorem idleAt1_3_B : ∀ t : Fin cfg1.N, ¬cond1_first (grid1.coords t) → ¬cond1_last (grid1.coords t) → cfg1.idle 3 (grid1.coords t) = true := by decide +kernel
theorem noFlush1_3_B : ∀ t : Fin cfg1.N, ¬cond1_first (grid1.coords t) → ¬cond1_last (grid1.coords t) → (cfg1.win 3).flush t = false := by decide +kernel
/-- At a last point the output window is live: the body stores into it. -/
theorem liveAt1_3_C : ∀ t : Fin cfg1.N, ¬cond1_first (grid1.coords t) → cond1_last (grid1.coords t) → cfg1.idle 3 (grid1.coords t) = false := by decide +kernel

/-! ## The memrefs the body is called with -/

/-- One staging buffer of the output window, through which its contents are stated (the choice does not matter). -/
abbrev VO1_3 : View sig .tc .vmem S1x4096x128 .f32 := (Memref.whole cc1_stg3_0 : Memref sig .tc .vmem S1x4096x128 .f32).view
/-- Each window's current staging memref at point `t`, spelled as the pipeline passes it, and its wholeness. -/
abbrev ms1_0 (t : Fin cfg1.N) : Memref sig .tc .vmem S4096x384 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x128 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1 : Memref sig .tc .vmem S4096x128 .f32 := Memref.whole cc1_scratch0
/-- The same as a view: what it holds is stated through it. -/
abbrev VS1 : View sig .tc .vmem S4096x128 .f32 := scM1.view

/-- The scoped buffers of the core that the region does not touch (the first kernel's staging buffers), each at
    some contents. -/
abbrev rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The region invariant the launch hands over, with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.KIRegion1A.lean ====
/- Region 1, case A of the body (a first point of a row, not a last one): the whole-body run. The scratch is
   zeroed and then the point's contribution added into it; the output window is left as found. -/
import proofs.«414421_j8624294331099_3_alg».proof.Proof.KIRegion1Runs

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the scratch, as pieces (last first), at a point
    where the first conditional is taken and the second is not, WITH the proof that on whole memrefs — the three
    inputs' at their contents, the output's at contents handed back untouched, the scratch at anything — the body
    runs to the continuation holding the inputs' and the output's as they were and the scratch with its pieces
    written. The pieces are the witness the run finds. -/
noncomputable def run1_A (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : cond1_first i) (hc1 : ¬cond1_last i)
    (x0 : Vec F S4096x384 .bf16) (x1 : Vec F S512x256 .f32) (x2 : Vec F S512 .i32) :
    Σ' (L3 : List (View.Piece (Elt F) S1x4096x128 .f32)), { LS0 : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRegion1B.lean ====
/- Region 1, case B of the body (a point neither first nor last in its row): the whole-body run. The point's
   contribution is added into the scratch as the point before left it; the output window is left as found. -/
import proofs.«414421_j8624294331099_3_alg».proof.Proof.KIRegion1A

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave (last first) at a point where neither conditional is taken, WITH the proof that
    on whole memrefs — the three inputs' at their contents, the output's at contents handed back untouched, the
    scratch at what the point before left — the body runs to the continuation holding the inputs' and the output's as
    they were and the scratch with its pieces written. -/
noncomputable def run1_B (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : ¬cond1_last i)
    (x0 : Vec F S4096x384 .bf16) (x1 : Vec F S512x256 .f32) (x2 : Vec F S512 .i32) (xs0 : Vec F S4096x128 .f32) :
    Σ' (L3 : List (View.Piece (Elt F) S1x4096x128 .f32)), { LS0 : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRegion1C.lean ====
/- Region 1, case C of the body (a last point of a row, not a first one): the whole-body run. The point's
   contribution is added into the scratch as the point before left it, and the scratch is then stored over the
   whole output window. -/
import proofs.«414421_j8624294331099_3_alg».proof.Proof.KIRegion1B

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave (last first) at a point where the first conditional is not taken and the second
    is, WITH the proof that on whole memrefs — the three inputs' at their contents, the output's at anything, the
    scratch at what the point before left — the body runs to the continuation holding the inputs' as they were and the
    output's and the scratch each with its pieces written. -/
noncomputable def run1_C (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) :
    Σ' (L3 : List (View.Piece (Elt F) S1x4096x128 .f32)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KIRegion1.lean ====
/- Region 1 of the program: the rest of its frame half. What the output window's staging buffer and the scratch
   accumulator hold after each case of the body (the run's pieces read back) and point by point (a recursion on the
   point: a first point of a row starts from the zeroed scratch, every other point from what the point before left),
   the proof data of the pipeline, its body obligation at every point, and the invariant's two ends. -/
import proofs.«414421_j8624294331099_3_alg».proof.Proof.KIRegion1C

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## What each case leaves -/

/-- Case A stores nothing into the output window (idle at its points and not written back there): no pieces, a
    placeholder that nothing consults. -/
def out1_A_3 (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : cond1_first i) (hc1 : ¬cond1_last i)
    (x0 : Vec F S4096x384 .bf16) (x1 : Vec F S512x256 .f32) (x2 : Vec F S512 .i32) : Vec F S1x4096x128 .f32 :=
  VO1_3.read (Elt F) (VO1_3.writes (Elt F) VO1_3.junk (run1_A c i arg2 harg2 arg3 harg3 arg4 harg4 arg5 harg5 arg6 harg6 hc0 hc1 x0 x1 x2).1)

/-- Case A's pieces for the scratch cover it. -/
theorem scover1_A (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : cond1_first i) (hc1 : ¬cond1_last i)
    (x0 : Vec F S4096x384 .bf16) (x1 : Vec F S512x256 .f32) (x2 : Vec F S512 .i32) (y : S4096x128.Idx) :
    ∃ pc ∈ (run1_A c i arg2 harg2 arg3 harg3 arg4 harg4 arg5 harg5 arg6 harg6 hc0 hc1 x0 x1 x2).2.1, y ∈ pc.1.set :=
  View.cover_of_tiledL (run1_A c i arg2 harg2 arg3 harg3 arg4 harg4 arg5 harg5 arg6 harg6 hc0 hc1 x0 x1 x2).2.1 S4096x128.size (by sl_kernel_rfl) y

/-- What case A leaves in the scratch: its pieces read back over junk. -/
def sout1_A (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : cond1_first i) (hc1 : ¬cond1_last i)
    (x0 : Vec F S4096x384 .bf16) (x1 : Vec F S512x256 .f32) (x2 : Vec F S512 .i32) : Vec F S4096x128 .f32 :=
  VS1.read (Elt F) (VS1.writes (Elt F) VS1.junk (run1_A c i arg2 harg2 arg3 harg3 arg4 harg4 arg5 harg5 arg6 harg6 hc0 hc1 x0 x1 x2).2.1)

/-- Case B stores nothing into the output window either: a placeholder. -/
def out1_B_3 (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : ¬cond1_last i)
    (x0 : Vec F S4096x384 .bf16) (x1 : Vec F S512x256 .f32) (x2 : Vec F S512 .i32) (xs0 : Vec F S4096x128 .f32) : Vec F S1x4096x128 .f32 :=
  VO1_3.read (Elt F) (VO1_3.writes (Elt F) VO1_3.junk (run1_B c i arg2 harg2 arg3 harg3 arg4 harg4 arg5 harg5 arg6 harg6 hc0 hc1 x0 x1 x2 xs0).1)

/-- Case B's pieces for the scratch cover it. -/
theorem scover1_B (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : ¬cond1_last i)
    (x0 : Vec F S4096x384 .bf16) (x1 : Vec F S512x256 .f32) (x2 : Vec F S512 .i32) (xs0 : Vec F S4096x128 .f32) (y : S4096x128.Idx) :
    ∃ pc ∈ (run1_B c i arg2 harg2 arg3 harg3 arg4 harg4 arg5 harg5 arg6 harg6 hc0 hc1 x0 x1 x2 xs0).2.1, y ∈ pc.1.set :=
  View.cover_of_tiledL (run1_B c i arg2 harg2 arg3 harg3 arg4 harg4 arg5 harg5 arg6 harg6 hc0 hc1 x0 x1 x2 xs0).2.1 S4096x128.size (by sl_kernel_rfl) y

/-- What case B leaves in the scratch. -/
def sout1_B (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : ¬cond1_last i)
    (x0 : Vec F S4096x384 .bf16) (x1 : Vec F S512x256 .f32) (x2 : Vec F S512 .i32) (xs0 : Vec F S4096x128 .f32) : Vec F S4096x128 .f32 :=
  VS1.read (Elt F) (VS1.writes (Elt F) VS1.junk (run1_B c i arg2 harg2 arg3 harg3 arg4 harg4 arg5 harg5 arg6 harg6 hc0 hc1 x0 x1 x2 xs0).2.1)

/-- Case C's one store into the output window covers its block. -/
theorem cover1_C_3 (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) (y : S1x4096x128.Idx) :
    ∃ pc ∈ (run1_C c i arg2 harg2 arg3 harg3 arg4 harg4 arg5 harg5 arg6 harg6 hc0 hc1 x0 x1 x2 xs0).1, y ∈ pc.1.set :=
  View.cover_of_tiledL (run1_C c i arg2 harg2 arg3 harg3 arg4 harg4 arg5 harg5 arg6 harg6 hc0 hc1 x0 x1 x2 xs0).1 S1x4096x128.size (by sl_kernel_rfl) y

/-- What case C leaves in the output window's staging buffer: its pieces read back over junk. -/
def out1_C_3 (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) : Vec F S1x4096x128 .f32 :=
  VO1_3.read (Elt F) (VO1_3.writes (Elt F) VO1_3.junk (run1_C c i arg2 harg2 arg3 harg3 arg4 harg4 arg5 harg5 arg6 harg6 hc0 hc1 x0 x1 x2 xs0).1)

/-- Case C's pieces for the scratch cover it. -/
theorem scover1_C (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) (y : S4096x128.Idx) :
    ∃ pc ∈ (run1_C c i arg2 harg2 arg3 harg3 arg4 harg4 arg5 harg5 arg6 harg6 hc0 hc1 x0 x1 x2 xs0).2.1, y ∈ pc.1.set :=
  View.cover_of_tiledL (run1_C c i arg2 harg2 arg3 harg3 arg4 harg4 arg5 harg5 arg6 harg6 hc0 hc1 x0 x1 x2 xs0).2.1 S4096x128.size (by sl_kernel_rfl) y

/-- What case C leaves in the scratch. -/
def sout1_C (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) : Vec F S4096x128 .f32 :=
  VS1.read (Elt F) (VS1.writes (Elt F) VS1.junk (run1_C c i arg2 harg2 arg3 harg3 arg4 harg4 arg5 harg5 arg6 harg6 hc0 hc1 x0 x1 x2 xs0).2.1)

/-! ## What the output window and the scratch hold after each point -/

/-- THE ACCUMULATION. After the body at position `n`: (the output window's staging buffer, the scratch). The case the
    closed forms select at `n`, run at the point's memrefs and input blocks; a point that is not the first of its row
    reads the scratch at what position `n - 1` left. Both conditions at once is no point. -/
def outsAt1 (c : Dev nD) : (n : ℕ) → n < cfg1.N → Vec F S1x4096x128 .f32 × Vec F S4096x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_first ⟨0, hn⟩).mpr (Nat.zero_mod _)) (fun h => (fun h => by (try dsimp only at h); omega) ((hcond1_last ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_first ⟨0, hn⟩).mpr (Nat.zero_mod _)) (fun h => (fun h => by (try dsimp only at h); omega) ((hcond1_last ⟨0, hn⟩).mp h)) (iblk1 V c 0 ⟨0, hn⟩) (iblk1 V c 1 ⟨0, hn⟩) (iblk1 V c 2 ⟨0, hn⟩))
  | n + 1, hn =>
    if h0 : (n + 1) % 256 = 0 then
      if h1 : (n + 1) % 256 = 255 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_first ⟨n + 1, hn⟩).mpr h0) (fun h => h1 ((hcond1_last ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_first ⟨n + 1, hn⟩).mpr h0) (fun h => h1 ((hcond1_last ⟨n + 1, hn⟩).mp h)) (iblk1 V c 0 ⟨n + 1, hn⟩) (iblk1 V c 1 ⟨n + 1, hn⟩) (iblk1 V c 2 ⟨n + 1, hn⟩))
    else
      if h1 : (n + 1) % 256 = 255 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_first ⟨n + 1, hn⟩).mp h)) ((hcond1_last ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_first ⟨n + 1, hn⟩).mp h)) ((hcond1_last ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_first ⟨n + 1, hn⟩).mp h)) (fun h => h1 ((hcond1_last ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_first ⟨n + 1, hn⟩).mp h)) (fun h => h1 ((hcond1_last ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A. -/
theorem outsAt1_A (c : Dev nD) (t : Fin cfg1.N) (h0 : t.val % 256 = 0) (h1 : ¬t.val % 256 = 255) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_first t).mpr h0) (fun h => h1 ((hcond1_last t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_first t).mpr h0) (fun h => h1 ((hcond1_last t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 256 = 0) (h1 : ¬t.val % 256 = 255) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_first t).mp h)) (fun h => h1 ((hcond1_last t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_first t).mp h)) (fun h => h1 ((hcond1_last t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 256 = 0) (h1 : t.val % 256 = 255) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_first t).mp h)) ((hcond1_last t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_first t).mp h)) ((hcond1_last t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands over (the scratch at anything);
    afterwards the untouched scoped buffers at anything, the scratch at what the point before left in it, and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the
    invariant hands the body the scratch at what the point before left (at anything at the very first point) and takes
    it back at this point's contents; at a point that is not the last of its row the output window is handed back as
    found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 256 = 0
  · by_cases h1 : t.val % 256 = 255
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_first t).mpr h0) (fun h => h1 ((hcond1_last t).mp h))) (noFlush1_3_A t ((hcond1_first t).mpr h0) (fun h => h1 ((hcond1_last t).mp h)))]
      rw [outsAt1_A V c t h0 h1]
      unfold sout1_A; (try dsimp only)
      by_cases hz : t.val = 0
      · rw [PhiS1_castSucc V c t, PhiS1_zero V c _ _ hz, PhiA1_eq]
        iintro ⟨⟨⟨R0, R1, R2, HS0⟩, Hg⟩, Ho, ⟨%d0, H0⟩, ⟨%d1, H1⟩, ⟨%d2, H2⟩, ⟨%d3, H3⟩⟩
        iapply ((run1_A c (grid1.coords t) _ _ _ _ _ _ _ _ _ _ ((hcond1_first t).mpr h0) (fun h => h1 ((hcond1_last t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 HS0 Hg]
        · isplitl [R0 R1 R2 HS0]
          · isplitl [R0]; · iexact R0
            isplitl [R1]; · iexact R1
            isplitl [R2]; · iexact R2
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨R0, R1, R2, HS0⟩, Hg⟩, Ho, ⟨%d0, H0⟩, ⟨%d1, H1⟩, ⟨%d2, H2⟩, ⟨%d3, H3⟩⟩
        iapply ((run1_A c (grid1.coords t) _ _ _ _ _ _ _ _ _ _ ((hcond1_first t).mpr h0) (fun h => h1 ((hcond1_last t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [R0 R1 R2 HS0 Hg]
        · isplitl [R0 R1 R2 HS0]
          · isplitl [R0]; · iexact R0
            isplitl [R1]; · iexact R1
            isplitl [R2]; · iexact R2
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 256 = 255
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_first t).mp h)) ((hcond1_last t).mpr h1)], after1_3]
      rw [outsAt1_C V c t h0 h1]
      unfold out1_C_3 sout1_C; (try dsimp only)
      by_cases hz : t.val = 0
      · exfalso; omega
      · rw [PhiS1_castSucc V c t, PhiS1_pos V c _ _ hz]
        iintro ⟨⟨⟨R0, R1, R2, HS0⟩, Hg⟩, Ho, ⟨%d0, H0⟩, ⟨%d1, H1⟩, ⟨%d2, H2⟩, ⟨%d3, H3⟩⟩
        iapply ((run1_C c (grid1.coords t) _ _ _ _ _ _ _ _ _ _ (fun h => h0 ((hcond1_first t).mp h)) ((hcond1_last t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [R0 R1 R2 HS0 Hg]
        · isplitl [R0 R1 R2 HS0]
          · isplitl [R0]; · iexact R0
            isplitl [R1]; · iexact R1
            isplitl [R2]; · iexact R2
            unfold owns; iexists _; isplitr
            swap; · iexact HS0
            ipureintro; exact View.read_writes_of_cover _ _ _ _ _ (scover1_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_first t).mp h)) (fun h => h1 ((hcond1_last t).mp h))) (noFlush1_3_B t (fun h => h0 ((hcond1_first t).mp h)) (fun h => h1 ((hcond1_last t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨R0, R1, R2, HS0⟩, Hg⟩, Ho, ⟨%d0, H0⟩, ⟨%d1, H1⟩, ⟨%d2, H2⟩, ⟨%d3, H3⟩⟩
        iapply ((run1_B c (grid1.coords t) _ _ _ _ _ _ _ _ _ _ (fun h => h0 ((hcond1_first t).mp h)) (fun h => h1 ((hcond1_last t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 HS0 Hg]
        · isplitl [R0 R1 R2 HS0]
          · isplitl [R0]; · iexact R0
            isplitl [R1]; · iexact R1
            isplitl [R2]; · iexact R2
            unfold owns; iexists _; isplitr
            swap; · iexact HS0
            ipureintro; exact View.read_writes_of_cover _ _ _ _ _ (scover1_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the scratch's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, HS0⟩, Hg⟩
  isplitl [R0 R1 R2 HS0]
  · isplitl [R0]; · iexact R0
    isplitl [R1]; · iexact R1
    isplitl [R2]; · iexact R2
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end Cert.KernelIdeal.Hand

end
-- ==== Proof.KIRun.lean ====
/-
  The run of the whole program: both kernel regions and the host operations after them, from the launch to the
  return, with every unscoped buffer's final contents NAMED.

  The buffer contents at each boundary are a fold from the launch memory: the first region leaves its arrays at what
  its write-backs leave (the table), every other buffer as entered; the second region likewise (the per-core sums);
  each stretch of host operations then applies its operations.  No item writes an argument, so the arguments end as
  launched; the result buffer ends at the fold's value there.
-/
import proofs.«414421_j8624294331099_3_alg».proof.Proof.KIRegion0
import proofs.«414421_j8624294331099_3_alg».proof.Proof.KIRegion1
import proofs.«414421_j8624294331099_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- At the first region's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- After each of the three stretches of host operations. -/
abbrev W3 : Dev nD → Valuation τ sig (Elt F) := fun c => StableHlo.after hostOps2 (W2 m ρ c)
abbrev W4 : Dev nD → Valuation τ sig (Elt F) := fun c => StableHlo.after hostOps2_1 (W3 m ρ c)
abbrev W5 : Dev nD → Valuation τ sig (Elt F) := fun c => StableHlo.after hostOps2_2 (W4 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host operations as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region over the thread state: entered from every unscoped buffer at `W0`, left at `W1`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`; the scoped
    rest (the scratch among it) and the generator register into its invariant at the first point and out of it at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (E1 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: the two regions, then a host segment per stretch from its boundary's contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)),
    .host (hseg hostOps2_2 hostOps2_2_sub hostOps2_2_fresh (W4 m ρ)) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## The arguments end as launched -/

/-- A reference that no host stretch writes and that is no array of either region's outputs reaches the end as launched;
    stated for the four arguments (a region reads an argument through an input window or bypasses it). -/
theorem W2_main_arg0 (c : Dev nD) : W2 m ρ c (Proc.devRef .tc main_arg0) = m ((c : Thread nD τ).loc main_arg0) :=
  (W2_of_ne m ρ c main_arg0 (by decide)).trans
    (((W1_arr m ρ c 0).trans (((dat0 (E0 m ρ) c).arrAt_in 0 rfl _).trans (A_eq0 (E0 m ρ) c 0))).trans rfl)
theorem W2_main_arg1 (c : Dev nD) : W2 m ρ c (Proc.devRef .tc main_arg1) = m ((c : Thread nD τ).loc main_arg1) :=
  (W2_of_ne m ρ c main_arg1 (by decide)).trans
    (((W1_arr m ρ c 1).trans (((dat0 (E0 m ρ) c).arrAt_in 1 rfl _).trans (A_eq0 (E0 m ρ) c 1))).trans rfl)
theorem W2_main_arg2 (c : Dev nD) : W2 m ρ c (Proc.devRef .tc main_arg2) = m ((c : Thread nD τ).loc main_arg2) :=
  ((W2_arr m ρ c 1).trans (((dat1 (E1 m ρ) c).arrAt_in 1 rfl _).trans (A_eq1 (E1 m ρ) c 1))).trans
    ((W1_of_ne m ρ c main_arg2 (by decide)).trans rfl)
theorem W2_main_arg3 (c : Dev nD) : W2 m ρ c (Proc.devRef .tc main_arg3) = m ((c : Thread nD τ).loc main_arg3) :=
  ((W2_arr m ρ c 2).trans (((dat1 (E1 m ρ) c).arrAt_in 2 rfl _).trans (A_eq1 (E1 m ρ) c 2))).trans
    ((W1_of_ne m ρ c main_arg3 (by decide)).trans rfl)

/-- No host stretch writes a reference outside its list of results. -/
theorem W5_of (c : Dev nD) (r : Ref sig .tc) (h2 : r ∉ hostOps2_W) (h21 : r ∉ hostOps2_1_W) (h22 : r ∉ hostOps2_2_W) :
    W5 m ρ c r = W2 m ρ c r :=
  (StableHlo.after_of_writes_sub hostOps2_2 _ hostOps2_2_writes h22).trans
    ((StableHlo.after_of_writes_sub hostOps2_1 _ hostOps2_1_writes h21).trans
      (StableHlo.after_of_writes_sub hostOps2 _ hostOps2_writes h2))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans ((W5_of m ρ c main_arg0 (by decide) (by decide) (by decide)).trans (W2_main_arg0 m ρ c)),
     (h c _ (mem_uc main_arg1 (by decide))).trans ((W5_of m ρ c main_arg1 (by decide) (by decide) (by decide)).trans (W2_main_arg1 m ρ c)),
     (h c _ (mem_uc main_arg2 (by decide))).trans ((W5_of m ρ c main_arg2 (by decide) (by decide) (by decide)).trans (W2_main_arg2 m ρ c)),
     (h c _ (mem_uc main_arg3 (by decide))).trans ((W5_of m ρ c main_arg3 (by decide) (by decide) (by decide)).trans (W2_main_arg3 m ρ c))⟩)
    (run_all m ρ)

end Cert.KernelIdeal.Hand

end
-- ==== Proof.KIRegion0Value.lean ====
/-
  What the first region leaves in the table array, entry by entry.

  The region runs its body once, on whole blocks.  The body's four stores tile the [4096, 384] block by column
  bands, so the block it leaves is decided band by band: a column below 256 holds the first band's payload at that
  column, column 256 the second band's one column, column 257 the third band's.  At the one grid point every window's
  block index is zero and its block is its whole array: the two input blocks are the two input arrays as the region
  finds them, and the one write-back replaces the whole output array by the block the body left.
-/
import proofs.«414421_j8624294331099_3_alg».proof.Proof.KIRegion0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

/-! ## A block written by column bands, read at a column -/

/-- Off the last write's rectangle, the earlier writes decide. -/
theorem canon_skip {S : Shape} {e : EltTy} (r : Rect S) (w : r.shape.Idx → Elt F e)
    (L : List (View.Piece (Elt F) S e)) (y : S.Idx) (h : y ∉ r.set) : View.canon (⟨r, w⟩ :: L) y = View.canon L y :=
  View.canon_cons_of_not_mem ⟨r, w⟩ L h

section Bands
variable (w5 : S4096x126.Idx → Elt F .bf16) (w4 w3 : S4096x1.Idx → Elt F .bf16) (w2 : S4096x256.Idx → Elt F .bf16)

/-- Four column bands of a [4096, 384] block, the last stored first: columns 258 and up, column 257, column 256,
    columns 0 to 255. -/
abbrev bandsOf : List (View.Piece (Elt F) S4096x384 .bf16) :=
  [⟨Rect.unit (s := S4096x384) ![0, 258] S4096x126.size inb_S4096x384_S4096x126_0_258, w5⟩,
   ⟨Rect.unit (s := S4096x384) ![0, 257] S4096x1.size inb_S4096x384_S4096x1_0_257, w4⟩,
   ⟨Rect.unit (s := S4096x384) ![0, 256] S4096x1.size inb_S4096x384_S4096x1_0_256, w3⟩,
   ⟨Rect.unit (s := S4096x384) ![0, 0] S4096x256.size inb_S4096x384_S4096x256_0_0, w2⟩]

/-- A column below 256 lies in the first band only. -/
theorem bandsOf_anchor (b : Fin 4096) (k : Fin 256) :
    View.canon (bandsOf w5 w4 w3 w2) (ix2 b (⟨k.val, by omega⟩ : Fin 384)) = w2 (ix2 b k) := by
  have hk : k.val < 256 := k.isLt
  have e : (ix2 b (⟨k.val, by omega⟩ : Fin 384) : S4096x384.Idx)
      = (Rect.unit (s := S4096x384) ![0, 0] S4096x256.size inb_S4096x384_S4096x256_0_0).emb (ix2 b k) := by
    funext a; apply Fin.ext
    match a with
    | ⟨0, _⟩ => show b.val = 0 + 1 * b.val; omega
    | ⟨1, _⟩ => show k.val = 0 + 1 * k.val; omega
  unfold bandsOf
  refine (canon_skip _ _ _ _ ?_).trans ?_
  · rw [Rect.mem_set_unit]; intro h; have := (h 1).1; change 258 ≤ k.val at this; omega
  refine (canon_skip _ _ _ _ ?_).trans ?_
  · rw [Rect.mem_set_unit]; intro h; have := (h 1).1; change 257 ≤ k.val at this; omega
  refine (canon_skip _ _ _ _ ?_).trans ?_
  · rw [Rect.mem_set_unit]; intro h; have := (h 1).1; change 256 ≤ k.val at this; omega
  rw [e]; exact View.canon_cons_emb _ _ _ _

/-- Column 256 lies in the second band only. -/
theorem bandsOf_hi (b : Fin 4096) :
    View.canon (bandsOf w5 w4 w3 w2) (ix2 b (⟨256, by omega⟩ : Fin 384)) = w3 (ix2 b 0) := by
  have e : (ix2 b (⟨256, by omega⟩ : Fin 384) : S4096x384.Idx)
      = (Rect.unit (s := S4096x384) ![0, 256] S4096x1.size inb_S4096x384_S4096x1_0_256).emb (ix2 b (0 : Fin 1)) := by
    funext a; apply Fin.ext
    match a with
    | ⟨0, _⟩ => show b.val = 0 + 1 * b.val; omega
    | ⟨1, _⟩ => show 256 = 256 + 1 * 0; omega
  unfold bandsOf
  refine (canon_skip _ _ _ _ ?_).trans ?_
  · rw [Rect.mem_set_unit]; intro h; have := (h 1).1; change 258 ≤ 256 at this; omega
  refine (canon_skip _ _ _ _ ?_).trans ?_
  · rw [Rect.mem_set_unit]; intro h; have := (h 1).1; change 257 ≤ 256 at this; omega
  rw [e]; exact View.canon_cons_emb _ _ _ _

/-- Column 257 lies in the third band only. -/
theorem bandsOf_lo (b : Fin 4096) :
    View.canon (bandsOf w5 w4 w3 w2) (ix2 b (⟨257, by omega⟩ : Fin 384)) = w4 (ix2 b 0) := by
  have e : (ix2 b (⟨257, by omega⟩ : Fin 384) : S4096x384.Idx)
      = (Rect.unit (s := S4096x384) ![0, 257] S4096x1.size inb_S4096x384_S4096x1_0_257).emb (ix2 b (0 : Fin 1)) := by
    funext a; apply Fin.ext
    match a with
    | ⟨0, _⟩ => show b.val = 0 + 1 * b.val; omega
    | ⟨1, _⟩ => show 257 = 257 + 1 * 0; omega
  unfold bandsOf
  refine (canon_skip _ _ _ _ ?_).trans ?_
  · rw [Rect.mem_set_unit]; intro h; have := (h 1).1; change 258 ≤ 257 at this; omega
  rw [e]; exact View.canon_cons_emb _ _ _ _

end Bands

/-! ## The block the body leaves -/

theorem zeroOff2 : (![0, 0] : Fin 2 → Nat) = fun _ => 0 := funext fun a => by fin_cases a <;> rfl

set_option maxHeartbeats 1000000 in
/-- The block the body leaves is its four bands over the two input blocks: each load of a whole input block reads
    the block itself. -/
theorem prepOut_eq (c : Dev nD) (i : grid0.Coords) (arg1 : Memref sig .tc .vmem S4096x256 .f32) (harg1 : arg1.IsWhole)
    (arg2 : Memref sig .tc .vmem S4096x256 .f32) (harg2 : arg2.IsWhole) (arg3 : Memref sig .tc .vmem S4096x384 .bf16) (harg3 : arg3.IsWhole)
    (x0 x1 : Vec F S4096x256 .f32) :
    prepOut c i arg1 harg1 arg2 harg2 arg3 harg3 x0 x1
      = View.canon (bandsOf (k0_pay5 (F := F)) (k0_pay4 x0 x1) (k0_pay3 x0 x1) (k0_pay2 x0)) := by
  unfold prepOut
  rw [View.read_writes_eq_canon _ _ _ (prepCover c i arg1 harg1 arg2 harg2 arg3 harg3 x0 x1)]
  unfold prepRun
  dsimp only
  sl_unfold_words
  simp only [View.readAt_eq_ld, harg1.read_unread, harg2.read_unread, View.ld_unit_zero (S := S4096x256) zeroOff2]

/-! ## At the one point the blocks are the whole arrays -/

/-- The two input arrays as the region finds them, and the output array after it. -/
abbrev ancArr (c : Dev nD) : Vec F S4096x256 .f32 := V c main_arg0
abbrev posArr (c : Dev nD) : Vec F S4096x256 .f32 := V c main_arg1
abbrev tabArr (c : Dev nD) : Vec F S4096x384 .bf16 := (dat0 V c).arrAt 2 cfg0.N

/-- Every window's block sits at offset zero of its array at the one point. -/
theorem off0_0 : (fun a => win0_0.index t0_0 a * main_arg0.ty.shape.size a) = fun _ => 0 := funext fun a => by fin_cases a <;> decide
theorem off0_1 : (fun a => win0_1.index t0_0 a * main_arg1.ty.shape.size a) = fun _ => 0 := funext fun a => by fin_cases a <;> decide
theorem off0_2 : (fun a => win0_2.index t0_0 a * main_v0.ty.shape.size a) = fun _ => 0 := funext fun a => by fin_cases a <;> decide

/-- So each input block is its whole array. -/
theorem ancBlk_eq (c : Dev nD) (t : Fin cfg0.N) : ancBlk V c t = ancArr V c := by
  obtain rfl := fin_N0 t
  exact Memref.read_access_unit_zero (Elt F) main_arg0 off0_0 (fun a => by rw [congrFun off0_0 a]; simp) (V c main_arg0)

theorem posBlk_eq (c : Dev nD) (t : Fin cfg0.N) : posBlk V c t = posArr V c := by
  obtain rfl := fin_N0 t
  exact Memref.read_access_unit_zero (Elt F) main_arg1 off0_1 (fun a => by rw [congrFun off0_1 a]; simp) (V c main_arg1)

/-- The block the body leaves at the point, over the two input arrays. -/
theorem tableAt_eq (c : Dev nD) :
    tableAt V c t0_0 = View.canon (bandsOf (k0_pay5 (F := F)) (k0_pay4 (ancArr V c) (posArr V c)) (k0_pay3 (ancArr V c) (posArr V c)) (k0_pay2 (ancArr V c))) := by
  unfold tableAt
  rw [ancBlk_eq V c t0_0, posBlk_eq V c t0_0]
  exact prepOut_eq c _ _ _ _ _ _ _ _ _

/-! ## The array after the region -/

/-- What the one write-back writes is the whole block the body left, read through the output's block at offset zero. -/
theorem flushed0_2_eq (c : Dev nD) (t : Fin cfg0.N) (hf : (cfg0.win 2).flush t = true) :
    (dat0 V c).flushed 2 t = ((cfg0.win 2).blk t).view.read (Elt F) (tableAt V c t0_0) := by
  obtain rfl := fin_N0 t
  show (cfg0.win 2).cut (grid0.coords t0_0) ((dat0 V c).after 2 t0_0) = _
  rw [after0_2]
  exact (Memref.read_access_unit_zero (Elt F) main_v0 off0_2 (fun a => by rw [congrFun off0_2 a]; simp) (tableAt V c t0_0)).symm

/-- Every index of the output array is in the one point's block, so the array ends as that block. -/
theorem tabArr_eq (c : Dev nD) : tabArr V c = tableAt V c t0_0 :=
  (dat0 V c).arrAt_eq_of_cover 2 (tableAt V c t0_0) (flushed0_2_eq V c) fun i =>
    ⟨t0_0, flush0_2 t0_0, by
      show i ∈ ((View.whole main_v0).slice (win0_2.rect t0_0)).set
      rw [View.set_slice_whole, Rect.mem_set_unit]
      intro a
      have h0 : (i 0 : Nat) < 4096 := (i 0).isLt
      have h1 : (i 1 : Nat) < 384 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 4096 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 384 from by decide +kernel]; omega⟩

/-- The output array after the region is the four bands over the two input arrays. -/
theorem tabArr_eq_bands (c : Dev nD) :
    tabArr V c = View.canon (bandsOf (k0_pay5 (F := F)) (k0_pay4 (ancArr V c) (posArr V c)) (k0_pay3 (ancArr V c) (posArr V c)) (k0_pay2 (ancArr V c))) :=
  (tabArr_eq V c).trans (tableAt_eq V c)

/-! ## The three kinds of column -/

/-- Columns 0 to 255 of row b hold the first band's payload: the anchor row in the table's format. -/
theorem tab_anchor (c : Dev nD) (b : Fin 4096) (k : Fin 256) :
    tabArr V c (ix2 b ⟨k.val, by omega⟩) = k0_pay2 (ancArr V c) (ix2 b k) :=
  (congrFun (tabArr_eq_bands V c) _).trans (bandsOf_anchor _ _ _ _ b k)

/-- Column 256 of row b holds the second band's payload at that row. -/
theorem tab_hi (c : Dev nD) (b : Fin 4096) :
    tabArr V c (ix2 b ⟨256, by omega⟩) = k0_pay3 (ancArr V c) (posArr V c) (ix2 b 0) :=
  (congrFun (tabArr_eq_bands V c) _).trans (bandsOf_hi _ _ _ _ b)

/-- Column 257 of row b holds the third band's payload at that row. -/
theorem tab_lo (c : Dev nD) (b : Fin 4096) :
    tabArr V c (ix2 b ⟨257, by omega⟩) = k0_pay4 (ancArr V c) (posArr V c) (ix2 b 0) :=
  (congrFun (tabArr_eq_bands V c) _).trans (bandsOf_lo _ _ _ _ b)

end Cert.KernelIdeal.Hand

end
-- ==== Proof.KIRegion1Value.lean ====
/- Region 1 of the program: what the scratch accumulator and the output window hold, in terms of the kernel's named
   payloads. Each point adds its contribution to the scratch (a first point of a row to the zero block), and a last
   point of a row stores the scratch, reshaped, over the output window. -/
import proofs.«414421_j8624294331099_3_alg».proof.Proof.KIRegion1
import Idealize.ShloMosaic.Lib.Pipeline.Value
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-- The two-axis offsets of the body's loads and stores are zero. -/
theorem hz2 : (![0, 0] : Fin 2 → Nat) = fun _ => 0 := funext fun a => by fin_cases a <;> rfl
/-- The three-axis ones too. -/
theorem hz3 : (![0, 0, 0] : Fin 3 → Nat) = fun _ => 0 := funext fun a => by fin_cases a <;> rfl
/-- And the one-axis one. -/
theorem hz1 : (![0] : Fin 1 → Nat) = fun _ => 0 := funext fun a => by fin_cases a <;> rfl

/-- One point's step of the accumulation: the scratch `acc` plus the point's contribution, computed from the point's
    block of indices, the table and the point's block of negatives. -/
def stepF (idx : Vec F S512 .i32) (tab : Vec F S4096x384 .bf16) (neg : Vec F S512x256 .f32) (acc : Vec F S4096x128 .f32) : Vec F S4096x128 .f32 :=
  k1_pay1 (k1_pay4 idx) (k1_pay5 idx tab neg) acc

/-! ## The three cases' values, on any memrefs -/

/-- Case A (a first point of a row): the scratch is zeroed, read back, and left at the step from the zero block. -/
theorem sout1_A_eq (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : cond1_first i) (hc1 : ¬cond1_last i)
    (x0 : Vec F S4096x384 .bf16) (x1 : Vec F S512x256 .f32) (x2 : Vec F S512 .i32) :
    sout1_A c i arg2 harg2 arg3 harg3 arg4 harg4 arg5 harg5 arg6 harg6 hc0 hc1 x0 x1 x2 = stepF x2 x0 x1 (k1_pay3 (F := F)) := by
  unfold sout1_A
  rw [View.read_writes_eq_canon _ _ _ (scover1_A c i arg2 harg2 arg3 harg3 arg4 harg4 arg5 harg5 arg6 harg6 hc0 hc1 x0 x1 x2)]
  unfold run1_A
  dsimp only
  sl_unfold_words
  rw [View.canon_cons_unit_zero (S := S4096x128) hz2, View.readCov_unit_zero (S := S4096x128) _ hz2]
  unfold stepF
  simp only [View.readAt_eq_ld, harg2.read_unread, harg3.read_unread, harg4.read_unread, harg6.read_unread,
    View.ld_unit_zero (S := S4096x384) hz2, View.ld_unit_zero (S := S512x256) hz2, View.ld_unit_zero (S := S512) hz1,
    View.ld_unit_zero (S := S4096x128) hz2]

/-- Case B (neither first nor last): the scratch is left at the step from what it held. -/
theorem sout1_B_eq (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : ¬cond1_last i)
    (x0 : Vec F S4096x384 .bf16) (x1 : Vec F S512x256 .f32) (x2 : Vec F S512 .i32) (xs0 : Vec F S4096x128 .f32) :
    sout1_B c i arg2 harg2 arg3 harg3 arg4 harg4 arg5 harg5 arg6 harg6 hc0 hc1 x0 x1 x2 xs0 = stepF x2 x0 x1 xs0 := by
  unfold sout1_B
  rw [View.read_writes_eq_canon _ _ _ (scover1_B c i arg2 harg2 arg3 harg3 arg4 harg4 arg5 harg5 arg6 harg6 hc0 hc1 x0 x1 x2 xs0)]
  unfold run1_B
  dsimp only
  sl_unfold_words
  rw [View.canon_unit_zero (S := S4096x128) hz2]
  unfold stepF
  simp only [View.readAt_eq_ld, harg2.read_unread, harg3.read_unread, harg4.read_unread, harg6.read_unread,
    View.ld_unit_zero (S := S4096x384) hz2, View.ld_unit_zero (S := S512x256) hz2, View.ld_unit_zero (S := S512) hz1,
    View.ld_unit_zero (S := S4096x128) hz2]

/-- Case C (a last point of a row): the scratch is left at the step from what it held, -/
theorem sout1_C_eq (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) :
    sout1_C c i arg2 harg2 arg3 harg3 arg4 harg4 arg5 harg5 arg6 harg6 hc0 hc1 x0 x1 x2 xs0 = stepF x2 x0 x1 xs0 := by
  unfold sout1_C
  rw [View.read_writes_eq_canon _ _ _ (scover1_C c i arg2 harg2 arg3 harg3 arg4 harg4 arg5 harg5 arg6 harg6 hc0 hc1 x0 x1 x2 xs0)]
  unfold run1_C
  dsimp only
  sl_unfold_words
  rw [View.canon_unit_zero (S := S4096x128) hz2]
  unfold stepF
  simp only [View.readAt_eq_ld, harg2.read_unread, harg3.read_unread, harg4.read_unread, harg6.read_unread,
    View.ld_unit_zero (S := S4096x384) hz2, View.ld_unit_zero (S := S512x256) hz2, View.ld_unit_zero (S := S512) hz1,
    View.ld_unit_zero (S := S4096x128) hz2]

/-- and the output window at the scratch just stored, reshaped to the block's three axes. -/
theorem out1_C_3_eq (c : Dev nD) (i : grid1.Coords) (arg2 : Memref sig .tc .vmem S4096x384 .bf16) (harg2 : arg2.IsWhole) (arg3 : Memref sig .tc .vmem S512x256 .f32) (harg3 : arg3.IsWhole) (arg4 : Memref sig .tc .vmem S512 .i32) (harg4 : arg4.IsWhole) (arg5 : Memref sig .tc .vmem S1x4096x128 .f32) (harg5 : arg5.IsWhole) (arg6 : Memref sig .tc .vmem S4096x128 .f32) (harg6 : arg6.IsWhole) (hc0 : ¬cond1_first i) (hc1 : cond1_last i)
    (x0 : Vec F S4096x384 .bf16) (x1 : Vec F S512x256 .f32) (x2 : Vec F S512 .i32) (xs0 : Vec F S4096x128 .f32) :
    out1_C_3 c i arg2 harg2 arg3 harg3 arg4 harg4 arg5 harg5 arg6 harg6 hc0 hc1 x0 x1 x2 xs0 = k1_pay2 (sout1_C c i arg2 harg2 arg3 harg3 arg4 harg4 arg5 harg5 arg6 harg6 hc0 hc1 x0 x1 x2 xs0) := by
  rw [sout1_C_eq]
  unfold out1_C_3
  rw [View.read_writes_eq_canon _ _ _ (cover1_C_3 c i arg2 harg2 arg3 harg3 arg4 harg4 arg5 harg5 arg6 harg6 hc0 hc1 x0 x1 x2 xs0)]
  unfold run1_C
  dsimp only
  sl_unfold_words
  rw [View.canon_unit_zero (S := S1x4096x128) hz3, View.readCov_unit_zero (S := S4096x128) _ hz2]
  unfold stepF
  simp only [View.readAt_eq_ld, harg2.read_unread, harg3.read_unread, harg4.read_unread, harg6.read_unread,
    View.ld_unit_zero (S := S4096x384) hz2, View.ld_unit_zero (S := S512x256) hz2, View.ld_unit_zero (S := S512) hz1,
    View.ld_unit_zero (S := S4096x128) hz2]

/-! ## Point by point -/

/-- The components of a pair known by an equation. -/
theorem fst_of_eq {α β : Type} {p : α × β} {a : α} {b : β} (h : p = (a, b)) : p.1 = a := by subst h; rfl
theorem snd_of_eq {α β : Type} {p : α × β} {a : α} {b : β} (h : p = (a, b)) : p.2 = b := by subst h; rfl

/-- At a first point of a row the scratch ends at the step from the zero block. -/
theorem scratch_first (c : Dev nD) (t : Fin cfg1.N) (h : t.val % 256 = 0) :
    (outsAt1 V c t.val t.isLt).2 = stepF (idxBlk V c t) (tabBlk V c t) (negBlk V c t) (k1_pay3 (F := F)) := by
  have h1 : ¬t.val % 256 = 255 := by omega
  have e := snd_of_eq (outsAt1_A V c t h h1)
  exact e.trans (sout1_A_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t))

/-- At any other point it ends at the step from what the point before left. -/
theorem scratch_next (c : Dev nD) (t : Fin cfg1.N) (h : t.val % 256 ≠ 0) :
    (outsAt1 V c t.val t.isLt).2 = stepF (idxBlk V c t) (tabBlk V c t) (negBlk V c t) (outsAt1 V c (t.val - 1) (Nat.lt_of_le_of_lt (Nat.sub_le _ _) t.isLt)).2 := by
  by_cases h1 : t.val % 256 = 255
  · have e := snd_of_eq (outsAt1_C V c t h h1)
    exact e.trans (sout1_C_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t) (outsAt1 V c (t.val - 1) (Nat.lt_of_le_of_lt (Nat.sub_le _ _) t.isLt)).2)
  · have e := snd_of_eq (outsAt1_B V c t h h1)
    exact e.trans (sout1_B_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t) (outsAt1 V c (t.val - 1) (Nat.lt_of_le_of_lt (Nat.sub_le _ _) t.isLt)).2)

/-- At a last point of a row the output window's staging buffer ends at the scratch, reshaped. -/
theorem out_last (c : Dev nD) (t : Fin cfg1.N) (h : t.val % 256 = 255) :
    (outsAt1 V c t.val t.isLt).1 = k1_pay2 ((outsAt1 V c t.val t.isLt).2) := by
  have h0 : ¬t.val % 256 = 0 := by omega
  have e1 := fst_of_eq (outsAt1_C V c t h0 h)
  have e2 := snd_of_eq (outsAt1_C V c t h0 h)
  rw [e2]
  exact e1.trans (out1_C_3_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t) (outsAt1 V c (t.val - 1) (Nat.lt_of_le_of_lt (Nat.sub_le _ _) t.isLt)).2)

end Cert.KernelIdeal.Hand

end
-- ==== Proof.Spec.lean ====
/-
  What both programs compute, as one function of the four argument arrays over the extended reals.

  Every row of the anchor table is scored against its positive row by the clamped cosine
  `⟨x, y⟩ / max (‖x‖ · ‖y‖) ε`.  A negative row `n` belongs to batch item `b` when its index word is
  the word of `b` (only words of 0 … 4095 belong to anything: every other word, negative or too large,
  is dropped on both sides).  A member contributes the hinge `max (margin + cos(anchor_b, neg_n) − pos_b) 0`.
  Each batch item takes the mean of its members' hinges (zero for an empty item), and the result is the
  sum of the means divided by the batch size.
-/
import Idealize.ShloMosaic.PureOps.Ideal
import Idealize.ShloMosaic.Lib.ValueIdx

noncomputable section

namespace Cert.TripletSpec

open Idealize.ShloMosaic Idealize.ShloMosaic.ValueIdx

abbrev SEmb : Shape := ⟨2, ![4096, 256]⟩
abbrev SNeg : Shape := ⟨2, ![262144, 256]⟩
abbrev SIdx : Shape := ⟨1, ![262144]⟩

/-- The clamp of the cosine's denominator, the margin, one and the batch size, each as the word both programs carry. -/
def eps : EReal := Ideal.ofBits .f32 0x322BCC77#32
def margin : EReal := Ideal.ofBits .f32 0x3F000000#32
def one : EReal := Ideal.ofBits .f32 0x3F800000#32
def batch : EReal := Ideal.ofBits .f32 0x45800000#32

/-- The inner product of two rows of 256 entries. -/
def dot (x y : Fin 256 → EReal) : EReal := ∑ k, x k * y k
/-- The Euclidean norm of a row. -/
def norm (x : Fin 256 → EReal) : EReal := Ideal.sqrt (∑ k, x k * x k)
/-- The cosine of two rows, its denominator clamped below by `eps`. -/
def cosine (x y : Fin 256 → EReal) : EReal := Ideal.div (dot x y) (max (norm x * norm y) eps)

/-- Row `b` of a batch table and row `n` of the negatives' table. -/
def rowA (a : SEmb.Idx → EReal) (b : Fin 4096) : Fin 256 → EReal := fun k => a (ix2 b k)
def rowN (g : SNeg.Idx → EReal) (n : Fin 262144) : Fin 256 → EReal := fun k => g (ix2 n k)

/-- Batch item `b`'s positive similarity. -/
def posSim (a p : SEmb.Idx → EReal) (b : Fin 4096) : EReal := cosine (rowA a b) (rowA p b)

/-- The hinge of a negative row `y` scored against batch item `b`. -/
def hingeRow (a p : SEmb.Idx → EReal) (b : Fin 4096) (y : Fin 256 → EReal) : EReal :=
  max (margin + cosine (rowA a b) y - posSim a p b) 0

/-- The hinge of negative `n` scored against batch item `b`. -/
def hinge (a p : SEmb.Idx → EReal) (g : SNeg.Idx → EReal) (b : Fin 4096) (n : Fin 262144) : EReal :=
  hingeRow a p b (rowN g n)

/-- Every entry of an array is a real number (neither infinity). -/
def AllReal {S : Shape} (x : S.Idx → EReal) : Prop := ∀ i, ∃ r : ℝ, x i = (r : EReal)

/-- The negatives that belong to batch item `b`: those whose index word is `b`'s. -/
def members (idx : SIdx.Idx → BitVec 32) (b : Fin 4096) : Finset (Fin 262144) :=
  Finset.univ.filter fun n => idx (ix1 n) = BitVec.ofNat 32 b.val

/-- The sum of batch item `b`'s members' hinges, and their number (a sum of ones). -/
def segSum (a p : SEmb.Idx → EReal) (g : SNeg.Idx → EReal) (idx : SIdx.Idx → BitVec 32) (b : Fin 4096) : EReal :=
  ∑ n ∈ members idx b, hinge a p g b n
def segCount (idx : SIdx.Idx → BitVec 32) (b : Fin 4096) : EReal := ∑ _n ∈ members idx b, one

/-- The mean of batch item `b`'s hinges; an item with no member contributes zero. -/
def segMean (a p : SEmb.Idx → EReal) (g : SNeg.Idx → EReal) (idx : SIdx.Idx → BitVec 32) (b : Fin 4096) : EReal :=
  if 0 < segCount idx b then Ideal.div (segSum a p g idx b) (max (segCount idx b) one) else 0

/-- The loss: the sum of the means over the batch size. -/
def loss (a p : SEmb.Idx → EReal) (g : SNeg.Idx → EReal) (idx : SIdx.Idx → BitVec 32) : EReal :=
  Ideal.div (∑ b : Fin 4096, segMean a p g idx b) batch

end Cert.TripletSpec

end
-- ==== Proof.PrepValue.lean ====
/-
  The table-building region read entry by entry over the extended reals.

  Its first 256 columns copy the anchor row; column 256 holds the row's clamped cosine against its
  positive row; column 257 holds that cosine minus itself, which is zero as soon as the cosine is a
  real number, and it is one whenever both rows are real: the inner product and the two squared
  norms are finite sums of real products, each norm is the square root of a non-negative real, and
  the denominator is at least the clamp, a positive dyadic. The remaining columns are the zero word.
-/
import proofs.«414421_j8624294331099_3_alg».proof.Proof.Gen.KernelIdeal.Skeleton
import proofs.«414421_j8624294331099_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PrepValue

open Cert.KernelIdeal Cert.KernelIdeal.Gen Cert.TripletSpec Idealize.ShloMosaic Idealize.ShloMosaic.ValueIdx

/-! ## Two readings at an index -/

/-- A row-wise sum of an elementwise product, read at row `b`: the sum over the row's entries. -/
theorem rowsum {n m : Nat} (x y : (⟨2, ![n, m]⟩ : Shape).Idx → EReal)
    (h : (⟨2, ![n, m]⟩ : Shape).Reduces [1] ⟨1, ![n]⟩) (hφ : FKind.Formats .f32)
    (hacc : (0x00000000#32 : BitVec 32) = FKind.add.neutral .f32 hφ) (b : Fin n) :
    multiReduction (F := Ideal) (φ := .f32) .add [1] ⟨1, ![n]⟩ (mulf (F := Ideal) (φ := .f32) x y) 0x00000000#32 h hφ hacc (ix1 b)
      = ∑ k : Fin m, x (ix2 b k) * y (ix2 b k) := by
  refine (Ideal.multiReduction_add_single (φ := .f32) (mulf (F := Ideal) (φ := .f32) x y) _ h hφ hacc (ix1 b)).trans ?_
  refine Finset.sum_congr rfl fun k _ => ?_
  have e : h.lift (ix1 b) k = ix2 b k := by
    funext a
    match a with
    | ⟨0, _⟩ => rfl
    | ⟨1, _⟩ => rfl
  rw [e]; rfl

/-- A vector of `a` entries viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The constants -/

/-- The clamp is a positive real. -/
theorem eps_pos_real : ∃ e : ℝ, 0 < e ∧ eps = (e : EReal) := by
  refine ⟨11258999 * (2 ^ 50)⁻¹, by positivity, ?_⟩
  unfold eps
  simp [Ideal.ofBits, Ideal.ieee]

/-- The margin is a real. -/
theorem margin_real : ∃ e : ℝ, margin = (e : EReal) := by
  refine ⟨8388608 * (2 ^ 24)⁻¹, ?_⟩
  unfold margin
  simp [Ideal.ofBits, Ideal.ieee]

/-- The word of one denotes one. -/
theorem one_eq : one = 1 := by
  unfold one
  simp [Ideal.ofBits, Ideal.ieee]
  rw [← EReal.coe_mul, ← EReal.coe_one]
  congr 1
  norm_num

/-! ## Sums of reals are real -/

/-- The embedding of the reals commutes with finite sums. -/
theorem coe_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ k, ∃ r : ℝ, f k = (r : EReal)) :
    ∃ r : ℝ, ∑ k ∈ s, f k = (r : EReal) := by
  choose g hg using h
  exact ⟨∑ k ∈ s, g k, by rw [coe_sum]; exact Finset.sum_congr rfl fun k _ => hg k⟩

/-- A finite sum of squares of reals is a non-negative real. -/
theorem sum_sq_nonneg_real {ι : Type*} (s : Finset ι) (f : ι → EReal) (h : ∀ k, ∃ r : ℝ, f k = (r : EReal)) :
    ∃ r : ℝ, 0 ≤ r ∧ ∑ k ∈ s, f k * f k = (r : EReal) := by
  choose g hg using h
  refine ⟨∑ k ∈ s, g k * g k, Finset.sum_nonneg fun k _ => mul_self_nonneg _, ?_⟩
  rw [coe_sum]; exact Finset.sum_congr rfl fun k _ => by rw [hg k, EReal.coe_mul]

/-- The norm of a real row is a non-negative real. -/
theorem norm_real (x : Fin 256 → EReal) (hx : ∀ k, ∃ r : ℝ, x k = (r : EReal)) :
    ∃ r : ℝ, 0 ≤ r ∧ TripletSpec.norm x = (r : EReal) := by
  obtain ⟨s, hs0, hs⟩ := sum_sq_nonneg_real Finset.univ x hx
  refine ⟨Real.sqrt s, Real.sqrt_nonneg _, ?_⟩
  unfold TripletSpec.norm
  rw [hs, Ideal.sqrt_coe, if_neg (not_lt.mpr hs0)]

/-- The clamped cosine of two real rows is a real: the denominator is at least the clamp. -/
theorem cosine_real (x y : Fin 256 → EReal) (hx : ∀ k, ∃ r : ℝ, x k = (r : EReal)) (hy : ∀ k, ∃ r : ℝ, y k = (r : EReal)) :
    ∃ r : ℝ, cosine x y = (r : EReal) := by
  obtain ⟨d, hd⟩ := sum_real Finset.univ (fun k => x k * y k) fun k => by
    obtain ⟨a, ha⟩ := hx k; obtain ⟨c, hc⟩ := hy k
    exact ⟨a * c, by rw [ha, hc, EReal.coe_mul]⟩
  obtain ⟨nx, _, hnx⟩ := norm_real x hx
  obtain ⟨ny, _, hny⟩ := norm_real y hy
  obtain ⟨e, he0, he⟩ := eps_pos_real
  have hden : max (TripletSpec.norm x * TripletSpec.norm y) eps = ((max (nx * ny) e : ℝ) : EReal) := by
    rw [hnx, hny, he, ← EReal.coe_mul]
    exact (EReal.coe_strictMono.monotone.map_max).symm
  have hpos : max (nx * ny) e ≠ 0 := ne_of_gt (lt_of_lt_of_le he0 (le_max_right _ _))
  refine ⟨d * (1 / max (nx * ny) e), ?_⟩
  unfold cosine dot
  rw [hden, hd, Ideal.div_coe hpos, EReal.coe_mul]

/-- A batch item's positive similarity is a real when both tables are. -/
theorem posSim_real (x0 x1 : SEmb.Idx → EReal) (h0 : AllReal x0) (h1 : AllReal x1) (b : Fin 4096) :
    ∃ r : ℝ, posSim x0 x1 b = (r : EReal) :=
  cosine_real _ _ (fun k => h0 (ix2 b k)) (fun k => h1 (ix2 b k))

/-! ## The table's columns -/

/-- The cosine vector at row `b` is the row's positive similarity. -/
theorem pay1_apply (x0 x1 : Vec Ideal S4096x256 .f32) (b : Fin 4096) :
    k0_pay1 (F := Ideal) x0 x1 (ix1 b) = posSim x0 x1 b := by
  unfold k0_pay1
  exact congrArg₂ Ideal.div (rowsum x0 x1 _ _ _ b)
    (congrArg₂ max (congrArg₂ (· * ·) (congrArg Ideal.sqrt (rowsum x0 x0 _ _ _ b))
      (congrArg Ideal.sqrt (rowsum x1 x1 _ _ _ b))) rfl)

/-- Columns below 256: the anchor row itself. -/
theorem pay2_apply (x0 : Vec Ideal S4096x256 .f32) (b : Fin 4096) (k : Fin 256) :
    k0_pay2 (F := Ideal) x0 (ix2 b k) = x0 (ix2 b k) := rfl

/-- Column 256: the positive similarity. -/
theorem pay3_apply (x0 x1 : Vec Ideal S4096x256 .f32) (b : Fin 4096) :
    k0_pay3 (F := Ideal) x0 x1 (ix2 b 0) = posSim x0 x1 b := by
  unfold k0_pay3
  refine (shapeCast_a_a1_apply _ _ b 0).trans ?_
  exact pay1_apply x0 x1 b

/-- Column 257: the similarity less itself, zero on real tables. -/
theorem pay4_apply (x0 x1 : Vec Ideal S4096x256 .f32) (h0 : AllReal x0) (h1 : AllReal x1) (b : Fin 4096) :
    k0_pay4 (F := Ideal) x0 x1 (ix2 b 0) = 0 := by
  unfold k0_pay4
  refine (shapeCast_a_a1_apply _ _ b 0).trans ?_
  show k0_pay1 (F := Ideal) x0 x1 (ix1 b) - k0_pay1 (F := Ideal) x0 x1 (ix1 b) = 0
  obtain ⟨r, hr⟩ := posSim_real x0 x1 h0 h1 b
  rw [pay1_apply, hr, ← EReal.coe_sub, sub_self, EReal.coe_zero]

/-- The remaining columns: the zero word. -/
theorem pay5_apply (b : Fin 4096) (k : Fin 126) : k0_pay5 (F := Ideal) (ix2 b k) = 0 := by
  show Ideal.ofBits .bf16 0x0000#16 = 0
  simp [Ideal.ofBits, Ideal.ieee]

end Cert.KernelIdeal.PrepValue

end
-- ==== Proof.TileValue.lean ====
/-
  One tile of the main region read entry by entry over the extended reals.

  A tile holds 512 negatives with their index words. The one-hot matrix `oh[l, c] = (word l = word of c)` times the
  table gathers, for a negative whose word is batch item `b`'s, row `b` of the table: the sum over the 4096 rows has
  one non-zero term. From the gathered anchor row and similarity the tile forms the hinge
  `max (margin + cos(anchor_b, neg_l) − pos_b) 0`. The transposed one-hot matrix times the three columns
  [hinge, hinge − hinge, 1] then adds, to row `b` of the accumulator, the members' hinges in column 0, nothing in
  column 1 (a member's hinge is a real number, and a non-member's entry is multiplied by zero) and the members' count
  in column 2. A negative whose word is no batch item's is a member of nothing.
-/
import proofs.«414421_j8624294331099_3_alg».proof.Proof.PrepValue

noncomputable section

namespace Cert.KernelIdeal.TileValue

open Cert.KernelIdeal Cert.KernelIdeal.Gen Cert.TripletSpec Idealize.ShloMosaic Idealize.ShloMosaic.ValueIdx
open Cert.KernelIdeal.PrepValue

/-- A matrix product into the zero accumulator, read at an entry: the sum over the contracted coordinate of the
    products of the two operands' entries. -/
theorem matmul_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (F := Ideal) (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Words to floats, and two more readings at an index -/

/-- The comparison bit of two words, widened and converted: one when the words agree, zero otherwise. -/
theorem eqBit (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  unfold IntOp.cmpi
  by_cases h : x = y
  · subst h
    simp
  · have : (x == y) = false := by simpa using h
    simp [this, h]

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two one-hot matrices -/

/-- The gathering one-hot matrix of a tile: entry `(l, c)` says whether negative `l`'s index word is `c`'s. -/
def oh (idx : Vec Ideal S512 .i32) : FVec Ideal S512x4096 .bf16 :=
  truncf .bf16 (sitofp .f32 (extui 32 (cmpi .eq
    (broadcastTo S512x4096 (shapeCast S512x1 idx shapeCasts_S512_S512x1) broadcasts_S512x1_S512x4096)
    (iota .tc S512x4096 32 [1] iota_S512x4096_d1_w32)) natLt_1_32)) bitsLt_bf16_f32

theorem oh_apply (idx : Vec Ideal S512 .i32) (l : Fin 512) (c : Fin 4096) :
    oh idx (ix2 l c) = if idx (ix1 l) = BitVec.ofNat 32 c.val then 1 else 0 := by
  have e1 : broadcastTo S512x4096 (shapeCast S512x1 idx shapeCasts_S512_S512x1) broadcasts_S512x1_S512x4096 (ix2 l c)
      = idx (ix1 l) :=
    (broadcastTo_a1_ab_apply _ _ l c).trans (shapeCast_a_a1_apply idx _ l 0)
  have e2 : iota .tc S512x4096 32 [1] iota_S512x4096_d1_w32 (ix2 l c) = BitVec.ofNat 32 c.val :=
    iota_single_apply _ _ _ _ _ _
  show FloatOps.sitofp (F := Ideal) .f32 ((IntOp.cmpi .eq
    (broadcastTo S512x4096 (shapeCast S512x1 idx shapeCasts_S512_S512x1) broadcasts_S512x1_S512x4096 (ix2 l c))
    (iota .tc S512x4096 32 [1] iota_S512x4096_d1_w32 (ix2 l c))).setWidth 32) = _
  rw [e1, e2, eqBit]

/-- The scattering one-hot matrix, the transpose of the first. -/
theorem ohT_apply (idx : Vec Ideal S512 .i32) (b : Fin 4096) (l : Fin 512) :
    k1_pay4 (F := Ideal) idx (ix2 b l) = if idx (ix1 l) = BitVec.ofNat 32 b.val then 1 else 0 := by
  unfold k1_pay4
  have e1 : broadcastTo S4096x512 (shapeCast S1x512 idx shapeCasts_S512_S1x512) broadcasts_S1x512_S4096x512 (ix2 b l)
      = idx (ix1 l) :=
    (broadcastTo_1b_ab_apply _ _ b l).trans (shapeCast_a_1a_apply idx _ 0 l)
  have e2 : iota .tc S4096x512 32 [0] iota_S4096x512_d0_w32 (ix2 b l) = BitVec.ofNat 32 b.val :=
    iota_single_apply _ _ _ _ _ _
  show FloatOps.sitofp (F := Ideal) .f32 ((IntOp.cmpi .eq
    (iota .tc S4096x512 32 [0] iota_S4096x512_d0_w32 (ix2 b l))
    (broadcastTo S4096x512 (shapeCast S1x512 idx shapeCasts_S512_S1x512) broadcasts_S1x512_S4096x512 (ix2 b l))).setWidth 32) = _
  rw [e1, e2, eqBit]
  exact if_congr eq_comm rfl rfl

/-! ## The gathered rows and the score of a tile's negatives -/

/-- The one-hot matrix times the table: each negative's gathered row. -/
def gath (idx : Vec Ideal S512 .i32) (tab : Vec Ideal S4096x384 .bf16) : FVec Ideal S512x384 .f32 :=
  matmul dot_S512x4096_S4096x384_S512x384_1_0_0_1_n_n none (oh idx)
    (shapeCast S4096x384 tab shapeCasts_S4096x384_S4096x384 : FVec Ideal S4096x384 .bf16) (constant S512x384 .f32 0x00000000#32)

/-- From the gathered rows `G` and the tile's negatives: per negative, the margin plus the clamped cosine of its
    gathered row against it, less the sum of the two gathered similarity columns. -/
def scoreOf (G : FVec Ideal S512x384 .f32) (neg : Vec Ideal S512x256 .f32) : FVec Ideal S512x1 .f32 :=
  let A : FVec Ideal S512x256 .f32 := extractStridedSlice S512x256 ![0, 0] G slices_S512x384_o0_0_S512x256
  let hi : FVec Ideal S512x1 .f32 := extractStridedSlice S512x1 ![0, 256] G slices_S512x384_o0_256_S512x1
  let lo : FVec Ideal S512x1 .f32 := extractStridedSlice S512x1 ![0, 257] G slices_S512x384_o0_257_S512x1
  let dt : FVec Ideal S512x1 .f32 := shapeCast S512x1
    (multiReduction .add [1] S512 (mulf A neg) 0x00000000#32 reduces_S512x256_S512 (.inl rfl) rfl) shapeCasts_S512_S512x1
  let na : FVec Ideal S512x1 .f32 := sqrt (shapeCast S512x1
    (multiReduction .add [1] S512 (mulf A A) 0x00000000#32 reduces_S512x256_S512 (.inl rfl) rfl) shapeCasts_S512_S512x1)
  let nn : FVec Ideal S512x1 .f32 := sqrt (shapeCast S512x1
    (multiReduction .add [1] S512 (mulf neg neg) 0x00000000#32 reduces_S512x256_S512 (.inl rfl) rfl) shapeCasts_S512_S512x1)
  subf (addf (broadcast S512x1 (Scalar.ofBits (F := Ideal) .f32 0x3F000000#32))
      (divf dt (maximumf (mulf na nn) (broadcast S512x1 (Scalar.ofBits (F := Ideal) .f32 0x322BCC77#32)))))
    (addf hi lo)

/-- The tile's score column is `scoreOf` of the gathered rows. -/
theorem pay5_eq (idx : Vec Ideal S512 .i32) (tab : Vec Ideal S4096x384 .bf16) (neg : Vec Ideal S512x256 .f32) :
    k1_pay5 (F := Ideal) idx tab neg = scoreOf (gath idx tab) neg := rfl

/-- A row-wise sum of a product, kept as a column, read at `(l, u)`. -/
theorem rowsum_col {n m : Nat} (x y : (⟨2, ![n, m]⟩ : Shape).Idx → EReal)
    (h : (⟨2, ![n, m]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (l : Fin n) (u : Fin 1) :
    shapeCast ⟨2, ![n, 1]⟩ (multiReduction (F := Ideal) (φ := .f32) .add [1] ⟨1, ![n]⟩
        (mulf (F := Ideal) (φ := .f32) x y) 0x00000000#32 h hφ hacc) hc (ix2 l u)
      = ∑ k : Fin m, x (ix2 l k) * y (ix2 l k) :=
  (shapeCast_a_a1_apply _ _ l u).trans (rowsum x y h hφ hacc l)

/-- The score of negative `l`, given what its gathered row holds: `row` in the first 256 columns, `P` and `Z` in
    the next two. -/
theorem scoreOf_apply (G : FVec Ideal S512x384 .f32) (neg : Vec Ideal S512x256 .f32) (l : Fin 512)
    (row : Fin 256 → EReal) (P Z : EReal)
    (hrow : ∀ k : Fin 256, G (ix2 l ⟨k.val, by omega⟩) = row k)
    (hP : G (ix2 l ⟨256, by omega⟩) = P) (hZ : G (ix2 l ⟨257, by omega⟩) = Z) :
    scoreOf G neg (ix2 l 0) = margin + cosine row (fun k => neg (ix2 l k)) - (P + Z) := by
  have hA : ∀ k : Fin 256,
      extractStridedSlice S512x256 ![0, 0] G slices_S512x384_o0_0_S512x256 (ix2 l k) = row k := fun k =>
    (slice2_axis1_apply 0 G _ l k ⟨k.val, by omega⟩ (Nat.zero_add _).symm).trans (hrow k)
  have hhi : extractStridedSlice S512x1 ![0, 256] G slices_S512x384_o0_256_S512x1 (ix2 l 0) = P :=
    (slice2_axis1_apply 256 G _ l 0 ⟨256, by omega⟩ rfl).trans hP
  have hlo : extractStridedSlice S512x1 ![0, 257] G slices_S512x384_o0_257_S512x1 (ix2 l 0) = Z :=
    (slice2_axis1_apply 257 G _ l 0 ⟨257, by omega⟩ rfl).trans hZ
  have hdt := (rowsum_col (extractStridedSlice S512x256 ![0, 0] G slices_S512x384_o0_0_S512x256) neg
    reduces_S512x256_S512 (.inl rfl) rfl shapeCasts_S512_S512x1 l 0).trans
      (Finset.sum_congr rfl fun k _ => by rw [hA k])
  have hna := (rowsum_col (extractStridedSlice S512x256 ![0, 0] G slices_S512x384_o0_0_S512x256)
    (extractStridedSlice S512x256 ![0, 0] G slices_S512x384_o0_0_S512x256)
    reduces_S512x256_S512 (.inl rfl) rfl shapeCasts_S512_S512x1 l 0).trans
      (Finset.sum_congr rfl fun k _ => by rw [hA k])
  have hnn := rowsum_col neg neg reduces_S512x256_S512 (.inl rfl) rfl shapeCasts_S512_S512x1 l 0
  unfold scoreOf
  exact congrArg₂ (· - ·)
    (congrArg₂ (· + ·) rfl (congrArg₂ Ideal.div hdt
      (congrArg₂ max (congrArg₂ (· * ·) (congrArg Ideal.sqrt hna) (congrArg Ideal.sqrt hnn)) rfl)))
    (congrArg₂ (· + ·) hhi hlo)

/-- Two batch items with the same index word are the same item. -/
theorem word_inj {a b : Fin 4096} (h : BitVec.ofNat 32 a.val = BitVec.ofNat 32 b.val) : a = b := by
  have h' := congrArg BitVec.toNat h
  simp only [BitVec.toNat_ofNat] at h'
  have := a.isLt; have := b.isLt
  apply Fin.ext; omega

/-- A negative whose index word is batch item `b`'s gathers row `b` of the table: the one-hot sum has one term. -/
theorem gath_member (idx : Vec Ideal S512 .i32) (tab : Vec Ideal S4096x384 .bf16) (l : Fin 512) (b : Fin 4096)
    (hl : idx (ix1 l) = BitVec.ofNat 32 b.val) (c : Fin 384) :
    gath idx tab (ix2 l c) = tab (ix2 b c) := by
  unfold gath
  refine (matmul_plain_apply _ none _ _ l c).trans ?_
  rw [Finset.sum_eq_single b]
  · rw [oh_apply, if_pos hl, one_mul, shapeCast_self]
  · intro k _ hk
    rw [oh_apply, if_neg, zero_mul]
    rw [hl]
    exact fun h => hk (word_inj h).symm
  · intro h; exact absurd (Finset.mem_univ b) h

/-! ## The scatter: the hinge, its residual and the count as three columns, summed per batch item -/

/-- The hinge column: the score clamped below by the zero word. -/
def hingeCol (v43 : FVec Ideal S512x1 .f32) : FVec Ideal S512x1 .f32 :=
  maximumf v43 (broadcast S512x1 (Scalar.ofBits (F := Ideal) .f32 0x00000000#32))

/-- The scattered matrix: the hinge, the hinge less itself, the word of one, then zero columns. -/
def cols (v43 : FVec Ideal S512x1 .f32) : FVec Ideal S512x128 .bf16 :=
  concatenate S512x128 1
    [⟨S512x1, (truncf .bf16 (hingeCol v43) bitsLt_bf16_f32 : FVec Ideal S512x1 .bf16)⟩,
     ⟨S512x1, (truncf .bf16 (subf (hingeCol v43) (hingeCol v43)) bitsLt_bf16_f32 : FVec Ideal S512x1 .bf16)⟩,
     ⟨S512x1, (truncf .bf16 (broadcast S512x1 (Scalar.ofBits (F := Ideal) .f32 0x3F800000#32) : FVec Ideal S512x1 .f32)
        bitsLt_bf16_f32 : FVec Ideal S512x1 .bf16)⟩,
     ⟨S512x125, (broadcast S512x125 (Scalar.ofBits (F := Ideal) .bf16 0x0000#16) : FVec Ideal S512x125 .bf16)⟩]
    concatenates_S512x1_S512x1_S512x1_S512x125_S512x128_d1

/-- The step's result is the accumulator plus the transposed one-hot matrix times `cols`. -/
theorem pay1_eq (ohT : FVec Ideal S4096x512 .bf16) (v43 : FVec Ideal S512x1 .f32) (acc : Vec Ideal S4096x128 .f32) :
    k1_pay1 (F := Ideal) ohT v43 acc
      = shapeCast S4096x128 (addf acc (matmul dot_S4096x512_S512x128_S4096x128_1_0_0_1_n_n none ohT (cols v43)
          (constant S4096x128 .f32 0x00000000#32))) shapeCasts_S4096x128_S4096x128 := rfl

/-- … so at `(b, j)` it adds, to the accumulator, the sum over the tile's negatives of the one-hot entry times column
    `j`'s entry. -/
theorem scatter_apply (ohT : FVec Ideal S4096x512 .bf16) (v43 : FVec Ideal S512x1 .f32) (acc : Vec Ideal S4096x128 .f32)
    (b : Fin 4096) (j : Fin 128) :
    k1_pay1 (F := Ideal) ohT v43 acc (ix2 b j) = acc (ix2 b j) + ∑ l : Fin 512, ohT (ix2 b l) * cols v43 (ix2 l j) := by
  rw [pay1_eq, shapeCast_self]
  exact congrArg (acc (ix2 b j) + ·) (matmul_plain_apply _ none ohT (cols v43) b j)

/-- Column 0 holds the hinge. -/
theorem cols_col0 (v43 : FVec Ideal S512x1 .f32) (l : Fin 512) :
    cols v43 (ix2 l ⟨0, by omega⟩) = max (v43 (ix2 l 0)) 0 := by
  unfold cols
  refine Eq.trans (concatenate_apply_piece (t := S512x128) (1 : Fin 2) _ _ (ix2 l (⟨0, by omega⟩ : Fin 128)) 0 (by simp) S512x1 _ rfl rfl 0 rfl
    (ix2 l (0 : Fin 1)) ?_ ?_) ?_
  · intro b hb
    match b with
    | ⟨0, _⟩ => rfl
    | ⟨1, _⟩ => exact absurd rfl hb
  · rfl
  · show max (v43 (ix2 l 0)) (Ideal.ofBits .f32 0x00000000#32) = _
    rw [Ideal.ofBits_zero_f32]

/-- Column 1 holds the hinge less itself. -/
theorem cols_col1 (v43 : FVec Ideal S512x1 .f32) (l : Fin 512) :
    cols v43 (ix2 l ⟨1, by omega⟩) = max (v43 (ix2 l 0)) 0 - max (v43 (ix2 l 0)) 0 := by
  unfold cols
  refine Eq.trans (concatenate_apply_piece (t := S512x128) (1 : Fin 2) _ _ (ix2 l (⟨1, by omega⟩ : Fin 128)) 1 (by simp) S512x1 _ rfl rfl 1 rfl
    (ix2 l (0 : Fin 1)) ?_ ?_) ?_
  · intro b hb
    match b with
    | ⟨0, _⟩ => rfl
    | ⟨1, _⟩ => exact absurd rfl hb
  · rfl
  · show max (v43 (ix2 l 0)) (Ideal.ofBits .f32 0x00000000#32) - max (v43 (ix2 l 0)) (Ideal.ofBits .f32 0x00000000#32) = _
    rw [Ideal.ofBits_zero_f32]

/-- Column 2 holds the word of one. -/
theorem cols_col2 (v43 : FVec Ideal S512x1 .f32) (l : Fin 512) :
    cols v43 (ix2 l ⟨2, by omega⟩) = one := by
  unfold cols
  refine Eq.trans (concatenate_apply_piece (t := S512x128) (1 : Fin 2) _ _ (ix2 l (⟨2, by omega⟩ : Fin 128)) 2 (by simp) S512x1 _ rfl rfl 2 rfl
    (ix2 l (0 : Fin 1)) ?_ ?_) ?_
  · intro b hb
    match b with
    | ⟨0, _⟩ => rfl
    | ⟨1, _⟩ => exact absurd rfl hb
  · rfl
  · rfl

/-! ## One tile's step, column by column -/

/-- One tile's step on the accumulator, over the extended reals. -/
def stepI (idx : Vec Ideal S512 .i32) (tab : Vec Ideal S4096x384 .bf16) (neg : Vec Ideal S512x256 .f32)
    (acc : Vec Ideal S4096x128 .f32) : Vec Ideal S4096x128 .f32 :=
  k1_pay1 (F := Ideal) (k1_pay4 (F := Ideal) idx) (k1_pay5 (F := Ideal) idx tab neg) acc

/-- The tile's negatives that belong to batch item `b`. -/
def tileMembers (idx : Vec Ideal S512 .i32) (b : Fin 4096) : Finset (Fin 512) :=
  Finset.univ.filter fun l => idx (ix1 l) = BitVec.ofNat 32 b.val

/-- The hinge of a real row against real tables is a real. -/
theorem hingeRow_real (a p : SEmb.Idx → EReal) (ha : AllReal a) (hp : AllReal p) (b : Fin 4096)
    (y : Fin 256 → EReal) (hy : ∀ k, ∃ r : ℝ, y k = (r : EReal)) : ∃ r : ℝ, hingeRow a p b y = (r : EReal) := by
  obtain ⟨m, hm⟩ := margin_real
  obtain ⟨c, hc⟩ := cosine_real (rowA a b) y (fun k => ha (ix2 b k)) hy
  obtain ⟨s, hs⟩ := posSim_real a p ha hp b
  refine ⟨max (m + c - s) 0, ?_⟩
  unfold hingeRow
  rw [hm, hc, hs, ← EReal.coe_add, ← EReal.coe_sub]
  exact (EReal.coe_strictMono.monotone.map_max).symm

/-- A member's score: its gathered row is batch item `b`'s table row, so the score is the margin plus the cosine of
    `b`'s anchor against the negative, less `b`'s positive similarity. -/
theorem score_member (idx : Vec Ideal S512 .i32) (tab : Vec Ideal S4096x384 .bf16) (neg : Vec Ideal S512x256 .f32)
    (a p : SEmb.Idx → EReal)
    (htA : ∀ (b : Fin 4096) (k : Fin 256), tab (ix2 b ⟨k.val, by omega⟩) = a (ix2 b k))
    (htP : ∀ b : Fin 4096, tab (ix2 b ⟨256, by omega⟩) = posSim a p b)
    (htZ : ∀ b : Fin 4096, tab (ix2 b ⟨257, by omega⟩) = 0)
    (b : Fin 4096) (l : Fin 512) (hl : idx (ix1 l) = BitVec.ofNat 32 b.val) :
    max (k1_pay5 (F := Ideal) idx tab neg (ix2 l 0)) 0 = hingeRow a p b (fun k => neg (ix2 l k)) := by
  rw [pay5_eq]
  have h := scoreOf_apply (gath idx tab) neg l (rowA a b) (posSim a p b) 0
    (fun k => (gath_member idx tab l b hl _).trans (htA b k))
    ((gath_member idx tab l b hl _).trans (htP b))
    ((gath_member idx tab l b hl _).trans (htZ b))
  rw [h, add_zero]
  rfl

/-- Column 0 gains the sum of the members' hinges. -/
theorem step_col0 (idx : Vec Ideal S512 .i32) (tab : Vec Ideal S4096x384 .bf16) (neg : Vec Ideal S512x256 .f32)
    (acc : Vec Ideal S4096x128 .f32) (a p : SEmb.Idx → EReal) (ha : AllReal a) (hp : AllReal p) (hneg : AllReal neg)
    (htA : ∀ (b : Fin 4096) (k : Fin 256), tab (ix2 b ⟨k.val, by omega⟩) = a (ix2 b k))
    (htP : ∀ b : Fin 4096, tab (ix2 b ⟨256, by omega⟩) = posSim a p b)
    (htZ : ∀ b : Fin 4096, tab (ix2 b ⟨257, by omega⟩) = 0) (b : Fin 4096) :
    stepI idx tab neg acc (ix2 b ⟨0, by omega⟩)
      = acc (ix2 b ⟨0, by omega⟩) + ∑ l ∈ tileMembers idx b, hingeRow a p b (fun k => neg (ix2 l k)) := by
  unfold stepI tileMembers
  rw [scatter_apply, Finset.sum_filter]
  refine congrArg (acc (ix2 b ⟨0, by omega⟩) + ·) (Finset.sum_congr rfl fun l _ => ?_)
  rw [ohT_apply, cols_col0]
  by_cases hl : idx (ix1 l) = BitVec.ofNat 32 b.val
  · rw [if_pos hl, if_pos hl, one_mul, score_member idx tab neg a p htA htP htZ b l hl]
  · rw [if_neg hl, if_neg hl, zero_mul]

/-- Column 1 gains nothing: a member's entry is its hinge, a real, less itself. -/
theorem step_col1 (idx : Vec Ideal S512 .i32) (tab : Vec Ideal S4096x384 .bf16) (neg : Vec Ideal S512x256 .f32)
    (acc : Vec Ideal S4096x128 .f32) (a p : SEmb.Idx → EReal) (ha : AllReal a) (hp : AllReal p) (hneg : AllReal neg)
    (htA : ∀ (b : Fin 4096) (k : Fin 256), tab (ix2 b ⟨k.val, by omega⟩) = a (ix2 b k))
    (htP : ∀ b : Fin 4096, tab (ix2 b ⟨256, by omega⟩) = posSim a p b)
    (htZ : ∀ b : Fin 4096, tab (ix2 b ⟨257, by omega⟩) = 0) (b : Fin 4096) :
    stepI idx tab neg acc (ix2 b ⟨1, by omega⟩) = acc (ix2 b ⟨1, by omega⟩) := by
  unfold stepI
  rw [scatter_apply, Finset.sum_eq_zero, add_zero]
  intro l _
  rw [ohT_apply, cols_col1]
  by_cases hl : idx (ix1 l) = BitVec.ofNat 32 b.val
  · obtain ⟨r, hr⟩ := hingeRow_real a p ha hp b (fun k => neg (ix2 l k)) (fun k => hneg (ix2 l k))
    rw [if_pos hl, one_mul, score_member idx tab neg a p htA htP htZ b l hl, hr, ← EReal.coe_sub, sub_self,
      EReal.coe_zero]
  · rw [if_neg hl, zero_mul]

/-- Column 2 gains one per member. -/
theorem step_col2 (idx : Vec Ideal S512 .i32) (tab : Vec Ideal S4096x384 .bf16) (neg : Vec Ideal S512x256 .f32)
    (acc : Vec Ideal S4096x128 .f32) (a p : SEmb.Idx → EReal) (ha : AllReal a) (hp : AllReal p) (hneg : AllReal neg)
    (htA : ∀ (b : Fin 4096) (k : Fin 256), tab (ix2 b ⟨k.val, by omega⟩) = a (ix2 b k))
    (htP : ∀ b : Fin 4096, tab (ix2 b ⟨256, by omega⟩) = posSim a p b)
    (htZ : ∀ b : Fin 4096, tab (ix2 b ⟨257, by omega⟩) = 0) (b : Fin 4096) :
    stepI idx tab neg acc (ix2 b ⟨2, by omega⟩) = acc (ix2 b ⟨2, by omega⟩) + ∑ _l ∈ tileMembers idx b, one := by
  unfold stepI tileMembers
  rw [scatter_apply, Finset.sum_filter]
  refine congrArg (acc (ix2 b ⟨2, by omega⟩) + ·) (Finset.sum_congr rfl fun l _ => ?_)
  rw [ohT_apply, cols_col2]
  by_cases hl : idx (ix1 l) = BitVec.ofNat 32 b.val
  · rw [if_pos hl, if_pos hl, one_mul]
  · rw [if_neg hl, if_neg hl, zero_mul]

end Cert.KernelIdeal.TileValue

end
-- ==== Proof.AccValue.lean ====
/-
  The accumulating region read column by column over the extended reals.

  The region walks 512 grid points, point `t = 256 · core + tile`. At point `t` it sees the whole table, rows
  `512 t … 512 t + 511` of the negatives and the same entries of their index words; it adds, into a scratch of
  4096 rows carried from point to point and reset at each core's first point, one tile's contribution; at each core's
  last point it copies the scratch into that core's block of the output.

  A block is a restriction of its array, so one tile's contribution to row `b` is a sum over the members of `b`
  that lie in the tile. By induction along a core's run the scratch after tile `j` holds the sum over the members in
  tiles `256 · core … 256 · core + j`; after the last tile these are the members `n` with `n / 131072 = core`.
  The output's blocks are indexed by the core and each is written once, at the core's last point, so the output at
  `(core, b, k)` is the scratch after that point at `(b, k)`: column 0 the members' hinges, column 1 zero, column 2
  their number as a sum of ones.
-/
import proofs.«414421_j8624294331099_3_alg».proof.Proof.KIRegion1Value
import proofs.«414421_j8624294331099_3_alg».proof.Proof.TileValue
import proofs.«414421_j8624294331099_3_alg».proof.Proof.Spec
import proofs.«414421_j8624294331099_3_alg».proof.Proof.Gen.KernelIdeal.Skeleton
import proofs.«414421_j8624294331099_3_alg».proof.Proof.Gen.KernelIdeal.Points
import proofs.«414421_j8624294331099_3_alg».proof.Proof.Gen.KernelIdeal.Launch
import Idealize.ShloMosaic.Lib.ValueIdx
import Idealize.ShloMosaic.Lib.Pipeline.Value
import Idealize.ShloMosaic.PureOps.Ideal.Laws

noncomputable section

namespace Cert.KernelIdeal.AccValue

open Cert.KernelIdeal Cert.KernelIdeal.Gen Cert.KernelIdeal.Hand Cert.KernelIdeal.TileValue Cert.TripletSpec
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The table, the negatives, their index words and the per-core output, each at its literal shape. -/
abbrev tabArr1 (c : Dev nD) : Vec Ideal S4096x384 .bf16 := V c main_v0
abbrev negArr (c : Dev nD) : Vec Ideal S262144x256 .f32 := V c main_arg2
abbrev idxArr (c : Dev nD) : Vec Ideal S262144 .i32 := V c main_arg3
abbrev outArr (c : Dev nD) : Vec Ideal S2x4096x128 .f32 := (dat1 V c).arrAt 3 cfg1.N

/-! ## Blocks are restrictions of the arrays -/

/-- A grid point is below 512. -/
theorem tlt (t : Fin cfg1.N) : t.val < 512 := lt_of_lt_of_eq t.isLt N_1

/-- The block indices at point `t`: the table's block never moves, the negatives' and the index words' block is
    block `t`, the output's block is the core `t / 256`. -/
theorem idx_facts : ∀ t : Fin grid1.N,
    win1_0.index t 0 = 0 ∧ win1_0.index t 1 = 0 ∧
    win1_1.index t 0 = t.val ∧ win1_1.index t 1 = 0 ∧
    win1_2.index t 0 = t.val ∧
    win1_3.index t 0 = t.val / 256 ∧ win1_3.index t 1 = 0 ∧ win1_3.index t 2 = 0 :=
  by decide +kernel

/-- Entry `l` of the index block at point `t` is entry `512 t + l` of the index array. -/
theorem idxBlk_apply (c : Dev nD) (t : Fin cfg1.N) (l : Fin 512) :
    idxBlk V c t (ix1 l) = idxArr V c (ix1 ⟨512 * t.val + l.val, by have := tlt t; omega⟩) := by
  obtain ⟨-, -, -, -, e2, -⟩ := idx_facts t
  show iblk1 V c 2 t (ix1 l) = _
  unfold iblk1
  rw [View.read_apply]
  show V c main_arg3 _ = V c main_arg3 _
  congr 1
  funext a; apply Fin.ext
  match a with
  | ⟨0, _⟩ => show win1_2.index t 0 * 512 + 1 * l.val = 512 * t.val + l.val; rw [e2]; omega

/-- Entry `(l, k)` of the negatives' block at point `t` is entry `(512 t + l, k)` of the negatives' array. -/
theorem negBlk_apply (c : Dev nD) (t : Fin cfg1.N) (l : Fin 512) (k : Fin 256) :
    negBlk V c t (ix2 l k) = negArr V c (ix2 ⟨512 * t.val + l.val, by have := tlt t; omega⟩ k) := by
  obtain ⟨-, -, e0, e1, -⟩ := idx_facts t
  show iblk1 V c 1 t (ix2 l k) = _
  unfold iblk1
  rw [View.read_apply]
  show V c main_arg2 _ = V c main_arg2 _
  congr 1
  funext a; apply Fin.ext
  match a with
  | ⟨0, _⟩ => show win1_1.index t 0 * 512 + 1 * l.val = 512 * t.val + l.val; rw [e0]; omega
  | ⟨1, _⟩ => show win1_1.index t 1 * 256 + 1 * k.val = k.val; rw [e1]; omega

/-- The table's block is the whole table at every point. -/
theorem tabBlk_apply (c : Dev nD) (t : Fin cfg1.N) (b : Fin 4096) (k : Fin 384) :
    tabBlk V c t (ix2 b k) = tabArr1 V c (ix2 b k) := by
  obtain ⟨e0, e1, -⟩ := idx_facts t
  show iblk1 V c 0 t (ix2 b k) = _
  unfold iblk1
  rw [View.read_apply]
  show V c main_v0 _ = V c main_v0 _
  congr 1
  funext a; apply Fin.ext
  match a with
  | ⟨0, _⟩ => show win1_0.index t 0 * 4096 + 1 * b.val = b.val; rw [e0]; omega
  | ⟨1, _⟩ => show win1_0.index t 1 * 384 + 1 * k.val = k.val; rw [e1]; omega

/-! ## A tile's members are the array's members that lie in the tile -/

/-- Negative `512 t + l`: entry `l` of tile `t`. -/
def tileEmb (t : ℕ) (ht : t < 512) : Fin 512 ↪ Fin 262144 :=
  ⟨fun l => ⟨512 * t + l.val, by have := l.isLt; omega⟩, fun l l' h => by
    have := congrArg Fin.val h
    exact Fin.ext (by simp only at this; omega)⟩

theorem tileEmb_val (t : ℕ) (ht : t < 512) (l : Fin 512) : (tileEmb t ht l).val = 512 * t + l.val := rfl

/-- A sum over the entries of tile `t` whose index word is `b`'s is the sum over the members of `b` that lie in
    tile `t`. -/
theorem tile_sum (idx : SIdx.Idx → BitVec 32) (b : Fin 4096) (t : ℕ) (ht : t < 512) (f : Fin 262144 → EReal) :
    ∑ l ∈ Finset.univ.filter (fun l : Fin 512 => idx (ix1 (tileEmb t ht l)) = BitVec.ofNat 32 b.val), f (tileEmb t ht l)
      = ∑ n ∈ (members idx b).filter (fun n => n.val / 512 = t), f n := by
  have e : (members idx b).filter (fun n => n.val / 512 = t)
      = (Finset.univ.filter (fun l : Fin 512 => idx (ix1 (tileEmb t ht l)) = BitVec.ofNat 32 b.val)).map (tileEmb t ht) := by
    ext n
    simp only [members, Finset.mem_filter, Finset.mem_univ, true_and, Finset.mem_map]
    constructor
    · rintro ⟨hn, hq⟩
      have hl : tileEmb t ht ⟨n.val % 512, Nat.mod_lt _ (by norm_num)⟩ = n :=
        Fin.ext (by show 512 * t + n.val % 512 = n.val; omega)
      exact ⟨⟨n.val % 512, Nat.mod_lt _ (by norm_num)⟩, by rw [hl]; exact hn, hl⟩
    · rintro ⟨l, hl, rfl⟩
      exact ⟨hl, by show (512 * t + l.val) / 512 = t; have := l.isLt; omega⟩
  rw [e, Finset.sum_map]

/-! ## Sums over a run of tiles -/

/-- One tile: the members between tile `lo` and tile `lo` are those of tile `lo`. -/
theorem run_first (s : Finset (Fin 262144)) (f : Fin 262144 → EReal) (lo : ℕ) :
    ∑ n ∈ s.filter (fun n => n.val / 512 = lo), f n
      = ∑ n ∈ s.filter (fun n => lo ≤ n.val / 512 ∧ n.val / 512 ≤ lo + 0), f n := by
  refine Finset.sum_congr (Finset.filter_congr fun n _ => ?_) fun _ _ => rfl
  omega

/-- One more tile: the members up to tile `hi + 1` are those up to tile `hi` and those of tile `hi + 1`. -/
theorem run_step (s : Finset (Fin 262144)) (f : Fin 262144 → EReal) (lo j : ℕ) :
    ∑ n ∈ s.filter (fun n => lo ≤ n.val / 512 ∧ n.val / 512 ≤ lo + j), f n
        + ∑ n ∈ s.filter (fun n => n.val / 512 = lo + (j + 1)), f n
      = ∑ n ∈ s.filter (fun n => lo ≤ n.val / 512 ∧ n.val / 512 ≤ lo + (j + 1)), f n := by
  rw [← Finset.sum_union (Finset.disjoint_filter.mpr fun n _ h1 h2 => by omega), ← Finset.filter_or]
  refine Finset.sum_congr (Finset.filter_congr fun n _ => ?_) fun _ _ => rfl
  omega

/-- A whole core: tiles `256 q … 256 q + 255` hold the negatives `n` with `n / 131072 = q`. -/
theorem run_core (s : Finset (Fin 262144)) (f : Fin 262144 → EReal) (q : ℕ) :
    ∑ n ∈ s.filter (fun n => 256 * q ≤ n.val / 512 ∧ n.val / 512 ≤ 256 * q + 255), f n
      = ∑ n ∈ s.filter (fun n => n.val / 131072 = q), f n := by
  refine Finset.sum_congr (Finset.filter_congr fun n _ => ?_) fun _ _ => rfl
  omega

/-! ## One point, read at the arrays -/

section Point
variable (c : Dev nD) (a p : SEmb.Idx → EReal) (ha : AllReal a) (hp : AllReal p) (hg : AllReal (negArr V c))
  (htA : ∀ (b : Fin 4096) (k : Fin 256), tabArr1 V c (ix2 b ⟨k.val, by omega⟩) = a (ix2 b k))
  (htP : ∀ b : Fin 4096, tabArr1 V c (ix2 b ⟨256, by omega⟩) = posSim a p b)
  (htZ : ∀ b : Fin 4096, tabArr1 V c (ix2 b ⟨257, by omega⟩) = 0)

include hg in
/-- A block of real negatives is real. -/
theorem negBlk_real (t : Fin cfg1.N) : AllReal (negBlk V c t) := fun i => by
  obtain ⟨l, k, rfl⟩ : ∃ (l : Fin 512) (k : Fin 256), i = ix2 l k := ⟨i 0, i 1, eq_ix2 i⟩
  rw [negBlk_apply]; exact hg _

include ha hp hg htA htP htZ

/-- Column 0 after one point: what it held plus the hinges of `b`'s members in that point's tile. -/
theorem tile_col0 (t : Fin cfg1.N) (acc : Vec Ideal S4096x128 .f32) (b : Fin 4096) :
    stepI (idxBlk V c t) (tabBlk V c t) (negBlk V c t) acc (ix2 b ⟨0, by omega⟩)
      = acc (ix2 b ⟨0, by omega⟩)
        + ∑ n ∈ (members (idxArr V c) b).filter (fun n => n.val / 512 = t.val), hinge a p (negArr V c) b n := by
  refine (step_col0 (idxBlk V c t) (tabBlk V c t) (negBlk V c t) acc a p ha hp (negBlk_real V c hg t)
    (fun b k => (tabBlk_apply V c t b _).trans (htA b k)) (fun b => (tabBlk_apply V c t b _).trans (htP b))
    (fun b => (tabBlk_apply V c t b _).trans (htZ b)) b).trans ?_
  refine congrArg (acc (ix2 b ⟨0, by omega⟩) + ·) ?_
  rw [← tile_sum (idxArr V c) b t.val (tlt t) (hinge a p (negArr V c) b)]
  unfold tileMembers
  refine Finset.sum_congr (Finset.filter_congr fun l _ => ?_) fun l _ => ?_
  · rw [idxBlk_apply]; exact Iff.rfl
  · show hingeRow a p b _ = hingeRow a p b _
    refine congrArg (hingeRow a p b) (funext fun k => ?_)
    exact negBlk_apply V c t l k

/-- Column 1 after one point: unchanged. -/
theorem tile_col1 (t : Fin cfg1.N) (acc : Vec Ideal S4096x128 .f32) (b : Fin 4096) :
    stepI (idxBlk V c t) (tabBlk V c t) (negBlk V c t) acc (ix2 b ⟨1, by omega⟩) = acc (ix2 b ⟨1, by omega⟩) :=
  step_col1 (idxBlk V c t) (tabBlk V c t) (negBlk V c t) acc a p ha hp (negBlk_real V c hg t)
    (fun b k => (tabBlk_apply V c t b _).trans (htA b k)) (fun b => (tabBlk_apply V c t b _).trans (htP b))
    (fun b => (tabBlk_apply V c t b _).trans (htZ b)) b

/-- Column 2 after one point: what it held plus one for each of `b`'s members in that point's tile. -/
theorem tile_col2 (t : Fin cfg1.N) (acc : Vec Ideal S4096x128 .f32) (b : Fin 4096) :
    stepI (idxBlk V c t) (tabBlk V c t) (negBlk V c t) acc (ix2 b ⟨2, by omega⟩)
      = acc (ix2 b ⟨2, by omega⟩)
        + ∑ _n ∈ (members (idxArr V c) b).filter (fun n => n.val / 512 = t.val), one := by
  refine (step_col2 (idxBlk V c t) (tabBlk V c t) (negBlk V c t) acc a p ha hp (negBlk_real V c hg t)
    (fun b k => (tabBlk_apply V c t b _).trans (htA b k)) (fun b => (tabBlk_apply V c t b _).trans (htP b))
    (fun b => (tabBlk_apply V c t b _).trans (htZ b)) b).trans ?_
  refine congrArg (acc (ix2 b ⟨2, by omega⟩) + ·) ?_
  rw [← tile_sum (idxArr V c) b t.val (tlt t) (fun _ => one)]
  unfold tileMembers
  refine Finset.sum_congr (Finset.filter_congr fun l _ => ?_) fun l _ => rfl
  rw [idxBlk_apply]; exact Iff.rfl

end Point

/-! ## The scratch after each point of a core's run -/

/-- The scratch after a point depends on the point's number only. -/
theorem scr_congr (c : Dev nD) {n n' : ℕ} (e : n = n') (h : n < cfg1.N) (h' : n' < cfg1.N) :
    (outsAt1 V c n h).2 = (outsAt1 V c n' h').2 := by subst e; rfl

/-- The word the scratch is reset to denotes zero. -/
theorem zero_apply (i : S4096x128.Idx) : k1_pay3 (F := Ideal) i = 0 := by
  unfold k1_pay3
  simp only [shapeCast_self]
  exact Ideal.ofBits_zero_f32

section Run
variable (c : Dev nD) (a p : SEmb.Idx → EReal) (ha : AllReal a) (hp : AllReal p) (hg : AllReal (negArr V c))
  (htA : ∀ (b : Fin 4096) (k : Fin 256), tabArr1 V c (ix2 b ⟨k.val, by omega⟩) = a (ix2 b k))
  (htP : ∀ b : Fin 4096, tabArr1 V c (ix2 b ⟨256, by omega⟩) = posSim a p b)
  (htZ : ∀ b : Fin 4096, tabArr1 V c (ix2 b ⟨257, by omega⟩) = 0)
include ha hp hg htA htP htZ

/-- Column 0 after point `256 q + j`: the hinges of `b`'s members in tiles `256 q … 256 q + j`. -/
theorem scr_col0 (q : ℕ) (b : Fin 4096) : ∀ (j : ℕ) (_ : j < 256) (h : 256 * q + j < cfg1.N),
    (outsAt1 V c (256 * q + j) h).2 (ix2 b ⟨0, by omega⟩)
      = ∑ n ∈ (members (idxArr V c) b).filter (fun n => 256 * q ≤ n.val / 512 ∧ n.val / 512 ≤ 256 * q + j),
          hinge a p (negArr V c) b n
  | 0, _, h => by
    refine (congrFun (scratch_first V c ⟨256 * q + 0, h⟩ (by show (256 * q + 0) % 256 = 0; omega)) _).trans ?_
    refine (tile_col0 V c a p ha hp hg htA htP htZ ⟨256 * q + 0, h⟩ _ b).trans ?_
    rw [zero_apply, zero_add]
    exact run_first _ _ (256 * q)
  | j + 1, hj, h => by
    have h' : 256 * q + j < cfg1.N := Nat.lt_of_succ_lt h
    refine (congrFun (scratch_next V c ⟨256 * q + (j + 1), h⟩ (by show (256 * q + (j + 1)) % 256 ≠ 0; omega)) _).trans ?_
    refine (tile_col0 V c a p ha hp hg htA htP htZ ⟨256 * q + (j + 1), h⟩ _ b).trans ?_
    rw [scr_congr V c (show 256 * q + (j + 1) - 1 = 256 * q + j by omega) _ h', scr_col0 q b j (by omega) h']
    exact run_step _ _ (256 * q) j

/-- Column 1 after every point: zero. -/
theorem scr_col1 (q : ℕ) (b : Fin 4096) : ∀ (j : ℕ) (_ : j < 256) (h : 256 * q + j < cfg1.N),
    (outsAt1 V c (256 * q + j) h).2 (ix2 b ⟨1, by omega⟩) = 0
  | 0, _, h => by
    refine (congrFun (scratch_first V c ⟨256 * q + 0, h⟩ (by show (256 * q + 0) % 256 = 0; omega)) _).trans ?_
    refine (tile_col1 V c a p ha hp hg htA htP htZ ⟨256 * q + 0, h⟩ _ b).trans ?_
    exact zero_apply _
  | j + 1, hj, h => by
    have h' : 256 * q + j < cfg1.N := Nat.lt_of_succ_lt h
    refine (congrFun (scratch_next V c ⟨256 * q + (j + 1), h⟩ (by show (256 * q + (j + 1)) % 256 ≠ 0; omega)) _).trans ?_
    refine (tile_col1 V c a p ha hp hg htA htP htZ ⟨256 * q + (j + 1), h⟩ _ b).trans ?_
    rw [scr_congr V c (show 256 * q + (j + 1) - 1 = 256 * q + j by omega) _ h']
    exact scr_col1 q b j (by omega) h'

/-- Column 2 after point `256 q + j`: one for each of `b`'s members in tiles `256 q … 256 q + j`. -/
theorem scr_col2 (q : ℕ) (b : Fin 4096) : ∀ (j : ℕ) (_ : j < 256) (h : 256 * q + j < cfg1.N),
    (outsAt1 V c (256 * q + j) h).2 (ix2 b ⟨2, by omega⟩)
      = ∑ _n ∈ (members (idxArr V c) b).filter (fun n => 256 * q ≤ n.val / 512 ∧ n.val / 512 ≤ 256 * q + j), one
  | 0, _, h => by
    refine (congrFun (scratch_first V c ⟨256 * q + 0, h⟩ (by show (256 * q + 0) % 256 = 0; omega)) _).trans ?_
    refine (tile_col2 V c a p ha hp hg htA htP htZ ⟨256 * q + 0, h⟩ _ b).trans ?_
    rw [zero_apply, zero_add]
    exact run_first _ (fun _ => one) (256 * q)
  | j + 1, hj, h => by
    have h' : 256 * q + j < cfg1.N := Nat.lt_of_succ_lt h
    refine (congrFun (scratch_next V c ⟨256 * q + (j + 1), h⟩ (by show (256 * q + (j + 1)) % 256 ≠ 0; omega)) _).trans ?_
    refine (tile_col2 V c a p ha hp hg htA htP htZ ⟨256 * q + (j + 1), h⟩ _ b).trans ?_
    rw [scr_congr V c (show 256 * q + (j + 1) - 1 = 256 * q + j by omega) _ h', scr_col2 q b j (by omega) h']
    exact run_step _ (fun _ => one) (256 * q) j

end Run

/-! ## The array from the blocks -/

/-- A core's last point is a grid point. -/
theorem lastlt (q : ℕ) (hq : q < 2) : 256 * q + 255 < cfg1.N := lt_of_lt_of_eq (by omega) N_1.symm

section Final
variable (c : Dev nD)

/-- What the output array ends holding: at `(q, b, k)`, the scratch after core `q`'s last point at `(b, k)`. -/
def G : Vec Ideal S2x4096x128 .f32 := fun i =>
  (outsAt1 V c (256 * (i 0).val + 255) (lastlt _ (i 0).isLt)).2 (ix2 (n0 := 4096) (n1 := 128) (i 1) (i 2))

/-- What a point that writes the output block back writes is its block of that array: the point is its core's
    last, the block is the scratch as it then stands, under a leading unit axis. -/
theorem flushed_eq (t : Fin cfg1.N) (hf : (cfg1.win 3).flush t = true) :
    (dat1 V c).flushed 3 t = ((cfg1.win 3).blk t).view.read (Elt Ideal) (G V c) := by
  have h255 : t.val % 256 = 255 := (flush1_3 t).mp hf
  obtain ⟨-, -, -, -, -, e0, e1, e2⟩ := idx_facts t
  show (cfg1.win 3).cut (grid1.coords t) ((dat1 V c).after 3 t) = _
  rw [after1_3, out_last V c t h255]
  funext y
  rw [View.read_apply]
  show k1_pay2 (outsAt1 V c t.val t.isLt).2 ((cfg1.win 3).xinj (grid1.coords t) y) = G V c (((cfg1.win 3).blk t).view.emb y)
  unfold k1_pay2
  refine (shapeCast_addUnit_apply ![4096, 128] _ _ _).trans ?_
  unfold G
  have hy0 : (y 0).val < 1 := (y 0).isLt
  have E0 : ((((cfg1.win 3).blk t).view.emb y) 0).val = t.val / 256 := by
    show win1_3.index t 0 * 1 + 1 * (y 0).val = _
    rw [e0]; omega
  rw [scr_congr V c (show t.val = 256 * ((((cfg1.win 3).blk t).view.emb y) 0).val + 255 by rw [E0]; omega) t.isLt
    (lastlt _ ((((cfg1.win 3).blk t).view.emb y) 0).isLt)]
  refine congrArg _ (funext fun a => Fin.ext ?_)
  match a with
  | ⟨0, _⟩ => show (y 1).val = win1_3.index t 1 * 4096 + 1 * (y 1).val; rw [e1]; omega
  | ⟨1, _⟩ => show (y 2).val = win1_3.index t 2 * 128 + 1 * (y 2).val; rw [e2]; omega

/-- Every entry of the output array lies in the block its core's last point writes back. -/
theorem cover (i : S2x4096x128.Idx) :
    ∃ t : Fin cfg1.N, (cfg1.win 3).flush t = true ∧ i ∈ ((cfg1.win 3).blk t).view.set := by
  have h0 : (i 0).val < 2 := (i 0).isLt
  have h1 : (i 1).val < 4096 := (i 1).isLt
  have h2 : (i 2).val < 128 := (i 2).isLt
  obtain ⟨t, ht⟩ : ∃ t : Fin cfg1.N, t.val = 256 * (i 0).val + 255 := ⟨⟨_, lastlt _ h0⟩, rfl⟩
  obtain ⟨-, -, -, -, -, e0, e1, e2⟩ := idx_facts t
  refine ⟨t, (flush1_3 t).mpr (by omega), ?_⟩
  show i ∈ ((View.whole main_v1).slice (win1_3.rect t)).set
  rw [View.set_slice_whole, Rect.mem_set_unit]
  intro a
  match a with
  | ⟨0, _⟩ => show win1_3.index t 0 * 1 ≤ (i 0).val ∧ (i 0).val < win1_3.index t 0 * 1 + 1; rw [e0]; omega
  | ⟨1, _⟩ => show win1_3.index t 1 * 4096 ≤ (i 1).val ∧ (i 1).val < win1_3.index t 1 * 4096 + 4096; rw [e1]; omega
  | ⟨2, _⟩ => show win1_3.index t 2 * 128 ≤ (i 2).val ∧ (i 2).val < win1_3.index t 2 * 128 + 128; rw [e2]; omega

/-- The output array after the region: each core's block is the scratch after the core's last point. -/
theorem final : outArr V c = G V c :=
  (dat1 V c).arrAt_eq_of_cover 3 (G V c) (flushed_eq V c) cover

end Final

/-! ## The output, column by column -/

section Export
variable (c : Dev nD) (a p : SEmb.Idx → EReal) (ha : AllReal a) (hp : AllReal p) (hg : AllReal (negArr V c))
  (htA : ∀ (b : Fin 4096) (k : Fin 256), tabArr1 V c (ix2 b ⟨k.val, by omega⟩) = a (ix2 b k))
  (htP : ∀ b : Fin 4096, tabArr1 V c (ix2 b ⟨256, by omega⟩) = posSim a p b)
  (htZ : ∀ b : Fin 4096, tabArr1 V c (ix2 b ⟨257, by omega⟩) = 0)
include ha hp hg htA htP htZ

/-- Column 0 of core `cc`'s block: the hinges of `b`'s members among the negatives that core scans. -/
theorem out_col0 (cc : Fin 2) (b : Fin 4096) :
    outArr V c (ix3 cc b ⟨0, by omega⟩)
      = ∑ n ∈ (members (idxArr V c) b).filter (fun n => n.val / 131072 = cc.val), hinge a p (negArr V c) b n := by
  refine (congrFun (final V c) _).trans ?_
  refine (scr_col0 V c a p ha hp hg htA htP htZ cc.val b 255 (by omega) (lastlt _ cc.isLt)).trans ?_
  exact run_core _ _ cc.val

/-- Column 1 of core `cc`'s block: zero. -/
theorem out_col1 (cc : Fin 2) (b : Fin 4096) : outArr V c (ix3 cc b ⟨1, by omega⟩) = 0 := by
  refine (congrFun (final V c) _).trans ?_
  exact scr_col1 V c a p ha hp hg htA htP htZ cc.val b 255 (by omega) (lastlt _ cc.isLt)

/-- Column 2 of core `cc`'s block: one for each of `b`'s members among the negatives that core scans. -/
theorem out_col2 (cc : Fin 2) (b : Fin 4096) :
    outArr V c (ix3 cc b ⟨2, by omega⟩)
      = ∑ _n ∈ (members (idxArr V c) b).filter (fun n => n.val / 131072 = cc.val), one := by
  refine (congrFun (final V c) _).trans ?_
  refine (scr_col2 V c a p ha hp hg htA htP htZ cc.val b 255 (by omega) (lastlt _ cc.isLt)).trans ?_
  exact run_core _ (fun _ => one) cc.val

end Export

end Cert.KernelIdeal.AccValue

end
-- ==== Proof.TailValue.lean ====
/-
  The last stretch of the program: from the per-core partial sums to the loss.

  The second kernel region leaves, for each of the two cores and each batch item `b`, a row whose column 0 is a
  partial sum of hinges, column 1 a residual of that sum, and column 2 a partial count of members.  The closing
  operations add the two cores' rows, form `s = column 0 + column 1` and `n = column 2`, take the mean
  `s / max n 1` where `n` is positive and zero elsewhere, sum the means over the 4096 batch items and divide
  by the batch size.  Over the extended reals every step is exact, so the scalar written last is the closed
  expression `tailOf` of the region's output, whatever the other buffers held.
-/
import proofs.«414421_j8624294331099_3_alg».proof.Proof.Gen.KernelIdeal.Launch
import proofs.«414421_j8624294331099_3_alg».proof.Proof.Spec
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.TailValue

open Cert.KernelIdeal Cert.KernelIdeal.Gen Idealize.ShloMosaic Idealize.ShloMosaic.ValueIdx Cert.TripletSpec

/-- The loss as a function of the per-core array `o` of shape [2, 4096, 128]: for each batch item the two cores'
    entries are added column by column; `s` is column 0 plus column 1, `n` is column 2; the item's mean is
    `s / max n 1` when `n` is positive and zero otherwise; the loss is the sum of the means over the batch size. -/
def tailOf (o : Vec Ideal S2x4096x128 .f32) : EReal :=
  Ideal.div (∑ b : Fin 4096,
    (let s := (o (ix3 0 b ⟨0, by omega⟩) + o (ix3 1 b ⟨0, by omega⟩)) + (o (ix3 0 b ⟨1, by omega⟩) + o (ix3 1 b ⟨1, by omega⟩))
     let n := o (ix3 0 b ⟨2, by omega⟩) + o (ix3 1 b ⟨2, by omega⟩)
     if 0 < n then Ideal.div s (max n one) else 0)) batch

/-! ## The single operations read at an index -/

/-- The sum over the leading axis of size two, started from the zero word, is at `(b, j)` the sum of the two
    entries `(0, b, j)` and `(1, b, j)`: the initial value is the real zero, and the fibre over `(b, j)` has
    exactly those two points. -/
theorem acc_apply (o : Vec Ideal S2x4096x128 .f32) (h : S2x4096x128.ReducesTo [0] S4096x128) (hu : 0 < S_.numel)
    (b : Fin 4096) (j : Fin 128) :
    Host.reduceAdd (F := Ideal) o (constant (F := Ideal) S_ .f32 0x00000000#32) h hu (ix2 b j)
      = o (ix3 0 b j) + o (ix3 1 b j) := by
  have hr : S2x4096x128.Reduces [0] S4096x128 := by decide
  rw [hostReduceAdd_apply, Ideal.hostReduceAdd_single h hr, constant_apply, Ideal.ofBits_zero_f32, zero_add]
  show ∑ k : Fin 2, o (hr.lift (ix2 b j) k) = _
  rw [Fin.sum_univ_two]
  have e0 : hr.lift (ix2 b j) (0 : Fin 2) = ix3 0 b j := by
    funext c; apply Fin.ext
    match c with
    | ⟨0, _⟩ => rfl
    | ⟨1, _⟩ => rfl
    | ⟨2, _⟩ => rfl
  have e1 : hr.lift (ix2 b j) (1 : Fin 2) = ix3 1 b j := by
    funext c; apply Fin.ext
    match c with
    | ⟨0, _⟩ => rfl
    | ⟨1, _⟩ => rfl
    | ⟨2, _⟩ => rfl
  rw [e0, e1]

/-- The one-column slice of a [4096, 128] array starting at column `c` reads, at row `b`, the entry `(b, c)`. -/
theorem col_apply (x : Vec Ideal S4096x128 .f32) (c : Nat) (hc : c < 128) (h : S4096x128.Slices ![0, c] S4096x1)
    (b : Fin 4096) (z : Fin 1) :
    extractStridedSlice S4096x1 ![0, c] x h (ix2 b z) = x (ix2 b ⟨c, hc⟩) :=
  extractStridedSlice_apply _ _ _ _ _ (fun ax => by
    match ax with
    | ⟨0, _⟩ => exact (Nat.zero_add _).symm
    | ⟨1, _⟩ => show c = c + z.val; omega)

/-- Choosing by the bit of the comparison `x > y` is the `if` on `y < x`. -/
theorem select_ogt {α : Type} (x y : EReal) (a b : α) :
    Scalar.select (Ideal.cmp .ogt x y) a b = if y < x then a else b := by
  unfold Ideal.cmp
  by_cases h : y < x
  · simp only [h, decide_true, BitVec.ofBool_true, if_true]; exact select_one a b
  · simp only [h, decide_false, BitVec.ofBool_false, if_false]; exact select_zero a b

/-! ## The closing operations as one term of the region's output -/

/-- The two cores' arrays added entry by entry. -/
def accOf (o : Vec Ideal S2x4096x128 .f32) : Vec Ideal S4096x128 .f32 :=
  Host.reduceAdd (F := Ideal) o (constant (F := Ideal) S_ .f32 0x00000000#32) reducesTo_S2x4096x128_S4096x128_d0 h_S_

/-- The column of means: where the count (column 2) exceeds zero, the sum of columns 0 and 1 over the count
    clamped below by one; zero elsewhere. -/
def meanOf (o : Vec Ideal S2x4096x128 .f32) : Vec Ideal S4096x1 .f32 :=
  select
    (cmpf (F := Ideal) .ogt (extractStridedSlice S4096x1 ![0, 2] (accOf o) slices_S4096x128_S4096x1_0_2)
      (broadcastInDim S4096x1 ![] bcast_S_S4096x1 (constant (F := Ideal) S_ .f32 0x00000000#32)))
    (Host.divf (F := Ideal)
      (addf (F := Ideal) (extractStridedSlice S4096x1 ![0, 0] (accOf o) slices_S4096x128_S4096x1_0_0)
        (extractStridedSlice S4096x1 ![0, 1] (accOf o) slices_S4096x128_S4096x1_0_1))
      (maximumf (F := Ideal) (extractStridedSlice S4096x1 ![0, 2] (accOf o) slices_S4096x128_S4096x1_0_2)
        (broadcastInDim S4096x1 ![] bcast_S_S4096x1 (constant (F := Ideal) S_ .f32 0x3F800000#32))))
    (broadcastInDim S4096x1 ![] bcast_S_S4096x1 (constant (F := Ideal) S_ .f32 0x00000000#32))

/-- The scalar: the total of the means, started from the zero word, over the word of 4096. -/
def tailTerm (o : Vec Ideal S2x4096x128 .f32) : Vec Ideal S_ .f32 :=
  Host.divf (F := Ideal)
    (Host.reduceAdd (F := Ideal) (meanOf o) (constant (F := Ideal) S_ .f32 0x00000000#32) reducesTo_S4096x1_S_d0_1 h_S_)
    (constant (F := Ideal) S_ .f32 0x45800000#32)

/-- Running the three stretches from any contents writes, in the result buffer, the composed term of the second
    region's output: every intermediate buffer is written before it is read, so nothing else of the starting
    contents enters. -/
theorem tail_fold (W : Valuation τ sig (Elt Ideal)) :
    StableHlo.after hostOps2_2 (StableHlo.after hostOps2_1 (StableHlo.after hostOps2 W)) (Proc.devRef .tc main_v14)
      = tailTerm (W (Proc.devRef .tc main_v1)) := by
  simp only [Gen.hostOps2, Gen.hostOps2_1, Gen.hostOps2_2]
  after_results
  simp only [StableHlo.TRef.ofBuf, StableHlo.TRef.toBuf, cast_eq]
  rfl

/-! ## The term's value -/

/-- Batch item `b`'s mean, in the entries of the region's output. -/
theorem meanOf_apply (o : Vec Ideal S2x4096x128 .f32) (b : Fin 4096) (z : Fin 1) :
    meanOf o (ix2 b z)
      = if 0 < o (ix3 0 b ⟨2, by omega⟩) + o (ix3 1 b ⟨2, by omega⟩)
        then Ideal.div ((o (ix3 0 b ⟨0, by omega⟩) + o (ix3 1 b ⟨0, by omega⟩)) + (o (ix3 0 b ⟨1, by omega⟩) + o (ix3 1 b ⟨1, by omega⟩)))
          (max (o (ix3 0 b ⟨2, by omega⟩) + o (ix3 1 b ⟨2, by omega⟩)) one)
        else 0 := by
  unfold meanOf
  rw [select_apply, cmpf_apply, hostDivf_apply, addf_apply, maximumf_apply]
  rw [col_apply _ 0 (by omega), col_apply _ 1 (by omega), col_apply _ 2 (by omega)]
  have hb0 : broadcastInDim S4096x1 ![] bcast_S_S4096x1 (constant (F := Ideal) S_ .f32 0x00000000#32) (ix2 b z) = 0 :=
    (broadcastInDim_scalar_apply _ _ _).trans (by rw [constant_apply, Ideal.ofBits_zero_f32])
  have hb1 : broadcastInDim S4096x1 ![] bcast_S_S4096x1 (constant (F := Ideal) S_ .f32 0x3F800000#32) (ix2 b z) = one :=
    (broadcastInDim_scalar_apply _ _ _).trans rfl
  rw [hb0, hb1]
  unfold accOf
  rw [acc_apply, acc_apply, acc_apply]
  exact select_ogt _ _ _ _

/-- The scalar is the loss expression: the total over the [4096, 1] column is the sum over the 4096 rows, its
    initial value the real zero, and the divisor the batch size's word. -/
theorem tailTerm_apply (o : Vec Ideal S2x4096x128 .f32) (i : S_.Idx) : tailTerm o i = tailOf o := by
  unfold tailTerm tailOf
  rw [hostDivf_apply, hostReduceAdd_apply, Ideal.hostReduceAdd_total _ (fun b => b.elim0), constant_apply, constant_apply,
    Ideal.ofBits_zero_f32, zero_add]
  show Ideal.div (∑ i : (⟨2, ![4096, 1]⟩ : Shape).Idx, meanOf o i) batch = _
  rw [sum_idx2]
  simp only [Fin.sum_univ_one, meanOf_apply]

/-- After the three closing stretches, from any contents `W` of the buffers, the result scalar holds the loss
    expression of what the second region left in its output array. -/
theorem tail_value (W : Valuation τ sig (Elt Ideal)) :
    StableHlo.after hostOps2_2 (StableHlo.after hostOps2_1 (StableHlo.after hostOps2 W)) (Proc.devRef .tc main_v14)
      = fun _ => tailOf (W (Proc.devRef .tc main_v1)) := by
  rw [tail_fold]
  funext i
  exact tailTerm_apply _ i

end Cert.KernelIdeal.TailValue

end
-- ==== Proof.SegAlgebra.lean ====
/-
  From the two cores' partial columns to the loss.

  A negative's position n < 262144 lies in the first core's half (n / 131072 = 0) or the second's (= 1), so a sum
  over a batch item's members is the sum over its members in the first half plus the sum over those in the second.
  With the residual column zero, each batch item's combined sum and count are the specification's, and so are the
  mean and the loss.
-/
import proofs.«414421_j8624294331099_3_alg».proof.Proof.Spec

noncomputable section

namespace Cert.TripletSpec

open Idealize.ShloMosaic Idealize.ShloMosaic.ValueIdx

/-- The members of `b` that one core's tiles scan. -/
def halfMembers (idx : SIdx.Idx → BitVec 32) (b : Fin 4096) (cc : Fin 2) : Finset (Fin 262144) :=
  (members idx b).filter fun n => n.val / 131072 = cc.val

/-- A sum over a set of positions splits into the two cores' halves. -/
theorem sum_halves (S : Finset (Fin 262144)) (f : Fin 262144 → EReal) :
    (∑ n ∈ S.filter (fun n => n.val / 131072 = (0 : Fin 2).val), f n)
      + (∑ n ∈ S.filter (fun n => n.val / 131072 = (1 : Fin 2).val), f n) = ∑ n ∈ S, f n := by
  have hfil : S.filter (fun n => n.val / 131072 = (1 : Fin 2).val) = S.filter (fun n => ¬ n.val / 131072 = (0 : Fin 2).val) := by
    refine Finset.filter_congr fun n _ => ?_
    have hn := n.isLt
    show n.val / 131072 = 1 ↔ ¬ n.val / 131072 = 0
    omega
  rw [hfil]
  exact Finset.sum_filter_add_sum_filter_not S _ f

/-- The per-core columns (sum, residual, count) of every batch item determine the loss. -/
theorem loss_of_columns (a p : SEmb.Idx → EReal) (g : SNeg.Idx → EReal) (idx : SIdx.Idx → BitVec 32)
    (o : (⟨3, ![2, 4096, 128]⟩ : Shape).Idx → EReal)
    (h0 : ∀ (cc : Fin 2) (b : Fin 4096), o (ix3 cc b ⟨0, by omega⟩) = ∑ n ∈ halfMembers idx b cc, hinge a p g b n)
    (h1 : ∀ (cc : Fin 2) (b : Fin 4096), o (ix3 cc b ⟨1, by omega⟩) = 0)
    (h2 : ∀ (cc : Fin 2) (b : Fin 4096), o (ix3 cc b ⟨2, by omega⟩) = ∑ _n ∈ halfMembers idx b cc, one) :
    Ideal.div (∑ b : Fin 4096,
      (let s := (o (ix3 0 b ⟨0, by omega⟩) + o (ix3 1 b ⟨0, by omega⟩)) + (o (ix3 0 b ⟨1, by omega⟩) + o (ix3 1 b ⟨1, by omega⟩))
       let n := o (ix3 0 b ⟨2, by omega⟩) + o (ix3 1 b ⟨2, by omega⟩)
       if 0 < n then Ideal.div s (max n one) else 0)) batch = loss a p g idx := by
  unfold loss
  refine congrArg (fun x => Ideal.div x batch) (Finset.sum_congr rfl fun b _ => ?_)
  have hs : (o (ix3 0 b ⟨0, by omega⟩) + o (ix3 1 b ⟨0, by omega⟩)) + (o (ix3 0 b ⟨1, by omega⟩) + o (ix3 1 b ⟨1, by omega⟩))
      = segSum a p g idx b := by
    rw [h0, h0, h1, h1, add_zero, add_zero]
    exact sum_halves (members idx b) (fun n => hinge a p g b n)
  have hn : o (ix3 0 b ⟨2, by omega⟩) + o (ix3 1 b ⟨2, by omega⟩) = segCount idx b := by
    rw [h2, h2]
    exact sum_halves (members idx b) (fun _ => one)
  show (if 0 < o (ix3 0 b ⟨2, by omega⟩) + o (ix3 1 b ⟨2, by omega⟩) then Ideal.div _ (max _ one) else 0) = segMean a p g idx b
  rw [hs, hn]
  rfl

end Cert.TripletSpec

end
-- ==== Proof.KernelValue.lean ====
/-
  The idealized kernel program's result is the specification's loss of its four arguments.

  The run leaves the result buffer at the host tail's value of the second region's output array.  That array's
  columns are, per core, the sums of the hinges and of the ones over the batch items' members in the core's half
  (and a zero residual column), given that the first region's table holds each anchor row, its positive cosine and
  a zero residual — which it does when the two batch tables hold real numbers.  The per-core columns determine the loss.
-/
import proofs.«414421_j8624294331099_3_alg».proof.Proof.KIRun
import proofs.«414421_j8624294331099_3_alg».proof.Proof.KIRegion0Value
import proofs.«414421_j8624294331099_3_alg».proof.Proof.KIRegion1Value
import proofs.«414421_j8624294331099_3_alg».proof.Proof.PrepValue
import proofs.«414421_j8624294331099_3_alg».proof.Proof.AccValue
import proofs.«414421_j8624294331099_3_alg».proof.Proof.TailValue
import proofs.«414421_j8624294331099_3_alg».proof.Proof.SegAlgebra

noncomputable section

namespace Cert.KernelIdeal.Hand

open Cert.KernelIdeal Cert.KernelIdeal.Gen
open Idealize.ShloMosaic Idealize.ShloMosaic.TcCoe Idealize.ShloMosaic.ValueIdx
open Idealize.SL.Sem
open Cert.TripletSpec

variable (m : (ℓ : Loc nD τ sig) → Buf (Elt Ideal) ℓ) (ρ : Dev nD → PrngReg)

/-- The four arguments on core `c`, at their literal types. -/
abbrev argA (c : Dev nD) : SEmb.Idx → EReal := m ((c.tc : Thread nD τ).loc main_arg0)
abbrev argP (c : Dev nD) : SEmb.Idx → EReal := m ((c.tc : Thread nD τ).loc main_arg1)
abbrev argG (c : Dev nD) : SNeg.Idx → EReal := m ((c.tc : Thread nD τ).loc main_arg2)
abbrev argI (c : Dev nD) : SIdx.Idx → BitVec 32 := m ((c.tc : Thread nD τ).loc main_arg3)

/-- THE VALUE: where the three float arguments hold real numbers, the result buffer ends at the loss. -/
theorem kernel_loss (c : Dev nD) (ha : AllReal (argA m c)) (hp : AllReal (argP m c)) (hg : AllReal (argG m c)) :
    W5 m ρ c (Proc.devRef .tc main_v14) = fun _ => loss (argA m c) (argP m c) (argG m c) (argI m c) := by
  -- the host tail's value of the second region's output array
  refine (TailValue.tail_value (W2 m ρ c)).trans (funext fun _ => ?_)
  rw [show W2 m ρ c (Proc.devRef .tc main_v1) = (dat1 (E1 m ρ) c).arrAt 3 cfg1.N from W2_arr m ρ c 3]
  -- the second region's entry contents at the arrays it reads
  have htab : E1 m ρ c main_v0 = (dat0 (E0 m ρ) c).arrAt 2 cfg0.N := W1_arr m ρ c 2
  have hneg : E1 m ρ c main_arg2 = m ((c.tc : Thread nD τ).loc main_arg2) := (W1_of_ne m ρ c main_arg2 (by decide)).trans rfl
  have hidx : E1 m ρ c main_arg3 = m ((c.tc : Thread nD τ).loc main_arg3) := (W1_of_ne m ρ c main_arg3 (by decide)).trans rfl
  -- the table's three kinds of column
  have htA : ∀ (b : Fin 4096) (k : Fin 256), AccValue.tabArr1 (E1 m ρ) c (ix2 b ⟨k.val, by omega⟩) = argA m c (ix2 b k) := fun b k => by
    show E1 m ρ c main_v0 (ix2 b ⟨k.val, by omega⟩) = _
    rw [htab]
    exact (tab_anchor (E0 m ρ) c b k).trans (PrepValue.pay2_apply _ b k)
  have htP : ∀ b : Fin 4096, AccValue.tabArr1 (E1 m ρ) c (ix2 b ⟨256, by omega⟩) = posSim (argA m c) (argP m c) b := fun b => by
    show E1 m ρ c main_v0 (ix2 b ⟨256, by omega⟩) = _
    rw [htab]
    exact (tab_hi (E0 m ρ) c b).trans (PrepValue.pay3_apply _ _ b)
  have htZ : ∀ b : Fin 4096, AccValue.tabArr1 (E1 m ρ) c (ix2 b ⟨257, by omega⟩) = 0 := fun b => by
    show E1 m ρ c main_v0 (ix2 b ⟨257, by omega⟩) = _
    rw [htab]
    exact (tab_lo (E0 m ρ) c b).trans (PrepValue.pay4_apply _ _ ha hp b)
  have hg' : AllReal (AccValue.negArr (E1 m ρ) c) := by
    show AllReal (S := SNeg) (E1 m ρ c main_arg2); rw [hneg]; exact hg
  -- the per-core columns, then the loss
  have hcols := fun (cc : Fin 2) (b : Fin 4096) =>
    (⟨AccValue.out_col0 (E1 m ρ) c (argA m c) (argP m c) ha hp hg' htA htP htZ cc b,
      AccValue.out_col1 (E1 m ρ) c (argA m c) (argP m c) ha hp hg' htA htP htZ cc b,
      AccValue.out_col2 (E1 m ρ) c (argA m c) (argP m c) ha hp hg' htA htP htZ cc b⟩ : _ ∧ _ ∧ _)
  have hN : AccValue.negArr (E1 m ρ) c = argG m c := hneg
  have hI : AccValue.idxArr (E1 m ρ) c = argI m c := hidx
  refine loss_of_columns (argA m c) (argP m c) (argG m c) (argI m c) _
    (fun cc b => ((hcols cc b).1).trans (by rw [hN, hI]; rfl))
    (fun cc b => (hcols cc b).2.1)
    (fun cc b => ((hcols cc b).2.2).trans (by rw [hI]; rfl))

/-- THE VALUE RUN: where the three float arguments hold real numbers on every core, every weakly fair execution
    terminates with the result buffer at the loss and the arguments as launched. -/
theorem run_loss (hreal : ∀ c : Dev nD, AllReal (argA m c) ∧ AllReal (argP m c) ∧ AllReal (argG m c)) :
    θ_run defs (onTc (τ := τ) (main (F := Ideal))) ⟨m, fun _ => 0, ρ⟩ (fun r => ∀ c : Dev nD,
      r.2.mem ((c.tc : Thread nD τ).loc main_v14) = (fun _ => loss (argA m c) (argP m c) (argG m c) (argI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v14 (by decide))).trans (kernel_loss m ρ c (hreal c).1 (hreal c).2.1 (hreal c).2.2),
     (h c _ (mem_uc main_arg0 (by decide))).trans ((W5_of m ρ c main_arg0 (by decide) (by decide) (by decide)).trans (W2_main_arg0 m ρ c)),
     (h c _ (mem_uc main_arg1 (by decide))).trans ((W5_of m ρ c main_arg1 (by decide) (by decide) (by decide)).trans (W2_main_arg1 m ρ c)),
     (h c _ (mem_uc main_arg2 (by decide))).trans ((W5_of m ρ c main_arg2 (by decide) (by decide) (by decide)).trans (W2_main_arg2 m ρ c)),
     (h c _ (mem_uc main_arg3 (by decide))).trans ((W5_of m ρ c main_arg3 (by decide) (by decide) (by decide)).trans (W2_main_arg3 m ρ c))⟩)
    (run_all m ρ)

end Cert.KernelIdeal.Hand

end
-- ==== Proof.RefValue.lean ====
/-
  The reference's result, read off its generated run, is the specification's loss of the four arguments.

  The road: each batch item's positive similarity is the clamped cosine of its two rows; a negative whose
  index word is the word of a batch item `b` is left alone by the wrap of negative indices, so both gathers
  read item `b` and the negative's hinge is the specification's; the two accumulating scatters read the
  index word signed and drop what falls outside the batch, so an update lands on item `b` exactly when its
  word is `b`'s: the sums and the counts are the specification's, and so are the means and their total.
-/
import proofs.«414421_j8624294331099_3_alg».proof.Proof.RefReadP
import proofs.«414421_j8624294331099_3_alg».proof.Proof.Spec
import Idealize.ShloMosaic.PureOps.Ideal.Laws
import Idealize.ShloMosaic.Lib.ValueIdx
import Idealize.ShloMosaic.Lib.ValueIdxRank1
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx

/-! ## Index words -/

/-- A 32-bit word read signed is a number below 4096 exactly when it is that number's word. -/
theorem toInt_eq_iff (w : BitVec 32) (b : Fin 4096) : w.toInt = (b.val : Int) ↔ w = BitVec.ofNat 32 b.val := by
  constructor
  · intro h
    have := BitVec.ofInt_toInt (x := w)
    rw [h, BitVec.ofInt_natCast] at this
    exact this.symm
  · intro h
    rw [h]
    exact StableHlo.Predicate.toInt_ofNat_small b.val (by have := b.isLt; omega)

/-- The wrap of a negative index leaves the word of a number below 4096 alone: it is not negative. -/
theorem wrap_word (b : Fin 4096) :
    Scalar.select (IntOp.cmpi .slt (BitVec.ofNat 32 b.val) 0#32) (IntOp.addi (BitVec.ofNat 32 b.val) 4096#32) (BitVec.ofNat 32 b.val)
      = BitVec.ofNat 32 b.val := by
  have h : IntOp.cmpi .slt (BitVec.ofNat 32 b.val) 0#32 = 0#1 := by
    apply eq_zero_of_ne_one
    intro h1
    have := (StableHlo.Predicate.slt_ofNat_iff b.val 0 (by have := b.isLt; omega) (by decide)).mp h1
    omega
  rw [h, select_zero]

/-- The start index a gather clamps into the table is, for the word of a number below 4096, that number. -/
theorem clamp_word (b : Fin 4096) : min (BitVec.ofNat 32 b.val).toInt.toNat 4095 = b.val := by
  rw [StableHlo.Predicate.toInt_ofNat_small b.val (by have := b.isLt; omega)]
  have := b.isLt
  omega

/-! ## The two gathers read at an index

Both take one start index per negative (the start indices are a column, `[262144, 1]`), collapse the table's first
axis and clamp the start into it. Stated for any dimension numbers with those lists, so that the program's two records
meet them by unfolding. -/

private theorem getElem_of_eq_singleton {α : Type} {l : List α} {a : α} (h : l = [a]) (i : Nat) (hi : i < l.length) :
    l[i] = a := by
  subst h
  match i, hi with
  | 0, _ => rfl

/-- Rows of a `[4096, 256]` table: result element `(n, k)` is the table's `(r, k)`, `r` the clamped start index of `n`. -/
theorem gather_rows_apply {α : Type} {w : Nat}
    (d : GatherDims ⟨2, ![4096, 256]⟩ ⟨2, ![262144, 1]⟩ ⟨2, ![262144, 256]⟩)
    (hoff : d.offsetDims = [1]) (hcoll : d.collapsedSliceDims = [0]) (hob : d.operandBatchingDims = [])
    (hsim : d.startIndexMap = [0]) (hivd : d.indexVectorDim = 1)
    (x : (⟨2, ![4096, 256]⟩ : Shape).Idx → α) (idx : IVec ⟨2, ![262144, 1]⟩ w) (n : Fin 262144) (k : Fin 256)
    (r : Fin 4096) (hr : min (idx (ix2 n 0)).toInt.toNat 4095 = r.val) :
    Host.gather d x idx (ix2 n k) = x (ix2 r k) := by
  unfold Host.gather
  congr 1
  funext a
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 n k) idx 0 + d.batchCoord (ix2 n k) 0 + d.offCoord (ix2 n k) 0 = r.val
    rw [d.batchCoord_eq_zero _ _ (hb 0), d.offCoord_eq_zero _ _ hk, ← hr]
    simp only [Nat.add_zero, GatherDims.start, dif_pos hm]
    show min (idx _).toInt.toNat (4096 - d.sliceSizes 0) = min (idx (ix2 n 0)).toInt.toNat 4095
    rw [hsl]
    congr 3
    congr 1
    funext b
    match b with
    | ⟨0, _⟩ =>
      unfold GatherDims.siIdx
      rw [dif_neg (by rw [hivd]; exact Nat.zero_ne_one)]
      unfold GatherDims.siCoord
      apply Fin.ext
      simp only [Fin.val_cast]
      have hbd : d.batchDims = [0] := by
        show Shape.kept _ d.offsetDims = _
        rw [hoff]; rfl
      rw [getElem_of_eq_singleton hbd]
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hm : (1 : Fin 2) ∉ d.startIndexMap := by rw [hsim]; decide
    have hk : (1 : Fin 2) ∈ d.sKept := by rw [GatherDims.mem_sKept, hcoll, hob]; decide
    show d.start (ix2 n k) idx 1 + d.batchCoord (ix2 n k) 1 + d.offCoord (ix2 n k) 1 = k.val
    rw [d.batchCoord_eq_zero _ _ (hb 1)]
    simp only [GatherDims.start, dif_neg hm, GatherDims.offCoord, dif_pos hk, Nat.zero_add, Nat.add_zero]
    rw [getElem_of_eq_singleton hoff]

/-- Entries of a `[4096]` table: result element `n` is the table's `r`, `r` the clamped start index of `n`. -/
theorem gather_entries_apply {α : Type} {w : Nat}
    (d : GatherDims ⟨1, ![4096]⟩ ⟨2, ![262144, 1]⟩ ⟨1, ![262144]⟩)
    (hcoll : d.collapsedSliceDims = [0]) (hob : d.operandBatchingDims = [])
    (hsim : d.startIndexMap = [0]) (hivd : d.indexVectorDim = 1)
    (x : (⟨1, ![4096]⟩ : Shape).Idx → α) (idx : IVec ⟨2, ![262144, 1]⟩ w) (n : Fin 262144)
    (r : Fin 4096) (hr : min (idx (ix2 n 0)).toInt.toNat 4095 = r.val) :
    Host.gather d x idx (ix1 n) = x (ix1 r) := by
  have h1 : ∀ {m : Nat} (p : Fin m), (ix1 p : (⟨1, ![m]⟩ : Shape).Idx) = Shape.Idx.ofFin p := fun p => by
    funext a; obtain rfl : a = 0 := Subsingleton.elim _ _; exact Fin.ext rfl
  have h2 : StableHlo.Predicate.ixP n = (ix2 n (0 : Fin 1) : (⟨2, ![262144, 1]⟩ : Shape).Idx) := by
    funext a; match a with | ⟨0, _⟩ => rfl | ⟨1, _⟩ => rfl
  rw [h1, h1]
  refine (StableHlo.Predicate.gather_take d hcoll hob hsim hivd x idx n (by decide)).trans (congrArg x ?_)
  funext a
  obtain rfl : a = 0 := Subsingleton.elim _ _
  apply Fin.ext
  show min (idx (StableHlo.Predicate.ixP n)).toInt.toNat (4096 - 1) = r.val
  rw [h2]; exact hr

/-! ## The scatter's landing index

One scatter index per update, read signed and not clamped; an update whose index is outside the operand is dropped. -/

section Scatter
variable {w : Nat} (d : ScatterDims ⟨1, ![4096]⟩ ⟨2, ![262144, 1]⟩ ⟨1, ![262144]⟩)
    (huw : d.updateWindowDims = []) (hiw : d.insertedWindowDims = [0])
    (hsd : d.scatterDimsToOperandDims = [0]) (hivd : d.indexVectorDim = 1)
include huw hiw hsd hivd

theorem scatter_start (idx : IVec ⟨2, ![262144, 1]⟩ w) (n : Fin 262144) :
    d.start (ix1 n) idx 0 = (idx (ix2 n 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, ((ix1 n : (⟨1, ![262144]⟩ : Shape).Idx) X).val = n.val := fun X => by
      obtain rfl : X = 0 := Subsingleton.elim _ _; rfl
    exact e _
  | ⟨1, _⟩ =>
    unfold ScatterDims.siIdx
    rw [dif_pos (by rw [hivd])]
    apply Fin.ext
    show List.idxOf (0 : Fin 1) d.scatterDimsToOperandDims = 0
    rw [hsd]; simp

theorem scatter_window (n : Fin 262144) : d.window (ix1 n) 0 = 0 := by
  have hk : (0 : Fin 1) ∉ d.sKept := by
    show (0 : Fin 1) ∉ Shape.kept _ d.insertedWindowDims
    rw [hiw]; decide
  unfold ScatterDims.window
  rw [dif_neg hk]

/-- Update `n` lands on element `i` exactly when its index word, read signed, is `i`'s coordinate. -/
theorem scatter_resultIdx_iff (idx : IVec ⟨2, ![262144, 1]⟩ w) (n : Fin 262144) (i : (⟨1, ![4096]⟩ : Shape).Idx) :
    d.resultIdx? (ix1 n) idx = some i ↔ (idx (ix2 n 0)).toInt = ((i 0).val : Int) := by
  have hst := scatter_start d huw hiw hsd hivd idx n
  have hwin := scatter_window d huw hiw hsd hivd n
  have hi : (i 0).val < 4096 := (i 0).isLt
  unfold ScatterDims.resultIdx?
  split
  · rename_i h
    have h0 := h 0
    rw [hst, hwin] at h0
    rw [Option.some.injEq]
    constructor
    · intro hf
      have := congrArg (fun f => (f 0).val) hf
      simp only [hst, hwin] at this
      omega
    · intro hv
      funext a
      obtain rfl : a = 0 := Subsingleton.elim _ _
      apply Fin.ext
      show (d.start (ix1 n) idx 0 + ((d.window (ix1 n) 0 : Nat) : Int)).toNat = (i 0).val
      rw [hst, hwin]; omega
  · rename_i h
    constructor
    · intro h'; cases h'
    · intro hv
      exfalso; apply h
      intro a
      obtain rfl : a = 0 := Subsingleton.elim _ _
      rw [hst, hwin]
      show 0 ≤ (idx (ix2 n 0)).toInt + ((0 : Nat) : Int) ∧ (idx (ix2 n 0)).toInt + ((0 : Nat) : Int) < ((4096 : Nat) : Int)
      omega

end Scatter

/-! ## The program's index maps at coordinates -/

section Program
variable (x0 x1 : (⟨S4096x256, .f32⟩ : BufTy).Contents (Elt Ideal))
  (x2 : (⟨S262144x256, .f32⟩ : BufTy).Contents (Elt Ideal))
  (x3 : (⟨S262144, .i32⟩ : BufTy).Contents (Elt Ideal))

theorem idx_v1 (b : Fin 4096) (k : Fin 256) : idx_main_v1 (ix1 b) k = ix2 b k := by
  funext a; match a with | ⟨0, _⟩ => rfl | ⟨1, _⟩ => rfl
theorem idx_call0_v1 (b : Fin 4096) (k : Fin 256) : idx_main_call0_v1 (ix1 b) k = ix2 b k := by
  funext a; match a with | ⟨0, _⟩ => rfl | ⟨1, _⟩ => rfl
theorem idx_call1_v1 (b : Fin 4096) (k : Fin 256) : idx_main_call1_v1 (ix1 b) k = ix2 b k := by
  funext a; match a with | ⟨0, _⟩ => rfl | ⟨1, _⟩ => rfl
theorem idx_v16 (n : Fin 262144) (k : Fin 256) : idx_main_v16 (ix1 n) k = ix2 n k := by
  funext a; match a with | ⟨0, _⟩ => rfl | ⟨1, _⟩ => rfl
theorem idx_call2_v1 (n : Fin 262144) (k : Fin 256) : idx_main_call2_v1 (ix1 n) k = ix2 n k := by
  funext a; match a with | ⟨0, _⟩ => rfl | ⟨1, _⟩ => rfl
theorem idx_call3_v1 (n : Fin 262144) (k : Fin 256) : idx_main_call3_v1 (ix1 n) k = ix2 n k := by
  funext a; match a with | ⟨0, _⟩ => rfl | ⟨1, _⟩ => rfl
theorem idx_v13 (n : Fin 262144) : idx_main_v13 (ix2 n (0 : Fin 1)) = ix1 n := by
  funext a; match a with | ⟨0, _⟩ => rfl
theorem idx_v30 (n : Fin 262144) : idx_main_v30 (ix2 n (0 : Fin 1)) = ix1 n := by
  funext a; match a with | ⟨0, _⟩ => rfl
theorem idx_v36 (n : Fin 262144) : idx_main_v36 (ix2 n (0 : Fin 1)) = ix1 n := by
  funext a; match a with | ⟨0, _⟩ => rfl
theorem idx_v40 (n : Fin 262144) : idx_main_v40 (ix2 n (0 : Fin 1)) = ix1 n := by
  funext a; match a with | ⟨0, _⟩ => rfl

/-! ## The positive similarity -/

/-- Batch item `b`'s positive similarity is the clamped cosine of its anchor and positive rows. -/
theorem pos_sim (b : Fin 4096) : val_main_v7 (F := Ideal) x0 x1 (ix1 b) = TripletSpec.posSim x0 x1 b := by
  rw [val_main_v7_apply, val_main_v1_apply, val_main_v6_apply, val_main_v4_apply, val_main_v2_apply, val_main_v3_apply,
    val_main_call0_v1_apply, val_main_call1_v1_apply, val_main_v5_apply]
  simp only [val_main_cst_apply, val_main_call0_cst_apply, val_main_call1_cst_apply, val_main_cst_0_apply,
    val_main_v0_apply, val_main_call0_v0_apply, val_main_call1_v0_apply, idx_v1, idx_call0_v1, idx_call1_v1,
    Ideal.hostDivf_def, Ideal.mulf_def, Ideal.maximumf_def, Ideal.hostUnary_sqrt_def, Ideal.ofBits_def,
    Ideal.ofBits_zero_f32, zero_add]
  rfl

/-! ## A negative whose index word is the word of batch item `b` -/

section Member
variable (n : Fin 262144) (b : Fin 4096) (h : x3 (ix1 n) = BitVec.ofNat 32 b.val)
include h

/-- The wrapped index (first copy) is the word itself. -/
theorem v13_member : val_main_v13 (F := Ideal) x3 (ix2 n (0 : Fin 1)) = BitVec.ofNat 32 b.val := by
  rw [val_main_v13_apply, idx_v13, val_main_v12_apply, val_main_v9_apply, val_main_v11_apply, val_main_v8_apply,
    val_main_v10_apply, val_main_c_apply, val_main_c_1_apply, h]
  exact wrap_word b

/-- The wrapped index (second copy) is the word itself. -/
theorem v30_member : val_main_v30 (F := Ideal) x3 (ix2 n (0 : Fin 1)) = BitVec.ofNat 32 b.val := by
  rw [val_main_v30_apply, idx_v30, val_main_v29_apply, val_main_v26_apply, val_main_v28_apply, val_main_v25_apply,
    val_main_v27_apply, val_main_c_5_apply, val_main_c_6_apply, h]
  exact wrap_word b

/-- The gathered anchor row is row `b` of the anchors. -/
theorem v14_member (k : Fin 256) : val_main_v14 (F := Ideal) x0 x3 (ix2 n k) = x0 (ix2 b k) := by
  unfold val_main_v14
  exact gather_rows_apply _ rfl rfl rfl rfl rfl x0 _ n k b (by rw [v13_member x3 n b h]; exact clamp_word b)

/-- The gathered positive similarity is batch item `b`'s. -/
theorem v31_member : val_main_v31 (F := Ideal) x0 x1 x3 (ix1 n) = TripletSpec.posSim x0 x1 b := by
  unfold val_main_v31
  rw [gather_entries_apply _ rfl rfl rfl rfl _ _ n b (by rw [v30_member x3 n b h]; exact clamp_word b)]
  exact pos_sim x0 x1 b

/-- The negative's similarity is the clamped cosine of anchor row `b` and its own row. -/
theorem v22_member :
    val_main_v22 (F := Ideal) x0 x2 x3 (ix1 n) = TripletSpec.cosine (TripletSpec.rowA x0 b) (TripletSpec.rowN x2 n) := by
  rw [val_main_v22_apply, val_main_v16_apply, val_main_v21_apply, val_main_v19_apply, val_main_v17_apply,
    val_main_v18_apply, val_main_call2_v1_apply, val_main_call3_v1_apply, val_main_v20_apply]
  simp only [val_main_cst_2_apply, val_main_call2_cst_apply, val_main_call3_cst_apply, val_main_cst_3_apply,
    val_main_v15_apply, val_main_call2_v0_apply, val_main_call3_v0_apply, idx_v16, idx_call2_v1, idx_call3_v1,
    v14_member x0 x3 n b h,
    Ideal.hostDivf_def, Ideal.mulf_def, Ideal.maximumf_def, Ideal.hostUnary_sqrt_def, Ideal.ofBits_def,
    Ideal.ofBits_zero_f32, zero_add]
  rfl

/-- The negative's hinge is the specification's, scored against batch item `b`. -/
theorem v34_member : val_main_v34 (F := Ideal) x0 x1 x2 x3 (ix1 n) = TripletSpec.hinge x0 x1 x2 b n := by
  rw [val_main_v34_apply, val_main_v32_apply, val_main_v24_apply, val_main_v23_apply, val_main_v33_apply,
    val_main_cst_4_apply, val_main_cst_7_apply, v22_member x0 x2 x3 n b h, v31_member x0 x1 x3 n b h]
  simp only [Ideal.maximumf_def, Ideal.subf_def, Ideal.addf_def, Ideal.ofBits_def, Ideal.ofBits_zero_f32]
  rfl

end Member

/-! ## The segment sums and counts -/

/-- The accumulating scatter at batch item `b`: the operand's element plus the updates of `b`'s members. -/
theorem scatterAdd_apply (x : (⟨1, ![4096]⟩ : Shape).Idx → EReal) (idx : IVec ⟨2, ![262144, 1]⟩ 32)
    (hidx : ∀ n : Fin 262144, idx (ix2 n 0) = x3 (ix1 n)) (upd : (⟨1, ![262144]⟩ : Shape).Idx → EReal) (b : Fin 4096) :
    Ideal.hostScatterAdd scatter_S4096_S262144x1_S262144_n_0_0_1 x idx upd (ix1 b)
      = x (ix1 b) + ∑ n ∈ TripletSpec.members x3 b, upd (ix1 n) := by
  unfold Ideal.hostScatterAdd
  refine congrArg (x (ix1 b) + ·) ?_
  refine Finset.sum_equiv idxEquiv1 (fun j => ?_) (fun j _ => congrArg upd (eq_ix1 j))
  obtain ⟨n, rfl⟩ : ∃ n, j = ix1 n := ⟨j 0, eq_ix1 j⟩
  show ix1 n ∈ Finset.univ.filter _ ↔ n ∈ Finset.univ.filter _
  rw [Finset.mem_filter, Finset.mem_filter]
  simp only [Finset.mem_univ, true_and]
  refine (scatter_resultIdx_iff _ rfl rfl rfl rfl idx n (ix1 b)).trans ?_
  rw [hidx]
  exact toInt_eq_iff _ b

theorem v37_apply (b : Fin 4096) :
    val_main_v37 (F := Ideal) x0 x1 x2 x3 (ix1 b) = TripletSpec.segSum x0 x1 x2 x3 b := by
  unfold val_main_v37
  simp only [Host.scatterAdd, Ideal.hostScatterAdd_def]
  rw [scatterAdd_apply x3 _ _ (fun n => by rw [val_main_v36_apply, idx_v36]) _ b, val_main_v35_apply,
    val_main_cst_8_apply, Ideal.ofBits_def, Ideal.ofBits_zero_f32, zero_add]
  exact Finset.sum_congr rfl fun n hn => v34_member x0 x1 x2 x3 n b (Finset.mem_filter.mp hn).2

theorem v41_apply (b : Fin 4096) : val_main_v41 (F := Ideal) x3 (ix1 b) = TripletSpec.segCount x3 b := by
  unfold val_main_v41
  simp only [Host.scatterAdd, Ideal.hostScatterAdd_def]
  rw [scatterAdd_apply x3 _ _ (fun n => by rw [val_main_v40_apply, idx_v40]) _ b, val_main_v39_apply,
    val_main_cst_10_apply, Ideal.ofBits_def, Ideal.ofBits_zero_f32, zero_add]
  refine Finset.sum_congr rfl fun n _ => ?_
  rw [val_main_v38_apply, val_main_cst_9_apply, Ideal.ofBits_def]
  rfl

/-! ## The means and their total -/

theorem v47_apply (b : Fin 4096) :
    val_main_v47 (F := Ideal) x0 x1 x2 x3 (ix1 b) = TripletSpec.segMean x0 x1 x2 x3 b := by
  rw [val_main_v47_apply, val_main_v43_apply, val_main_v46_apply, val_main_v45_apply, val_main_call4_v1_apply,
    val_main_call4_v0_apply, val_main_cst_13_apply, val_main_v42_apply, val_main_cst_11_apply, val_main_v44_apply,
    val_main_cst_12_apply, v37_apply, v41_apply]
  simp only [Ideal.cmpf_def, Ideal.hostDivf_def, Ideal.maximumf_def, Ideal.ofBits_def, Ideal.ofBits_zero_f32]
  have hcmp : Ideal.cmp .ogt (TripletSpec.segCount x3 b) 0
      = BitVec.ofBool (decide (0 < TripletSpec.segCount x3 b)) := rfl
  rw [hcmp]
  unfold TripletSpec.segMean Scalar.select
  by_cases hc : 0 < TripletSpec.segCount x3 b
  · rw [if_pos hc, decide_eq_true hc, if_pos (show BitVec.ofBool true = 1 from rfl)]; rfl
  · rw [if_neg hc, decide_eq_false hc, if_neg (by decide)]

/-- The reference's result is the specification's loss. -/
theorem ref_loss :
    val_main_v49 (F := Ideal) x0 x1 x2 x3 = fun _ => TripletSpec.loss x0 x1 x2 x3 := by
  funext i
  have hsum : ∑ j : S4096.Idx, val_main_v47 (F := Ideal) x0 x1 x2 x3 j
      = ∑ b : Fin 4096, TripletSpec.segMean x0 x1 x2 x3 b :=
    (Equiv.sum_comp (idxEquiv1 (n := 4096)).symm (val_main_v47 (F := Ideal) x0 x1 x2 x3)).symm.trans
      (Finset.sum_congr rfl fun b _ => v47_apply x0 x1 x2 x3 b)
  rw [val_main_v49_apply, val_main_v48_apply, hsum, val_main_cst_14_apply, val_main_cst_15_apply]
  simp only [Ideal.hostDivf_def, Ideal.ofBits_def, Ideal.ofBits_zero_f32, zero_add]
  unfold TripletSpec.loss TripletSpec.batch
  rfl

end Program

end Cert.ReferenceIdeal.RefValue

end
-- ==== Proof.Finite.lean ====
/-
  Under the stated precondition every entry of the three float arguments is a real number.

  The precondition is the conjunction of three "all entries satisfy |x| < +∞"; an extended real whose absolute
  value (the larger of x and −x) lies strictly below the top element is neither infinity.
-/
import proofs.«414421_j8624294331099_3_alg».proof.Pre_finite_inputs
import proofs.«414421_j8624294331099_3_alg».proof.Proof.Gen.Pre_finite_inputs
import proofs.«414421_j8624294331099_3_alg».proof.Proof.Spec
import Idealize.ShloMosaic.Lib.ReduceAll
import Idealize.ShloMosaic.Lib.Affine

noncomputable section

namespace Cert.TripletSpec

open Idealize.ShloMosaic

/-- The infinity word denotes the top element. -/
theorem ofBits_inf : Ideal.ofBits .f32 0x7F800000#32 = (⊤ : EReal) := by
  simp [Ideal.ofBits, Ideal.ieee]

/-- An extended real whose absolute value is strictly below the top element is real. -/
theorem real_of_abs_lt_top (x : EReal) (h : FloatOps.cmpf (F := Ideal) .olt (FloatOps.hostAbsf (F := Ideal) x) (Ideal.ofBits .f32 0x7F800000#32) = 1#1) :
    ∃ r : ℝ, x = (r : EReal) := by
  rw [ofBits_inf] at h
  induction x using EReal.rec with
  | bot => exact absurd h (by decide)
  | coe r => exact ⟨r, rfl⟩
  | top => exact absurd h (by decide)

section

variable [Cert.Pre_finite_inputs.Facts]

open Cert.Pre_finite_inputs

instance : Subsingleton S_.Idx := ⟨fun a b => funext fun d => d.elim0⟩

/-- Where the printed precondition holds, each of the three float arguments holds only real numbers. -/
theorem allReal_of_pre (x0 x1 : FVec Ideal S4096x256 .f32) (x2 : FVec Ideal S262144x256 .f32) (x3 : IVec S262144 32)
    (h : Cert.Pre_finite_inputs.fn (F := Ideal) x0 x1 x2 x3 = fun _ => 1#1) :
    AllReal (S := SEmb) x0 ∧ AllReal (S := SEmb) x1 ∧ AllReal (S := SNeg) x2 := by
  have h0 := congrFun h ValueIdx.ix0
  dsimp only [Cert.Pre_finite_inputs.fn] at h0
  obtain ⟨h01, h2⟩ := IntOp.andi_eq_one.mp (show IntOp.andi _ _ = 1#1 from h0)
  obtain ⟨h00, h1⟩ := IntOp.andi_eq_one.mp (show IntOp.andi _ _ = 1#1 from h01)
  refine ⟨fun i => ?_, fun i => ?_, fun i => ?_⟩
  · exact real_of_abs_lt_top _ (Host.reduce_andi_all _ _ _ _ _ h00 i)
  · exact real_of_abs_lt_top _ (Host.reduce_andi_all _ _ _ _ _ h1 i)
  · exact real_of_abs_lt_top _ (Host.reduce_andi_all _ _ _ _ _ h2 i)

end

end Cert.TripletSpec

end
-- ==== Proof.lean ====
/-
  The certificate's five claims.

  Frames of the two kernel programs: each is run from the launch to the return as two kernel regions and three
  stretches of host operations, every unscoped buffer's final contents named; no item writes an argument.  The
  reference's frame is its run with the result dropped.  The idealization removed two bf16 round trips, each its
  rule's statement.  At the ideal instance both programs end at one function of the four arguments: the mean over
  the batch of each item's mean hinge over the negatives indexed to it (the kernel gathers and scatters by one-hot
  matrix products, tile by tile and core by core; the reference by gather and scatter-add), which needs the three
  float arguments real — the precondition.
-/
import proofs.«414421_j8624294331099_3_alg».proof.Defs
import proofs.«414421_j8624294331099_3_alg».proof.Proof.Gen.Kernel
import proofs.«414421_j8624294331099_3_alg».proof.Proof.Gen.KernelIdeal
import proofs.«414421_j8624294331099_3_alg».proof.Proof.Gen.ReferenceIdeal
import proofs.«414421_j8624294331099_3_alg».proof.Proof.Gen.Pre_finite_inputs
import proofs.«414421_j8624294331099_3_alg».proof.Proof.KRun
import proofs.«414421_j8624294331099_3_alg».proof.Proof.KIRun
import proofs.«414421_j8624294331099_3_alg».proof.Proof.KernelValue
import proofs.«414421_j8624294331099_3_alg».proof.Proof.RefValue
import proofs.«414421_j8624294331099_3_alg».proof.Proof.Finite
import Idealize.ShloMosaic.Adequacy
import Idealize.ShloMosaic.Init

noncomputable section

namespace Cert.Proof

open Idealize.ShloMosaic Idealize.ShloMosaic.TcCoe Idealize.SL.Sem Cert.TripletSpec

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The two bf16 round trips the idealization removed. -/
theorem preserves : Cert.preserves_Kernel_KernelIdeal :=
  ⟨IdealRules.truncf_extf.statement _ .f32 .bf16, IdealRules.truncf_extf.statement _ .f32 .bf16⟩

/-- Both idealized programs end at the specification's loss of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI := Cert.Pre_finite_inputs.Gen.facts
  have hreal := fun c : Dev Cert.KernelIdeal.nD => allReal_of_pre _ _ _ _ (hpre c)
  refine ⟨fun c => fun _ => loss (Cert.KernelIdeal.Hand.argA m c) (Cert.KernelIdeal.Hand.argP m c) (Cert.KernelIdeal.Hand.argG m c) (Cert.KernelIdeal.Hand.argI m c),
    Cert.KernelIdeal.Hand.run_loss m ρ hreal, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v49_eq, Cert.ReferenceIdeal.RefValue.ref_loss,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
